-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S800000 32) (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S800000 32 := broadcastInDim S800000 ![] bcast_S_S800000 main_c_14
  let main_v40 : IVec S800000 1 := cmpi .sge main_arg1 main_v39
  let main_c_15 : IVec S_ 32 := constantI S_ 32 100000#32
  let main_v41 : IVec S800000 32 := broadcastInDim S800000 ![] bcast_S_S800000 main_c_15
  let main_v42 : IVec S800000 1 := cmpi .slt main_arg1 main_v41
  let main_v43 : IVec S800000 1 := andi main_v40 main_v42
  let main_c_16 : IVec S_ 1 := constantI S_ 1 1#1
  let main_v44 : IVec S_ 1 := (fun x v => Host.reduce IntOp.andi x v reducesTo_S800000_S_d0 h_S_) main_v43 main_c_16
  let main_v45 : IVec S_ 1 := andi main_v38 main_v44
  main_v45

def fn_part1 {F : FTy → Type} [FloatOps F] (main_arg1 : IVec S800000 32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_v33

def fn {F : FTy → Type} [FloatOps F] (main_arg0 : FVec F S100000x128 .f32) (main_arg1 : IVec S800000 32) (main_arg2 : IVec S800000 32) (main_arg3 : FVec F S128x128 .f32) (main_arg4 : FVec F S128x128 .f32) (main_arg5 : FVec F S128x128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S8x128 : Shape := ⟨2, ![8, 128]⟩
abbrev S4000x128 : Shape := ⟨2, ![4000, 128]⟩
abbrev S100000x8x16 : Shape := ⟨3, ![100000, 8, 16]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x8x16 : Shape := ⟨3, ![800000, 8, 16]⟩
abbrev S800000x8 : Shape := ⟨2, ![800000, 8]⟩
abbrev S800000x8x1 : Shape := ⟨3, ![800000, 8, 1]⟩
abbrev S100000x8x1 : Shape := ⟨3, ![100000, 8, 1]⟩
abbrev S100000x8 : Shape := ⟨2, ![100000, 8]⟩
abbrev S800000x128 : Shape := ⟨2, ![800000, 128]⟩
abbrev S1x128 : Shape := ⟨2, ![1, 128]⟩
abbrev S4000x8 : Shape := ⟨2, ![4000, 8]⟩

abbrev nBuf : Space → Nat
  | .hbm => 133
  | .vmem => 24
  | .smem => 0
  | _ => 0

abbrev hbmTy0_0 (i : Nat) : BufTy := match i % 128 with
  | 0 => ⟨S100000x128, .f32⟩
  | 1 => ⟨S800000, .i32⟩
  | 2 => ⟨S800000, .i32⟩
  | 3 => ⟨S128x128, .f32⟩
  | 4 => ⟨S128x128, .f32⟩
  | 5 => ⟨S128x128, .f32⟩
  | 6 => ⟨S128x128, .f32⟩
  | 7 => ⟨S128, .f32⟩
  | 8 => ⟨S128x128, .f32⟩
  | 9 => ⟨S128, .f32⟩
  | 10 => ⟨S8x128, .f32⟩
  | 11 => ⟨S128x128, .f32⟩
  | 12 => ⟨S128x128, .f32⟩
  | 13 => ⟨S128x128, .f32⟩
  | 14 => ⟨S100000x128, .f32⟩
  | 15 => ⟨S100000x128, .f32⟩
  | 16 => ⟨S100000x128, .f32⟩
  | 17 => ⟨S100000x8x16, .f32⟩
  | 18 => ⟨S100000x8x16, .f32⟩
  | 19 => ⟨S100000x8x16, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S1, .i32⟩
  | 29 => ⟨S_, .i32⟩
  | 30 => ⟨S800000x1, .i32⟩
  | 31 => ⟨S800000x1, .i1⟩
  | 32 => ⟨S1x1, .i32⟩
  | 33 => ⟨S800000x1, .i32⟩
  | 34 => ⟨S800000x1, .i1⟩
  | 35 => ⟨S800000x1, .i1⟩
  | 36 => ⟨S_, .i1⟩
  | 37 => ⟨S800000, .i1⟩
  | 38 => ⟨S800000x8x16, .f32⟩
  | 39 => ⟨S800000x8x16, .i1⟩
  | 40 => ⟨S_, .f32⟩
  | 41 => ⟨S800000x8x16, .f32⟩
  | 42 => ⟨S800000x8x16, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S1, .i32⟩
  | 52 => ⟨S_, .i32⟩
  | 53 => ⟨S800000x1, .i32⟩
  | 54 => ⟨S800000x1, .i1⟩
  | 55 => ⟨S1x1, .i32⟩
  | 56 => ⟨S800000x1, .i32⟩
  | 57 => ⟨S800000x1, .i1⟩
  | 58 => ⟨S800000x1, .i1⟩
  | 59 => ⟨S_, .i1⟩
  | 60 => ⟨S800000, .i1⟩
  | 61 => ⟨S800000x8x16, .f32⟩
  | 62 => ⟨S800000x8x16, .i1⟩
  | 63 => ⟨S_, .f32⟩
  | 64 => ⟨S800000x8x16, .f32⟩
  | 65 => ⟨S800000x8x16, .f32⟩
  | 66 => ⟨S800000x8x16, .f32⟩
  | 67 => ⟨S_, .f32⟩
  | 68 => ⟨S800000x8, .f32⟩
  | 69 => ⟨S800000x8x1, .f32⟩
  | 70 => ⟨S_, .f32⟩
  | 71 => ⟨S_, .f32⟩
  | 72 => ⟨S800000x8x1, .f32⟩
  | 73 => ⟨S800000x8x1, .i1⟩
  | 74 => ⟨S_, .f32⟩
  | 75 => ⟨S800000x8x1, .f32⟩
  | 76 => ⟨S800000x8x1, .f32⟩
  | 77 => ⟨S800000x8x1, .f32⟩
  | 78 => ⟨S800000x8x1, .f32⟩
  | 79 => ⟨S_, .f32⟩
  | 80 => ⟨S100000x8x1, .f32⟩
  | 81 => ⟨S800000x1, .i32⟩
  | 82 => ⟨S100000x8x1, .f32⟩
  | 83 => ⟨S100000x8, .f32⟩
  | 84 => ⟨S_, .f32⟩
  | 85 => ⟨S100000x8, .f32⟩
  | 86 => ⟨S100000x8, .i1⟩
  | 87 => ⟨S_, .f32⟩
  | 88 => ⟨S_, .f32⟩
  | 89 => ⟨S100000x8, .f32⟩
  | 90 => ⟨S100000x8, .f32⟩
  | 91 => ⟨S_, .f32⟩
  | 92 => ⟨S100000x8, .f32⟩
  | 93 => ⟨S100000x8, .f32⟩
  | 94 => ⟨S_, .f32⟩
  | 95 => ⟨S_, .f32⟩
  | 96 => ⟨S100000x8, .f32⟩
  | 97 => ⟨S100000x8, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S1, .i32⟩
  | 107 => ⟨S_, .i32⟩
  | 108 => ⟨S800000x1, .i32⟩
  | 109 => ⟨S800000x1, .i1⟩
  | 110 => ⟨S1x1, .i32⟩
  | 111 => ⟨S800000x1, .i32⟩
  | 112 => ⟨S800000x1, .i1⟩
  | 113 => ⟨S800000x1, .i1⟩
  | 114 => ⟨S_, .i1⟩
  | 115 => ⟨S800000, .i1⟩
  | 116 => ⟨S800000x8x16, .f32⟩
  | 117 => ⟨S800000x8x16, .i1⟩
  | 118 => ⟨S_, .f32⟩
  | 119 => ⟨S800000x8x16, .f32⟩
  | 120 => ⟨S800000x8x16, .f32⟩
  | 121 => ⟨S800000x8x16, .f32⟩
  | 122 => ⟨S800000x8x16, .f32⟩
  | 123 => ⟨S800000x128, .f32⟩
  | 124 => ⟨S_, .f32⟩
  | 125 => ⟨S100000x128, .f32⟩
  | 126 => ⟨S800000x1, .i32⟩
  | 127 => ⟨S100000x128, .f32⟩
  | _ => ⟨S100000x128, .f32⟩

abbrev hbmTy0_1 (i : Nat) : BufTy := match i % 128 with
  | 0 => ⟨S128x128, .f32⟩
  | 1 => ⟨S128x128, .f32⟩
  | 2 => ⟨S1x128, .f32⟩
  | 3 => ⟨S1x128, .f32⟩
  | 4 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x8, .f32⟩
  | .local _ .vmem, ⟨16, _⟩ => ⟨S4000x8, .f32⟩
  | .local _ .vmem, ⟨17, _⟩ => ⟨S8x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v7 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v8 : Ref sig .tc := ⟨.hbm, 65, rfl⟩
abbrev main_v9 : Ref sig .tc := ⟨.hbm, 66, rfl⟩
abbrev main_cst_0 : Ref sig .tc := ⟨.hbm, 67, rfl⟩
abbrev main_v10 : Ref sig .tc := ⟨.hbm, 68, rfl⟩
abbrev main_v11 : Ref sig .tc := ⟨.hbm, 69, rfl⟩
abbrev main_cst_1 : Ref sig .tc := ⟨.hbm, 70, rfl⟩
abbrev main_call2_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v12 : Ref sig .tc := ⟨.hbm, 77, rfl⟩
abbrev main_v13 : Ref sig .tc := ⟨.hbm, 78, rfl⟩
abbrev main_cst_2 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_cst_3 : Ref sig .tc := ⟨.hbm, 84, rfl⟩
abbrev main_v18 : Ref sig .tc := ⟨.hbm, 85, rfl⟩
abbrev main_v19 : Ref sig .tc := ⟨.hbm, 86, rfl⟩
abbrev main_cst_4 : Ref sig .tc := ⟨.hbm, 87, rfl⟩
abbrev main_call3_v0 : Ref sig .tc := ⟨.hbm, 88, rfl⟩
abbrev main_call3_v1 : Ref sig .tc := ⟨.hbm, 89, rfl⟩
abbrev main_v20 : Ref sig .tc := ⟨.hbm, 90, rfl⟩
abbrev main_cst_5 : Ref sig .tc := ⟨.hbm, 91, rfl⟩
abbrev main_v21 : Ref sig .tc := ⟨.hbm, 92, rfl⟩
abbrev main_v22 : Ref sig .tc := ⟨.hbm, 93, rfl⟩
abbrev main_cst_6 : Ref sig .tc := ⟨.hbm, 94, rfl⟩
abbrev main_call4_v0 : Ref sig .tc := ⟨.hbm, 95, rfl⟩
abbrev main_call4_v1 : Ref sig .tc := ⟨.hbm, 96, rfl⟩
abbrev main_v23 : Ref sig .tc := ⟨.hbm, 97, rfl⟩
abbrev main_call5_c : Ref sig .tc := ⟨.hbm, 98, rfl⟩
abbrev main_call5_v0 : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_c_1 : Ref sig .tc := ⟨.hbm, 106, rfl⟩
abbrev main_call5_c_2 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_3 : Ref sig .tc := ⟨.hbm, 114, rfl⟩
abbrev main_call5_v12 : Ref sig .tc := ⟨.hbm, 115, rfl⟩
abbrev main_call5_v13 : Ref sig .tc := ⟨.hbm, 116, rfl⟩
abbrev main_call5_v14 : Ref sig .tc := ⟨.hbm, 117, rfl⟩
abbrev main_call5_cst : Ref sig .tc := ⟨.hbm, 118, rfl⟩
abbrev main_call5_v15 : Ref sig .tc := ⟨.hbm, 119, rfl⟩
abbrev main_v24 : Ref sig .tc := ⟨.hbm, 120, rfl⟩
abbrev main_v25 : Ref sig .tc := ⟨.hbm, 121, rfl⟩
abbrev main_v26 : Ref sig .tc := ⟨.hbm, 122, rfl⟩
abbrev main_v27 : Ref sig .tc := ⟨.hbm, 123, rfl⟩
abbrev main_cst_7 : Ref sig .tc := ⟨.hbm, 124, rfl⟩
abbrev main_v28 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S100000x128_S100000x8x16 : S100000x128.ShapeCasts S100000x8x16
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x8x16_0 : S800000.BroadcastsInDim S800000x8x16 (![0] : Fin 1 → Fin S800000x8x16.rank)
  bcast_S_S800000x8x16 : S_.BroadcastsInDim S800000x8x16 (![] : Fin 0 → Fin S800000x8x16.rank)
  reducesTo_S800000x8x16_S800000x8_d2 : S800000x8x16.ReducesTo [2] S800000x8
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S_S100000x8x1 : S_.BroadcastsInDim S100000x8x1 (![] : Fin 0 → Fin S100000x8x1.rank)
  shapeCasts_S100000x8x1_S100000x8 : S100000x8x1.ShapeCasts S100000x8
  bcast_S_S100000x8 : S_.BroadcastsInDim S100000x8 (![] : Fin 0 → Fin S100000x8.rank)
  bcast_S800000x8x1_S800000x8x16_0_1_2 : S800000x8x1.BroadcastsInDim S800000x8x16 (![0, 1, 2] : Fin 3 → Fin S800000x8x16.rank)
  shapeCasts_S800000x8x16_S800000x128 : S800000x8x16.ShapeCasts S800000x128
  bcast_S_S100000x128 : S_.BroadcastsInDim S100000x128 (![] : Fin 0 → Fin S100000x128.rank)
  shapeCasts_S128_S1x128 : S128.ShapeCasts S1x128
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  inb_S8x128_S8x128_0_0 : ∀ a, (![0, 0] : Fin 2 → Nat) a + S8x128.size a ≤ S8x128.size a
  h_S8x128 : 0 < S8x128.numel
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  dot_S4000x128_S128x128_S4000x128_1_0_0_1_n_n_wf : DotDims.WF S4000x128 S128x128 S4000x128 [1] [0] [0] [1] [] []
  gather_S100000x8x16_S800000x1_S800000x8x16_12_0_n_n_0_1_1816_wf : GatherDims.WF S100000x8x16 S800000x1 S800000x8x16 [1, 2] [0] [] [0] [] 1 ![1, 8, 16]
  scatter_S100000x8x1_S800000x1_S800000x8x1_12_0_0_1_wf : ScatterDims.WF S100000x8x1 S800000x1 S800000x8x1 [1, 2] [0] [0] 1
  scatter_S100000x128_S800000x1_S800000x128_1_0_0_1_wf : ScatterDims.WF S100000x128 S800000x1 S800000x128 [1] [0] [0] 1
  dot_S4000x8_S8x128_S4000x128_1_0_0_1_n_n_wf : DotDims.WF S4000x8 S8x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x8.size a ≤ S100000x8.size a
  hwx1_2 : ∀ i : grid1.Coords, EltTy.bits .f32 = 32 ∨ (Rect.block (s := S100000x8) S4000x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S8x128.size a
  hwx1_3 : ∀ i : grid1.Coords, EltTy.bits .f32 = 32 ∨ (Rect.block (s := S8x128) S8x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S100000x128.size a
  hwx1_8 : ∀ i : grid1.Coords, EltTy.bits .f32 = 32 ∨ (Rect.block (s := S100000x128) S4000x128.size (cc1_transform_8 i) (hinb1_8 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x8x16_S800000x1_S800000x8x16_12_0_n_n_0_1_1816 : GatherDims S100000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S100000x8x16_S800000x1_S800000x8x16_12_0_n_n_0_1_1816_wf
def scatter_S100000x8x1_S800000x1_S800000x8x1_12_0_0_1 : ScatterDims S100000x8x1 S800000x1 S800000x8x1 where
  updateWindowDims := [1, 2]
  insertedWindowDims := [0]
  scatterDimsToOperandDims := [0]
  indexVectorDim := 1
  wf := scatter_S100000x8x1_S800000x1_S800000x8x1_12_0_0_1_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S4000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S4000x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_cst) S8x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S100000x8x16 : Shape := ⟨3, ![100000, 8, 16]⟩
abbrev S_ : Shape := ⟨0, ![]⟩
abbrev S800000x1 : Shape := ⟨2, ![800000, 1]⟩
abbrev S800000x8x16 : Shape := ⟨3, ![800000, 8, 16]⟩
abbrev S800000x8 : Shape := ⟨2, ![800000, 8]⟩
abbrev S800000x8x1 : Shape := ⟨3, ![800000, 8, 1]⟩
abbrev S100000x8x1 : Shape := ⟨3, ![100000, 8, 1]⟩
abbrev S800000x128 : Shape := ⟨2, ![800000, 128]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S100000x128, .f32⟩
  | .hbm, ⟨12, _⟩ => ⟨S100000x8x16, .f32⟩
  | .hbm, ⟨13, _⟩ => ⟨S128x128, .f32⟩
  | .hbm, ⟨14, _⟩ => ⟨S100000x128, .f32⟩
  | .hbm, ⟨15, _⟩ => ⟨S100000x8x16, .f32⟩
  | .hbm, ⟨16, _⟩ => ⟨S128x128, .f32⟩
  | .hbm, ⟨17, _⟩ => ⟨S100000x128, .f32⟩
  | .hbm, ⟨18, _⟩ => ⟨S100000x8x16, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x8x16, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x8x16, .f32⟩
  | .hbm, ⟨37, _⟩ => ⟨S800000x8x16, .f32⟩
  | .hbm, ⟨38, _⟩ => ⟨S_, .f32⟩
  | .hbm, ⟨39, _⟩ => ⟨S800000x8, .f32⟩
  | .hbm, ⟨40, _⟩ => ⟨S800000x8x1, .f32⟩
  | .hbm, ⟨41, _⟩ => ⟨S_, .f32⟩
  | .hbm, ⟨42, _⟩ => ⟨S_, .f32⟩
  | .hbm, ⟨43, _⟩ => ⟨S800000x8x1, .f32⟩
  | .hbm, ⟨44, _⟩ => ⟨S800000x8x1, .i1⟩
  | .hbm, ⟨45, _⟩ => ⟨S_, .f32⟩
  | .hbm, ⟨46, _⟩ => ⟨S800000x8x1, .f32⟩
  | .hbm, ⟨47, _⟩ => ⟨S800000x8x1, .f32⟩
  | .hbm, ⟨48, _⟩ => ⟨S800000x8x1, .f32⟩
  | .hbm, ⟨49, _⟩ => ⟨S800000x8x1, .f32⟩
  | .hbm, ⟨50, _⟩ => ⟨S_, .f32⟩
  | .hbm, ⟨51, _⟩ => ⟨S100000x8x1, .f32⟩
  | .hbm, ⟨52, _⟩ => ⟨S800000x1, .i32⟩
  | .hbm, ⟨53, _⟩ => ⟨S100000x8x1, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x8x1, .f32⟩
  | .hbm, ⟨63, _⟩ => ⟨S800000x8x1, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x8x16, .f32⟩
  | .hbm, ⟨73, _⟩ => ⟨S800000x8x16, .f32⟩
  | .hbm, ⟨74, _⟩ => ⟨S800000x8x16, .f32⟩
  | .hbm, ⟨75, _⟩ => ⟨S800000x128, .f32⟩
  | .hbm, ⟨76, _⟩ => ⟨S_, .f32⟩
  | .hbm, ⟨77, _⟩ => ⟨S100000x128, .f32⟩
  | .hbm, ⟨78, _⟩ => ⟨S800000x1, .i32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S128x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_c_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call1_cst : Ref sig .tc := ⟨.hbm, 86, rfl⟩
abbrev main_call1_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call2_cst : Ref sig .tc := ⟨.hbm, 94, rfl⟩
abbrev main_call2_v0 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]

class Facts₀ : Prop where
  transposes_S128x128_S128x128_1_0 : S128x128.Transposes [1, 0] S128x128
  shapeCasts_S100000x128_S100000x8x16 : S100000x128.ShapeCasts S100000x8x16
  bcast_S_S800000 : S_.BroadcastsInDim S800000 (![] : Fin 0 → Fin S800000.rank)
  bcast_S800000_S800000x1_0 : S800000.BroadcastsInDim S800000x1 (![0] : Fin 1 → Fin S800000x1.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S_S100000x8x1 : S_.BroadcastsInDim S100000x8x1 (![] : Fin 0 → Fin S100000x8x1.rank)
  bcast_S800000x8x1_S800000x8x16_0_1_2 : S800000x8x1.BroadcastsInDim S800000x8x16 (![0, 1, 2] : Fin 3 → Fin S800000x8x16.rank)
  shapeCasts_S800000x8x16_S800000x128 : S800000x8x16.ShapeCasts S800000x128
  bcast_S_S100000x128 : S_.BroadcastsInDim S100000x128 (![] : Fin 0 → Fin S100000x128.rank)
  shapeCasts_S100000x8x16_S100000x128 : S100000x8x16.ShapeCasts S100000x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x8x16_S800000x1_S800000x8x16_12_0_n_n_0_1_1816_wf : GatherDims.WF S100000x8x16 S800000x1 S800000x8x16 [1, 2] [0] [] [0] [] 1 ![1, 8, 16]
  scatter_S100000x8x1_S800000x1_S800000x8x1_12_0_0_1_wf : ScatterDims.WF S100000x8x1 S800000x1 S800000x8x1 [1, 2] [0] [0] 1
  gather_S100000x8x1_S800000x1_S800000x8x1_12_0_n_n_0_1_181_wf : GatherDims.WF S100000x8x1 S800000x1 S800000x8x1 [1, 2] [0] [] [0] [] 1 ![1, 8, 1]
  scatter_S100000x128_S800000x1_S800000x128_1_0_0_1_wf : ScatterDims.WF S100000x128 S800000x1 S800000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x8x16_S800000x1_S800000x8x16_12_0_n_n_0_1_1816 : GatherDims S100000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S100000x8x16_S800000x1_S800000x8x16_12_0_n_n_0_1_1816_wf
def scatter_S100000x8x1_S800000x1_S800000x8x1_12_0_0_1 : ScatterDims S100000x8x1 S800000x1 S800000x8x1 where
  updateWindowDims := [1, 2]
  insertedWindowDims := [0]
  scatterDimsToOperandDims := [0]
  indexVectorDim := 1
  wf := scatter_S100000x8x1_S800000x1_S800000x8x1_12_0_0_1_wf
def gather_S100000x8x1_S800000x1_S800000x8x1_12_0_n_n_0_1_181 : GatherDims S100000x8x1 S800000x1 S800000x8x1 where
  offsetDims := [1, 2]
  collapsedSliceDims := [0]
  operandBatchingDims := []
  startIndicesBatchingDims := []
  startIndexMap := [0]
  indexVectorDim := 1
  sliceSizes := ![1, 8, 1]
  wf := gather_S100000x8x1_S800000x1_S800000x8x1_12_0_n_n_0_1_181_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

class Facts : Prop extends Facts₀ where

variable [Facts]
-- ==== Proof.KTerms.lean ====
/-
  The host operations between the two kernel launches, as functions of the arrays they read.

  Between the projection launch (which leaves V, K, Q as 100000 x 128 arrays) and the residual launch the program runs
  plain array operations: each projection is re-viewed as 8 heads of 16 lanes; rows are taken by the edges' source and
  destination words (a take that fills a row whose word is out of range); per edge and head the lanes' products are
  summed, passed through leaky-relu and exp (attT); the weights are added by destination (denomT) and turned into a
  guarded reciprocal (invT); the weighted source rows of V are added by destination (aggT). These are the arrays the
  residual launch reads, beside the expansion table (eTab), the transposed weights and the bias rows.
-/
import proofs.«428754_j5119601016898_3_alg».proof.Proof.Gen.KernelIdeal

noncomputable section

namespace Cert.KernelIdeal.KT

open Idealize.ShloMosaic Idealize.SL.Sem Cert.KernelIdeal Cert.KernelIdeal.Facts₀

variable {F : FTy → Type} [FloatOps F]

/-- The row words as a column, a negative word shifted up by the height first. -/
def wrapRows (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 100000#32))) i)

/-- Which rows' (shifted) words lie in [0, 99999]. -/
def rowOk (w : IVec S800000x1 32) : IVec S800000 1 :=
  Host.reduce IntOp.andi
    (andi (cmpi .sge w (broadcastInDim S800000x1 ![] bcast_S_S800000x1 (constantI S_ 32 0#32)))
      (cmpi .sle w (broadcastInDim S800000x1 ![0, 1] bcast_S1x1_S800000x1_0_1
        (broadcastInDim S1x1 ![1] bcast_S1_S1x1_1 (constantI S1 32 99999#32)))))
    (constantI S_ 1 1#1) reducesTo_S800000x1_S800000_d1 h_S_

/-- A take of rows that fills the rows whose word is out of range. -/
def takeFill (x : FVec F S100000x8x16 .f32) (i : IVec S800000 32) : FVec F S800000x8x16 .f32 :=
  select (broadcastInDim S800000x8x16 ![0] bcast_S800000_S800000x8x16_0 (rowOk (wrapRows i)))
    (Host.gather gather_S100000x8x16_S800000x1_S800000x8x16_12_0_n_n_0_1_1816 x (wrapRows i))
    (broadcastInDim S800000x8x16 ![] bcast_S_S800000x8x16 (constant S_ .f32 0x7FC00000#32))

/-- 128 columns as 8 heads of 16 lanes. -/
def heads (x : FVec F S100000x128 .f32) : FVec F S100000x8x16 .f32 :=
  shapeCast S100000x8x16 x shapeCasts_S100000x128_S100000x8x16

/-- leaky_relu with slope 0.2. -/
def leaky (x : FVec F S800000x8x1 .f32) : FVec F S800000x8x1 .f32 :=
  select (cmpf .oge x (broadcastInDim S800000x8x1 ![] bcast_S_S800000x8x1 (constant S_ .f32 0x00000000#32)))
    x (mulf (broadcastInDim S800000x8x1 ![] bcast_S_S800000x8x1 (id (constant S_ .f32 0x3E4CCCCD#32))) x)

/-- Each edge's weight per head. -/
def attT (q k : FVec F S100000x128 .f32) (kj ji : IVec S800000 32) : FVec F S800000x8x1 .f32 :=
  Host.exp (leaky (broadcastInDim S800000x8x1 ![0, 1] bcast_S800000x8_S800000x8x1_0_1
    (Host.reduceAdd (mulf (takeFill (heads q) kj) (takeFill (heads k) ji)) (constant S_ .f32 0x00000000#32)
      reducesTo_S800000x8x16_S800000x8_d2 h_S_)))

/-- The destination words as a column. -/
def segIdx (ji : IVec S800000 32) : IVec S800000x1 32 := broadcastInDim S800000x1 ![0] bcast_S800000_S800000x1_0 ji

/-- The weights added by destination. -/
def denomT (q k : FVec F S100000x128 .f32) (kj ji : IVec S800000 32) : FVec F S100000x8 .f32 :=
  shapeCast S100000x8
    (Host.scatterAdd scatter_S100000x8x1_S800000x1_S800000x8x1_12_0_0_1
      (broadcastInDim S100000x8x1 ![] bcast_S_S100000x8x1 (constant S_ .f32 0x00000000#32)) (segIdx ji) (attT q k kj ji))
    shapeCasts_S100000x8x1_S100000x8

/-- jnp.where against a scalar. -/
def whereS (c : IVec S100000x8 1) (a : FVec F S100000x8 .f32) (b : FVec F S_ .f32) : FVec F S100000x8 .f32 :=
  select c a (broadcastInDim S100000x8 ![] bcast_S_S100000x8 (id b))

/-- Which denominators are positive. -/
def posT (q k : FVec F S100000x128 .f32) (kj ji : IVec S800000 32) : IVec S100000x8 1 :=
  cmpf .ogt (denomT q k kj ji) (broadcastInDim S100000x8 ![] bcast_S_S100000x8 (constant S_ .f32 0x00000000#32))

/-- The guarded reciprocal denominator. -/
def invT (q k : FVec F S100000x128 .f32) (kj ji : IVec S800000 32) : FVec F S100000x8 .f32 :=
  whereS (posT q k kj ji)
    (Host.divf (broadcastInDim S100000x8 ![] bcast_S_S100000x8 (constant S_ .f32 0x3F800000#32))
      (whereS (posT q k kj ji) (denomT q k kj ji) (constant S_ .f32 0x3F800000#32)))
    (constant S_ .f32 0x00000000#32)

/-- The weighted source rows added by destination. -/
def aggT (v q k : FVec F S100000x128 .f32) (kj ji : IVec S800000 32) : FVec F S100000x128 .f32 :=
  Host.scatterAdd scatter_S100000x128_S800000x1_S800000x128_1_0_0_1
    (broadcastInDim S100000x128 ![] bcast_S_S100000x128 (constant S_ .f32 0x00000000#32)) (segIdx ji)
    (shapeCast S800000x128
      (mulf (takeFill (heads v) kj)
        (broadcastInDim S800000x8x16 ![0, 1, 2] bcast_S800000x8x1_S800000x8x16_0_1_2 (attT q k kj ji)))
      shapeCasts_S800000x8x16_S800000x128)

/-- The 8 x 128 expansion table as printed. -/
def eTab : FVec F S8x128 .f32 := fun i => FloatOps.ofBits .f32 (lit0 (S8x128.rowMajor i))

/-- A transposed weight matrix. -/
def tr (w : FVec F S128x128 .f32) : FVec F S128x128 .f32 := transpose S128x128 [1, 0] w transposes_S128x128_S128x128_1_0

/-- A bias vector as one row. -/
def row1 (b : FVec F S128 .f32) : FVec F S1x128 .f32 := shapeCast S1x128 b shapeCasts_S128_S1x128

end Cert.KernelIdeal.KT

end
-- ==== Proof.RTerms.lean ====
/-
  The reference program's value as one function of its ten arguments.

  V, K, Q are X Wᵀ; each is viewed as 8 heads of 16 lanes; rows are read by the edges' source and destination words
  (an indexed read: a negative word shifted up by the height, then clamped); per edge and head the lanes' products are
  summed and passed through leaky-relu and exp; the weights are added by destination, each edge's weight divided by
  its destination's total, the weighted source rows of V added by destination; then two affine layers with relu and
  the residual V.
-/
import proofs.«428754_j5119601016898_3_alg».proof.Proof.Gen.ReferenceIdeal

noncomputable section

namespace Cert.ReferenceIdeal.RT

open Idealize.ShloMosaic Idealize.SL.Sem Cert.ReferenceIdeal Cert.ReferenceIdeal.Facts₀

variable {F : FTy → Type} [FloatOps F]

/-- The row words as a column, a negative word shifted up by the height first. -/
def wrapRows (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 100000#32))) i)

/-- A transposed weight matrix. -/
def tr (w : FVec F S128x128 .f32) : FVec F S128x128 .f32 := transpose S128x128 [1, 0] w transposes_S128x128_S128x128_1_0

/-- x Wᵀ. -/
def proj (x : FVec F S100000x128 .f32) (w : FVec F S128x128 .f32) : FVec F S100000x128 .f32 :=
  Host.dotGeneral dot_S100000x128_S128x128_S100000x128_1_0_0_1_n_n none x (tr w)

/-- 128 columns as 8 heads of 16 lanes. -/
def heads (x : FVec F S100000x128 .f32) : FVec F S100000x8x16 .f32 :=
  shapeCast S100000x8x16 x shapeCasts_S100000x128_S100000x8x16

/-- Rows read by the words. -/
def take3 (x : FVec F S100000x8x16 .f32) (i : IVec S800000 32) : FVec F S800000x8x16 .f32 :=
  Host.gather gather_S100000x8x16_S800000x1_S800000x8x16_12_0_n_n_0_1_1816 x (wrapRows i)

/-- leaky_relu with slope 0.2. -/
def leaky (x : FVec F S800000x8x1 .f32) : FVec F S800000x8x1 .f32 :=
  select (cmpf .oge x (broadcastInDim S800000x8x1 ![] bcast_S_S800000x8x1 (constant S_ .f32 0x00000000#32)))
    x (mulf (broadcastInDim S800000x8x1 ![] bcast_S_S800000x8x1 (id (constant S_ .f32 0x3E4CCCCD#32))) x)

/-- Each edge's weight per head. -/
def attT (q k : FVec F S100000x128 .f32) (kj ji : IVec S800000 32) : FVec F S800000x8x1 .f32 :=
  Host.exp (leaky (broadcastInDim S800000x8x1 ![0, 1] bcast_S800000x8_S800000x8x1_0_1
    (Host.reduceAdd (mulf (take3 (heads q) kj) (take3 (heads k) ji)) (constant S_ .f32 0x00000000#32)
      reducesTo_S800000x8x16_S800000x8_d2 h_S_)))

/-- The destination words as a column. -/
def segIdx (ji : IVec S800000 32) : IVec S800000x1 32 := broadcastInDim S800000x1 ![0] bcast_S800000_S800000x1_0 ji

/-- The weights added by destination. -/
def denomT (q k : FVec F S100000x128 .f32) (kj ji : IVec S800000 32) : FVec F S100000x8x1 .f32 :=
  Host.scatterAdd scatter_S100000x8x1_S800000x1_S800000x8x1_12_0_0_1
    (broadcastInDim S100000x8x1 ![] bcast_S_S100000x8x1 (constant S_ .f32 0x00000000#32)) (segIdx ji) (attT q k kj ji)

/-- Each edge's weight over its destination's total. -/
def attN (q k : FVec F S100000x128 .f32) (kj ji : IVec S800000 32) : FVec F S800000x8x1 .f32 :=
  Host.divf (attT q k kj ji)
    (Host.gather gather_S100000x8x1_S800000x1_S800000x8x1_12_0_n_n_0_1_181 (denomT q k kj ji) (wrapRows ji))

/-- The normalised weighted source rows added by destination. -/
def aggT (v q k : FVec F S100000x128 .f32) (kj ji : IVec S800000 32) : FVec F S100000x128 .f32 :=
  Host.scatterAdd scatter_S100000x128_S800000x1_S800000x128_1_0_0_1
    (broadcastInDim S100000x128 ![] bcast_S_S100000x128 (constant S_ .f32 0x00000000#32)) (segIdx ji)
    (shapeCast S800000x128
      (mulf (take3 (heads v) kj)
        (broadcastInDim S800000x8x16 ![0, 1, 2] bcast_S800000x8x1_S800000x8x16_0_1_2 (attN q k kj ji)))
      shapeCasts_S800000x8x16_S800000x128)

/-- max (x, 0). -/
def relu (x : FVec F S100000x128 .f32) : FVec F S100000x128 .f32 :=
  maximumf x (broadcastInDim S100000x128 ![] bcast_S_S100000x128 (constant S_ .f32 0x00000000#32))

/-- A bias vector spread over the rows. -/
def biasRows (b : FVec F S128 .f32) : FVec F S100000x128 .f32 :=
  broadcastInDim S100000x128 ![0, 1] bcast_S1x128_S100000x128_0_1 (broadcastInDim S1x128 ![1] bcast_S128_S1x128_1 b)

/-- One affine layer with relu. -/
def layer (a : FVec F S100000x128 .f32) (w : FVec F S128x128 .f32) (b : FVec F S128 .f32) : FVec F S100000x128 .f32 :=
  relu (addf (Host.dotGeneral dot_S100000x128_S128x128_S100000x128_1_0_0_1_n_n none a (tr w)) (biasRows b))

/-- The reference's result. -/
def out (feats : FVec F S100000x128 .f32) (kj ji : IVec S800000 32) (Wv Wq Wk W1 : FVec F S128x128 .f32)
    (b1 : FVec F S128 .f32) (W2 : FVec F S128x128 .f32) (b2 : FVec F S128 .f32) : FVec F S100000x128 .f32 :=
  addf (shapeCast S100000x128 (heads (proj feats Wv)) shapeCasts_S100000x8x16_S100000x128)
    (layer (layer (aggT (proj feats Wv) (proj feats Wq) (proj feats Wk) kj ji) W1 b1) W2 b2)

end Cert.ReferenceIdeal.RT

end
-- ==== Proof.Spec.lean ====
/-
  The mathematics both programs compute, written once over plain index functions on the extended reals.

  A graph has 100000 nodes and 800000 edges; edge e has a source word kj e and a destination word ji e. Node features
  X (100000 x 128) are projected three ways (V = X Wvᵀ, Q = X Wqᵀ, K = X Wkᵀ), the 128 columns read as 8 heads of 16 lanes.
  An edge's score per head is the dot product of its source's Q lanes with its destination's K lanes; its weight is
  phi (score) = exp (leaky_relu score). The weights of the edges INTO node n add up to denom n h. The reference divides each
  edge's weight by its destination's denominator and adds the weighted source rows of V into the destination (aggR); the
  kernel adds the unnormalised weighted rows (aggU) and multiplies the sum once by the reciprocal denominator (inv), zero
  for a node no edge enters. Both then apply the same two-layer residual map (mlp) to the row.

  A word names a row the way an indexed read does: a negative word is shifted up by the height, the result read signed and
  clamped into [0, 99999] (rowOf). An edge lands on node n exactly when its destination word, read signed, is n.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Column of head h, lane d. -/
def col (h : Fin 8) (d : Fin 16) : Fin 128 := ⟨16 * h.val + d.val, by omega⟩
/-- The head a column belongs to. -/
def headOf (l : Fin 128) : Fin 8 := ⟨l.val / 16, by omega⟩
/-- The lane of a column within its head. -/
def laneOf (l : Fin 128) : Fin 16 := ⟨l.val % 16, by omega⟩

theorem col_headOf_laneOf (l : Fin 128) : col (headOf l) (laneOf l) = l := by
  refine Fin.ext ?_; simp only [col, headOf, laneOf]; omega

/-- A rank-2 array as a function of its two coordinates, a rank-1 array as a function of its one. -/
abbrev c2 {a b : Nat} {α : Type} (A : (⟨2, ![a, b]⟩ : Shape).Idx → α) : Fin a → Fin b → α := fun p q => A (ix2 p q)
abbrev c1 {a : Nat} {α : Type} (A : (⟨1, ![a]⟩ : Shape).Idx → α) : Fin a → α := fun p => A (ix1 p)

/-- x Wᵀ. -/
def proj (X : Fin 100000 → Fin 128 → EReal) (W : Fin 128 → Fin 128 → EReal) (n : Fin 100000) (j : Fin 128) : EReal :=
  ∑ k : Fin 128, X n k * W j k

/-- A negative word shifted up by the height. -/
def wrapW (i : BitVec 32) : BitVec 32 := if i.toInt < 0 then i + 100000#32 else i
/-- The row an indexed read takes for the word i. -/
def rowOf (i : BitVec 32) : Fin 100000 := ⟨min (wrapW i).toInt.toNat 99999, by omega⟩

/-- The leaky-relu slope, the binary32 value nearest 0.2. -/
def slope : EReal := Ideal.ofBits .f32 0x3E4CCCCD#32
/-- exp ∘ leaky_relu. -/
def phi (x : EReal) : EReal := Ideal.exp (if 0 ≤ x then x else slope * x)

section Graph
variable (V Q K : Fin 100000 → Fin 128 → EReal) (kj ji : Fin 800000 → BitVec 32)

/-- Head h's score between rows a (of Q) and b (of K). -/
def score (a b : Fin 100000) (h : Fin 8) : EReal := ∑ d : Fin 16, Q a (col h d) * K b (col h d)
/-- Edge e's weight at head h. -/
def att (e : Fin 800000) (h : Fin 8) : EReal := phi (score Q K (rowOf (kj e)) (rowOf (ji e)) h)
/-- The total weight entering node n at head h. -/
def denom (n : Fin 100000) (h : Fin 8) : EReal :=
  ∑ e : Fin 800000, if (ji e).toInt = (n.val : ℤ) then att Q K kj ji e h else 0
/-- The reference's aggregate: normalised weights times source rows, summed over the edges into n. -/
def aggR (n : Fin 100000) (l : Fin 128) : EReal :=
  ∑ e : Fin 800000, if (ji e).toInt = (n.val : ℤ)
    then V (rowOf (kj e)) l * Ideal.div (att Q K kj ji e (headOf l)) (denom Q K kj ji (rowOf (ji e)) (headOf l)) else 0
/-- The kernel's unnormalised aggregate. -/
def aggU (n : Fin 100000) (l : Fin 128) : EReal :=
  ∑ e : Fin 800000, if (ji e).toInt = (n.val : ℤ) then V (rowOf (kj e)) l * att Q K kj ji e (headOf l) else 0
/-- The kernel's reciprocal denominator, zero where no edge enters. -/
def inv (n : Fin 100000) (h : Fin 8) : EReal :=
  if 0 < denom Q K kj ji n h then Ideal.div 1 (denom Q K kj ji n h) else 0

end Graph

/-- The residual two-layer map on one row: v + relu (relu (a W1ᵀ + b1) W2ᵀ + b2). -/
def mlp (a : Fin 128 → EReal) (W1 : Fin 128 → Fin 128 → EReal) (b1 : Fin 128 → EReal)
    (W2 : Fin 128 → Fin 128 → EReal) (b2 : Fin 128 → EReal) (v : Fin 128 → EReal) (j : Fin 128) : EReal :=
  v j + max ((∑ k : Fin 128, max ((∑ l : Fin 128, a l * W1 k l) + b1 k) 0 * W2 j k) + b2 j) 0

end Cert.Spec

end
-- ==== Proof.Algebra.lean ====
/-
  The pure mathematics on the extended reals behind the two aggregates.

  Every quantity in play is a real number: a feature, a weight-matrix entry, hence every projection (a finite sum of
  products of reals), every score (likewise), and every edge weight, which is the exponential of a real and so a
  POSITIVE real (the slope 13421773 / 2^26 of the leaky relu is itself a real). An embedded finite sum of reals is the
  finite sum of the embedded reals, so all the sums below can be computed in the field of reals.

  Normalising per edge equals normalising once per node (agg_norm). Fix a node n and a column l of head h. An edge whose
  destination word reads n as a signed number names row n, so the reference divides that edge's weight by denom n h, the
  same divisor for every edge into n. If no edge enters n, both aggregates are empty sums: 0 * inv = 0 = 0. If some edge
  enters n, denom n h is a sum of nonnegative reals containing a positive one, hence a positive real D; then inv = 1 / D,
  division by D is multiplication by 1 / D, and
      (∑ e, v e * w e) * (1 / D) = ∑ e, v e * (w e * (1 / D))
  by distributivity in the reals.

  The one-hot expansion (expand_onehot): a sum over the 8 heads against a table whose column l is 1 at head (l / 16)
  and 0 elsewhere keeps exactly the term of that head.

  The residual two-layer map depends on its row arguments only through their values (mlp_congr).
-/
import proofs.«428754_j5119601016898_3_alg».proof.Proof.Spec

noncomputable section

open scoped BigOperators

namespace Cert.Spec

open Idealize.ShloMosaic

/-! ### Real-valued extended reals -/

/-- The embedding of a finite sum of reals is the sum of the embeddings. -/
theorem ereal_coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A finite sum of real-valued terms is real-valued. -/
theorem ereal_sum_real {ι : Type} (s : Finset ι) (f : ι → EReal) (h : ∀ i, ∃ r : ℝ, f i = (r : EReal)) :
    ∃ r : ℝ, ∑ i ∈ s, f i = (r : EReal) := by
  choose g hg using h
  exact ⟨∑ i ∈ s, g i, by rw [ereal_coe_sum]; exact Finset.sum_congr rfl (fun i _ => hg i)⟩

/-- A product of real-valued factors is real-valued. -/
theorem ereal_mul_real {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A projection of real features by a real matrix is real. -/
theorem proj_real {X : Fin 100000 → Fin 128 → EReal} {W : Fin 128 → Fin 128 → EReal}
    (hX : ∀ n k, ∃ r : ℝ, X n k = (r : EReal)) (hW : ∀ a b, ∃ r : ℝ, W a b = (r : EReal))
    (n : Fin 100000) (j : Fin 128) : ∃ r : ℝ, proj X W n j = (r : EReal) :=
  ereal_sum_real _ _ (fun k => ereal_mul_real (hX n k) (hW j k))

/-- A score of real rows is real. -/
theorem score_real {Q K : Fin 100000 → Fin 128 → EReal}
    (hQ : ∀ n k, ∃ r : ℝ, Q n k = (r : EReal)) (hK : ∀ n k, ∃ r : ℝ, K n k = (r : EReal))
    (a b : Fin 100000) (h : Fin 8) : ∃ r : ℝ, score Q K a b h = (r : EReal) :=
  ereal_sum_real _ _ (fun d => ereal_mul_real (hQ a (col h d)) (hK b (col h d)))

/-- The slope is the real number 13421773 / 2^26. -/
theorem slope_eq : slope = ((13421773 / 67108864 : ℝ) : EReal) := by
  simp [slope, Ideal.ofBits, Ideal.ieee, -EReal.coe_mul]; norm_num

/-- exp ∘ leaky_relu of a real is a positive real. -/
theorem phi_pos {x : EReal} (hx : ∃ r : ℝ, x = (r : EReal)) : ∃ r : ℝ, 0 < r ∧ phi x = (r : EReal) := by
  obtain ⟨a, rfl⟩ := hx
  unfold phi
  split_ifs
  · exact ⟨Real.exp a, Real.exp_pos a, rfl⟩
  · rw [slope_eq, ← EReal.coe_mul]
    exact ⟨Real.exp (13421773 / 67108864 * a), Real.exp_pos _, rfl⟩

/-- Every edge weight of real Q, K is a positive real. -/
theorem att_pos {Q K : Fin 100000 → Fin 128 → EReal}
    (hQ : ∀ n k, ∃ r : ℝ, Q n k = (r : EReal)) (hK : ∀ n k, ∃ r : ℝ, K n k = (r : EReal))
    (kj ji : Fin 800000 → BitVec 32) (e : Fin 800000) (h : Fin 8) :
    ∃ r : ℝ, 0 < r ∧ att Q K kj ji e h = (r : EReal) :=
  phi_pos (score_real hQ hK _ _ h)

/-- A word that reads n as a signed number names row n. -/
theorem rowOf_eq {i : BitVec 32} {n : Fin 100000} (h : i.toInt = (n.val : ℤ)) : rowOf i = n := by
  have hn := n.isLt
  have hw : wrapW i = i := by
    unfold wrapW; rw [if_neg]; omega
  refine Fin.ext ?_
  simp only [rowOf, hw, h]
  omega

/-! ### Normalising per edge equals normalising once per node -/

/-- The statement for any real-valued V, Q, K. -/
theorem agg_norm_of_real (V Q K : Fin 100000 → Fin 128 → EReal)
    (hV : ∀ n k, ∃ r : ℝ, V n k = (r : EReal)) (hQ : ∀ n k, ∃ r : ℝ, Q n k = (r : EReal))
    (hK : ∀ n k, ∃ r : ℝ, K n k = (r : EReal))
    (kj ji : Fin 800000 → BitVec 32) (n : Fin 100000) (l : Fin 128) :
    aggU V Q K kj ji n l * inv Q K kj ji n (headOf l) = aggR V Q K kj ji n l := by
  choose w hwpos hw using fun e h => att_pos hQ hK kj ji e h
  choose v hv using hV
  by_cases hex : ∃ e, (ji e).toInt = (n.val : ℤ)
  · -- some edge enters n: the denominator is a positive real D
    obtain ⟨D, hD⟩ : ∃ D : ℝ, D = ∑ e : Fin 800000, if (ji e).toInt = (n.val : ℤ) then w e (headOf l) else 0 := ⟨_, rfl⟩
    have hden : denom Q K kj ji n (headOf l) = (D : EReal) := by
      unfold denom; rw [hD, ereal_coe_sum]
      refine Finset.sum_congr rfl (fun e _ => ?_)
      split_ifs
      · exact hw e (headOf l)
      · exact EReal.coe_zero.symm
    have hnonneg : ∀ e : Fin 800000, 0 ≤ (if (ji e).toInt = (n.val : ℤ) then w e (headOf l) else 0 : ℝ) := by
      intro e; split_ifs
      · exact (hwpos e (headOf l)).le
      · exact le_rfl
    have hDpos : 0 < D := by
      obtain ⟨e0, he0⟩ := hex
      have h1 := Finset.single_le_sum (f := fun e : Fin 800000 => (if (ji e).toInt = (n.val : ℤ) then w e (headOf l) else 0 : ℝ))
        (fun i _ => hnonneg i) (Finset.mem_univ e0)
      simp only [if_pos he0] at h1
      rw [← hD] at h1
      linarith [hwpos e0 (headOf l)]
    have hD0 : D ≠ 0 := hDpos.ne'
    have hinv : inv Q K kj ji n (headOf l) = ((1 / D : ℝ) : EReal) := by
      unfold inv
      rw [hden, if_pos (by exact_mod_cast hDpos), Ideal.div_coe hD0, one_mul]
    have hU : aggU V Q K kj ji n l
        = ((∑ e : Fin 800000, if (ji e).toInt = (n.val : ℤ) then v (rowOf (kj e)) l * w e (headOf l) else 0 : ℝ) : EReal) := by
      unfold aggU; rw [ereal_coe_sum]
      refine Finset.sum_congr rfl (fun e _ => ?_)
      split_ifs
      · rw [hv, hw, EReal.coe_mul]
      · exact EReal.coe_zero.symm
    have hR : aggR V Q K kj ji n l
        = ((∑ e : Fin 800000, if (ji e).toInt = (n.val : ℤ)
            then v (rowOf (kj e)) l * (w e (headOf l) * (1 / D)) else 0 : ℝ) : EReal) := by
      unfold aggR; rw [ereal_coe_sum]
      refine Finset.sum_congr rfl (fun e _ => ?_)
      split_ifs with hc
      · rw [rowOf_eq hc, hden, Ideal.div_coe hD0, hv, hw, ← EReal.coe_mul, ← EReal.coe_mul]
      · exact EReal.coe_zero.symm
    rw [hU, hinv, hR, ← EReal.coe_mul, Finset.sum_mul]
    refine congrArg (fun x : ℝ => (x : EReal)) ?_
    refine Finset.sum_congr rfl (fun e _ => ?_)
    split_ifs
    · ring
    · exact zero_mul _
  · -- no edge enters n: both aggregates are empty sums
    have hno : ∀ e, ¬ (ji e).toInt = (n.val : ℤ) := fun e he => hex ⟨e, he⟩
    have hU : aggU V Q K kj ji n l = 0 := by
      unfold aggU; exact Finset.sum_eq_zero (fun e _ => if_neg (hno e))
    have hR : aggR V Q K kj ji n l = 0 := by
      unfold aggR; exact Finset.sum_eq_zero (fun e _ => if_neg (hno e))
    rw [hU, hR, zero_mul]

/-- Normalising per edge equals normalising once per node, for projections of finite features by finite matrices. -/
theorem agg_norm (X : Fin 100000 → Fin 128 → EReal) (Wv Wq Wk : Fin 128 → Fin 128 → EReal)
    (hX : ∀ n k, ∃ r : ℝ, X n k = (r : EReal)) (hWv : ∀ a b, ∃ r : ℝ, Wv a b = (r : EReal))
    (hWq : ∀ a b, ∃ r : ℝ, Wq a b = (r : EReal)) (hWk : ∀ a b, ∃ r : ℝ, Wk a b = (r : EReal))
    (kj ji : Fin 800000 → BitVec 32) (n : Fin 100000) (l : Fin 128) :
    aggU (proj X Wv) (proj X Wq) (proj X Wk) kj ji n l * inv (proj X Wq) (proj X Wk) kj ji n (headOf l)
      = aggR (proj X Wv) (proj X Wq) (proj X Wk) kj ji n l :=
  agg_norm_of_real _ _ _ (proj_real hX hWv) (proj_real hX hWq) (proj_real hX hWk) kj ji n l

/-! ### The one-hot expansion -/

/-- A sum over the heads against the one-hot table keeps the term of the column's head. -/
theorem expand_onehot (w : Fin 8 → EReal) (E : Fin 8 → Fin 128 → EReal)
    (hE : ∀ h l, E h l = if headOf l = h then 1 else 0) (l : Fin 128) :
    ∑ h : Fin 8, w h * E h l = w (headOf l) := by
  rw [Finset.sum_eq_single (headOf l)]
  · rw [hE, if_pos rfl, mul_one]
  · intro h _ hne
    rw [hE, if_neg (fun hh => hne hh.symm), mul_zero]
  · intro hh; exact absurd (Finset.mem_univ _) hh

/-! ### The residual map depends on its rows only through their values -/

/-- Equal aggregate rows give equal results. -/
theorem mlp_congr {a a' : Fin 128 → EReal} (h : ∀ l, a l = a' l) (W1 : Fin 128 → Fin 128 → EReal)
    (b1 : Fin 128 → EReal) (W2 : Fin 128 → Fin 128 → EReal) (b2 : Fin 128 → EReal) (v : Fin 128 → EReal)
    (j : Fin 128) : mlp a W1 b1 W2 b2 v j = mlp a' W1 b1 W2 b2 v j := by
  have : a = a' := funext h
  rw [this]

/-- Equal aggregate rows and equal residual rows give equal results. -/
theorem mlp_congr' {a a' v v' : Fin 128 → EReal} (ha : ∀ l, a l = a' l) (hv : ∀ l, v l = v' l)
    (W1 : Fin 128 → Fin 128 → EReal) (b1 : Fin 128 → EReal) (W2 : Fin 128 → Fin 128 → EReal)
    (b2 : Fin 128 → EReal) (j : Fin 128) : mlp a W1 b1 W2 b2 v j = mlp a' W1 b1 W2 b2 v' j := by
  have h1 : a = a' := funext ha
  have h2 : v = v' := funext hv
  rw [h1, h2]

end Cert.Spec

end
-- ==== Proof.KTake.lean ====
/-
  What one call of the filling row take leaves in its result buffer.

  The program takes rows of a table three times (the Q heads by the edges' source words, the K heads by their
  destination words, the V heads by their source words). Each call is a line of 23 array operations: the words shifted
  up by the height where negative and laid out as a column, the range test of the shifted words reduced to one bit per
  row, the gather, the bit spread over each row, the fill pattern spread over the result, and the select. Run from any
  contents, the line leaves in the call's result buffer the filling take of the table by the words, as one function of
  what the table's and the words' buffers held.
-/
import proofs.«428754_j5119601016898_3_alg».proof.Proof.Gen.KernelIdeal.Frame
import proofs.«428754_j5119601016898_3_alg».proof.Proof.KTerms

set_option maxRecDepth 16384

noncomputable section

namespace Cert.KernelIdeal.KTake

open Cert.KernelIdeal Cert.KernelIdeal.Gen
open Idealize.ShloMosaic Idealize.ShloMosaic.TcCoe Idealize.ShloMosaic.StableHlo
open Idealize.SL.Sem

variable {F : FTy → Type} [FloatOps F]

variable (G : Valuation τ sig (Elt F))

/-- The Q heads taken by the source words. -/
theorem take_v7 : after hostOps1_1 G (Proc.devRef .tc main_v7)
    = KT.takeFill (G (Proc.devRef .tc main_v4)) (G (Proc.devRef .tc main_arg1)) := by
  simp only [hostOps1_1]
  after_results_simp
  simp only [TRef.ofBuf, TRef.toBuf, cast_eq]
  rfl

/-- The K heads taken by the destination words. -/
theorem take_v8 : after hostOps1_2 G (Proc.devRef .tc main_v8)
    = KT.takeFill (G (Proc.devRef .tc main_v5)) (G (Proc.devRef .tc main_arg2)) := by
  simp only [hostOps1_2]
  after_results_simp
  simp only [TRef.ofBuf, TRef.toBuf, cast_eq]
  rfl

/-- The V heads taken by the source words. -/
theorem take_v24 : after hostOps1_9 G (Proc.devRef .tc main_v24)
    = KT.takeFill (G (Proc.devRef .tc main_v6)) (G (Proc.devRef .tc main_arg1)) := by
  simp only [hostOps1_9]
  after_results_simp
  simp only [TRef.ofBuf, TRef.toBuf, cast_eq]
  rfl

end Cert.KernelIdeal.KTake

end
-- ==== Proof.KChain.lean ====
/-
  What each of the two kernel launches finds in the arrays it reads.

  The program is one line of array operations around two launches. The contents of every array at a point of the
  line are the fold of the operations before that point over the launch memory: an operation rewrites the array it
  writes and leaves every other array as it was.

  The line is cut in stretches. For each stretch, from ANY contents G: an array the stretch does not write keeps
  G's contents; an array it writes holds the stretch's function of G's contents at the arrays it reads. Composing the
  stretches from the first launch's exit to the second launch's entry:

  * the first launch reads the features as launched and the three projection matrices transposed;
  * 128 columns are re-viewed as 8 heads of 16 lanes; rows are taken by the edges' source and destination words; per
    edge and head the lanes' products are summed and passed through leaky-relu and exp: the edge weights;
  * the weights are added by destination, compared with zero, and turned into a guarded reciprocal;
  * the weighted source rows of V are added by destination: the aggregate;
  * the expansion table is the printed one, the layer matrices are transposed, the bias vectors are viewed as rows,
    and the first launch's V output is not written between the launches.

  The edge words and the layer parameters are written by no operation and by neither launch, so wherever they are
  read they hold the launch memory's contents.
-/
import proofs.«428754_j5119601016898_3_alg».proof.Proof.Gen.KernelIdeal.Frame
import proofs.«428754_j5119601016898_3_alg».proof.Proof.KTerms
import proofs.«428754_j5119601016898_3_alg».proof.Proof.KTake

-- the references' inequalities and the lists of written references are decided by evaluation
set_option maxRecDepth 16384

noncomputable section

namespace Cert.KernelIdeal.KChain

open Cert.KernelIdeal Cert.KernelIdeal.Gen
open Idealize.ShloMosaic Idealize.ShloMosaic.TcCoe Idealize.ShloMosaic.StableHlo
open Idealize.SL.Sem

variable {F : FTy → Type} [FloatOps F]

-- the reductions, gathers and scatters over 800000 edges stay folded: two terms are compared operation by operation
attribute [local irreducible] Host.reduce Host.gather Host.scatterAdd Host.reduceAdd Host.exp Host.divf

/-! ## One stretch at a time, from any contents G -/

section Stretch
variable (G : Valuation τ sig (Elt F))

/-! ### What a stretch leaves alone: every array outside the list of those it writes -/

theorem keep0 (r : Ref sig .tc) (hr : r ∉ [main_cst, main_v0, main_v1, main_v2]) :
    after hostOps0 G (Proc.devRef .tc r) = G (Proc.devRef .tc r) :=
  after_of_writes_sub (W := [main_cst, main_v0, main_v1, main_v2]) hostOps0 G (by
    simp only [hostOps0, List.Forall, nullary_writes, unary_writes, binary_writes, ternary_writes, reshape_writes]
    repeat' apply And.intro
    all_goals exact Finset.singleton_subset_iff.mpr (List.mem_toFinset.mpr (List.mem_map.mpr ⟨_, by decide, rfl⟩))) hr

theorem keep1 (r : Ref sig .tc) (hr : r ∉ [main_v4, main_v5, main_v6]) :
    after hostOps1 G (Proc.devRef .tc r) = G (Proc.devRef .tc r) :=
  after_of_writes_sub (W := [main_v4, main_v5, main_v6]) hostOps1 G (by
    simp only [hostOps1, List.Forall, nullary_writes, unary_writes, binary_writes, ternary_writes, reshape_writes]
    repeat' apply And.intro
    all_goals exact Finset.singleton_subset_iff.mpr (List.mem_toFinset.mpr (List.mem_map.mpr ⟨_, by decide, rfl⟩))) hr

theorem keep1_1 (r : Ref sig .tc) (hr : r ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]) :
    after hostOps1_1 G (Proc.devRef .tc r) = G (Proc.devRef .tc r) :=
  after_of_writes_sub (W := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]) hostOps1_1 G (by
    simp only [hostOps1_1, List.Forall, nullary_writes, unary_writes, binary_writes, ternary_writes, reshape_writes]
    repeat' apply And.intro
    all_goals exact Finset.singleton_subset_iff.mpr (List.mem_toFinset.mpr (List.mem_map.mpr ⟨_, by decide, rfl⟩))) hr

theorem keep1_2 (r : Ref sig .tc) (hr : r ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]) :
    after hostOps1_2 G (Proc.devRef .tc r) = G (Proc.devRef .tc r) :=
  after_of_writes_sub (W := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]) hostOps1_2 G (by
    simp only [hostOps1_2, List.Forall, nullary_writes, unary_writes, binary_writes, ternary_writes, reshape_writes]
    repeat' apply And.intro
    all_goals exact Finset.singleton_subset_iff.mpr (List.mem_toFinset.mpr (List.mem_map.mpr ⟨_, by decide, rfl⟩))) hr

theorem keep1_3 (r : Ref sig .tc) (hr : r ∉ [main_v9, main_cst_0, main_v10, main_v11, main_cst_1]) :
    after hostOps1_3 G (Proc.devRef .tc r) = G (Proc.devRef .tc r) :=
  after_of_writes_sub (W := [main_v9, main_cst_0, main_v10, main_v11, main_cst_1]) hostOps1_3 G (by
    simp only [hostOps1_3, List.Forall, nullary_writes, unary_writes, binary_writes, ternary_writes, reshape_writes]
    repeat' apply And.intro
    all_goals exact Finset.singleton_subset_iff.mpr (List.mem_toFinset.mpr (List.mem_map.mpr ⟨_, by decide, rfl⟩))) hr

theorem keep1_4 (r : Ref sig .tc) (hr : r ∉ [main_call2_cst, main_call2_v0, main_call2_v1, main_call2_v2, main_call2_v3, main_call2_v4, main_v12]) :
    after hostOps1_4 G (Proc.devRef .tc r) = G (Proc.devRef .tc r) :=
  after_of_writes_sub (W := [main_call2_cst, main_call2_v0, main_call2_v1, main_call2_v2, main_call2_v3, main_call2_v4, main_v12]) hostOps1_4 G (by
    simp only [hostOps1_4, List.Forall, nullary_writes, unary_writes, binary_writes, ternary_writes, reshape_writes]
    repeat' apply And.intro
    all_goals exact Finset.singleton_subset_iff.mpr (List.mem_toFinset.mpr (List.mem_map.mpr ⟨_, by decide, rfl⟩))) hr

theorem keep1_5 (r : Ref sig .tc) (hr : r ∉ [main_v13, main_cst_2, main_v14, main_v15, main_v16, main_v17, main_cst_3, main_v18, main_v19, main_cst_4]) :
    after hostOps1_5 G (Proc.devRef .tc r) = G (Proc.devRef .tc r) :=
  after_of_writes_sub (W := [main_v13, main_cst_2, main_v14, main_v15, main_v16, main_v17, main_cst_3, main_v18, main_v19, main_cst_4]) hostOps1_5 G (by
    simp only [hostOps1_5, List.Forall, nullary_writes, unary_writes, binary_writes, ternary_writes, reshape_writes]
    repeat' apply And.intro
    all_goals exact Finset.singleton_subset_iff.mpr (List.mem_toFinset.mpr (List.mem_map.mpr ⟨_, by decide, rfl⟩))) hr

theorem keep1_6 (r : Ref sig .tc) (hr : r ∉ [main_call3_v0, main_call3_v1, main_v20]) :
    after hostOps1_6 G (Proc.devRef .tc r) = G (Proc.devRef .tc r) :=
  after_of_writes_sub (W := [main_call3_v0, main_call3_v1, main_v20]) hostOps1_6 G (by
    simp only [hostOps1_6, List.Forall, nullary_writes, unary_writes, binary_writes, ternary_writes, reshape_writes]
    repeat' apply And.intro
    all_goals exact Finset.singleton_subset_iff.mpr (List.mem_toFinset.mpr (List.mem_map.mpr ⟨_, by decide, rfl⟩))) hr

theorem keep1_7 (r : Ref sig .tc) (hr : r ∉ [main_cst_5, main_v21, main_v22, main_cst_6]) :
    after hostOps1_7 G (Proc.devRef .tc r) = G (Proc.devRef .tc r) :=
  after_of_writes_sub (W := [main_cst_5, main_v21, main_v22, main_cst_6]) hostOps1_7 G (by
    simp only [hostOps1_7, List.Forall, nullary_writes, unary_writes, binary_writes, ternary_writes, reshape_writes]
    repeat' apply And.intro
    all_goals exact Finset.singleton_subset_iff.mpr (List.mem_toFinset.mpr (List.mem_map.mpr ⟨_, by decide, rfl⟩))) hr

theorem keep1_8 (r : Ref sig .tc) (hr : r ∉ [main_call4_v0, main_call4_v1, main_v23]) :
    after hostOps1_8 G (Proc.devRef .tc r) = G (Proc.devRef .tc r) :=
  after_of_writes_sub (W := [main_call4_v0, main_call4_v1, main_v23]) hostOps1_8 G (by
    simp only [hostOps1_8, List.Forall, nullary_writes, unary_writes, binary_writes, ternary_writes, reshape_writes]
    repeat' apply And.intro
    all_goals exact Finset.singleton_subset_iff.mpr (List.mem_toFinset.mpr (List.mem_map.mpr ⟨_, by decide, rfl⟩))) hr

theorem keep1_9 (r : Ref sig .tc) (hr : r ∉ [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v24]) :
    after hostOps1_9 G (Proc.devRef .tc r) = G (Proc.devRef .tc r) :=
  after_of_writes_sub (W := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v24]) hostOps1_9 G (by
    simp only [hostOps1_9, List.Forall, nullary_writes, unary_writes, binary_writes, ternary_writes, reshape_writes]
    repeat' apply And.intro
    all_goals exact Finset.singleton_subset_iff.mpr (List.mem_toFinset.mpr (List.mem_map.mpr ⟨_, by decide, rfl⟩))) hr

theorem keep1_10 (r : Ref sig .tc) (hr : r ∉ [main_v25, main_v26, main_v27, main_cst_7, main_v28, main_v29, main_v30, main_v31, main_v32, main_v33, main_v34]) :
    after hostOps1_10 G (Proc.devRef .tc r) = G (Proc.devRef .tc r) :=
  after_of_writes_sub (W := [main_v25, main_v26, main_v27, main_cst_7, main_v28, main_v29, main_v30, main_v31, main_v32, main_v33, main_v34]) hostOps1_10 G (by
    simp only [hostOps1_10, List.Forall, nullary_writes, unary_writes, binary_writes, ternary_writes, reshape_writes]
    repeat' apply And.intro
    all_goals exact Finset.singleton_subset_iff.mpr (List.mem_toFinset.mpr (List.mem_map.mpr ⟨_, by decide, rfl⟩))) hr

/-! ### What a stretch writes -/

theorem s0_cst : after hostOps0 G (Proc.devRef .tc main_cst) = KT.eTab (F := F) := by
  simp only [hostOps0]; after_results_simp; try rfl
theorem s0_v0 : after hostOps0 G (Proc.devRef .tc main_v0) = KT.tr (F := F) (G (Proc.devRef .tc main_arg3)) := by
  simp only [hostOps0]; after_results_simp; try rfl
theorem s0_v1 : after hostOps0 G (Proc.devRef .tc main_v1) = KT.tr (F := F) (G (Proc.devRef .tc main_arg5)) := by
  simp only [hostOps0]; after_results_simp; try rfl
theorem s0_v2 : after hostOps0 G (Proc.devRef .tc main_v2) = KT.tr (F := F) (G (Proc.devRef .tc main_arg4)) := by
  simp only [hostOps0]; after_results_simp; try rfl

theorem s1_v4 : after hostOps1 G (Proc.devRef .tc main_v4) = KT.heads (F := F) (G (Proc.devRef .tc main_v3_2)) := by
  simp only [hostOps1]; after_results_simp; try rfl
theorem s1_v5 : after hostOps1 G (Proc.devRef .tc main_v5) = KT.heads (F := F) (G (Proc.devRef .tc main_v3_1)) := by
  simp only [hostOps1]; after_results_simp; try rfl
theorem s1_v6 : after hostOps1 G (Proc.devRef .tc main_v6) = KT.heads (F := F) (G (Proc.devRef .tc main_v3_0)) := by
  simp only [hostOps1]; after_results_simp; try rfl

theorem s1_3_v11 : after hostOps1_3 G (Proc.devRef .tc main_v11)
    = broadcastInDim S800000x8x1 ![0, 1] bcast_S800000x8_S800000x8x1_0_1
        (Host.reduceAdd (mulf (G (Proc.devRef .tc main_v7) : FVec F S800000x8x16 .f32) (G (Proc.devRef .tc main_v8)))
          (constant S_ .f32 0x00000000#32) reducesTo_S800000x8x16_S800000x8_d2 h_S_) := by
  simp only [hostOps1_3]; after_results_simp; try rfl
theorem s1_3_cst1 : after hostOps1_3 G (Proc.devRef .tc main_cst_1) = constant (F := F) S_ .f32 0x3E4CCCCD#32 := by
  simp only [hostOps1_3]; after_results_simp; try rfl

theorem s1_4_v12 : after hostOps1_4 G (Proc.devRef .tc main_v12)
    = select (cmpf .oge (G (Proc.devRef .tc main_v11) : FVec F S800000x8x1 .f32)
          (broadcastInDim S800000x8x1 ![] bcast_S_S800000x8x1 (constant S_ .f32 0x00000000#32)))
        (G (Proc.devRef .tc main_v11))
        (mulf (broadcastInDim S800000x8x1 ![] bcast_S_S800000x8x1 (id (G (Proc.devRef .tc main_cst_1) : FVec F S_ .f32)))
          (G (Proc.devRef .tc main_v11))) := by
  simp only [hostOps1_4]; after_results_simp; try rfl

theorem s1_5_v13 : after hostOps1_5 G (Proc.devRef .tc main_v13)
    = Host.exp (G (Proc.devRef .tc main_v12) : FVec F S800000x8x1 .f32) := by
  simp only [hostOps1_5]; after_results_simp; try rfl
theorem s1_5_v17 : after hostOps1_5 G (Proc.devRef .tc main_v17)
    = shapeCast S100000x8
        (Host.scatterAdd scatter_S100000x8x1_S800000x1_S800000x8x1_12_0_0_1
          (broadcastInDim S100000x8x1 ![] bcast_S_S100000x8x1 (constant S_ .f32 0x00000000#32))
          (KT.segIdx (G (Proc.devRef .tc main_arg2)))
          (Host.exp (G (Proc.devRef .tc main_v12) : FVec F S800000x8x1 .f32)))
        shapeCasts_S100000x8x1_S100000x8 := by
  simp only [hostOps1_5]; after_results_simp; try rfl
theorem s1_5_v19 : after hostOps1_5 G (Proc.devRef .tc main_v19)
    = cmpf .ogt
        (shapeCast S100000x8
          (Host.scatterAdd scatter_S100000x8x1_S800000x1_S800000x8x1_12_0_0_1
            (broadcastInDim S100000x8x1 ![] bcast_S_S100000x8x1 (constant S_ .f32 0x00000000#32))
            (KT.segIdx (G (Proc.devRef .tc main_arg2)))
            (Host.exp (G (Proc.devRef .tc main_v12) : FVec F S800000x8x1 .f32)))
          shapeCasts_S100000x8x1_S100000x8)
        (broadcastInDim S100000x8 ![] bcast_S_S100000x8 (constant S_ .f32 0x00000000#32)) := by
  simp only [hostOps1_5]; after_results_simp; try rfl
theorem s1_5_cst4 : after hostOps1_5 G (Proc.devRef .tc main_cst_4) = constant (F := F) S_ .f32 0x3F800000#32 := by
  simp only [hostOps1_5]; after_results_simp; try rfl

theorem s1_6_v20 : after hostOps1_6 G (Proc.devRef .tc main_v20)
    = KT.whereS (F := F) (G (Proc.devRef .tc main_v19)) (G (Proc.devRef .tc main_v17)) (G (Proc.devRef .tc main_cst_4)) := by
  simp only [hostOps1_6]; after_results_simp; try rfl

theorem s1_7_v22 : after hostOps1_7 G (Proc.devRef .tc main_v22)
    = Host.divf (broadcastInDim S100000x8 ![] bcast_S_S100000x8 (constant S_ .f32 0x3F800000#32))
        (G (Proc.devRef .tc main_v20) : FVec F S100000x8 .f32) := by
  simp only [hostOps1_7]; after_results_simp; try rfl
theorem s1_7_cst6 : after hostOps1_7 G (Proc.devRef .tc main_cst_6) = constant (F := F) S_ .f32 0x00000000#32 := by
  simp only [hostOps1_7]; after_results_simp; try rfl

theorem s1_8_v23 : after hostOps1_8 G (Proc.devRef .tc main_v23)
    = KT.whereS (F := F) (G (Proc.devRef .tc main_v19)) (G (Proc.devRef .tc main_v22)) (G (Proc.devRef .tc main_cst_6)) := by
  simp only [hostOps1_8]; after_results_simp; try rfl

theorem s1_10_v30 : after hostOps1_10 G (Proc.devRef .tc main_v30)
    = Host.scatterAdd scatter_S100000x128_S800000x1_S800000x128_1_0_0_1
        (broadcastInDim S100000x128 ![] bcast_S_S100000x128 (constant S_ .f32 0x00000000#32))
        (KT.segIdx (G (Proc.devRef .tc main_arg2)))
        (shapeCast S800000x128
          (mulf (G (Proc.devRef .tc main_v24) : FVec F S800000x8x16 .f32)
            (broadcastInDim S800000x8x16 ![0, 1, 2] bcast_S800000x8x1_S800000x8x16_0_1_2 (G (Proc.devRef .tc main_v13))))
          shapeCasts_S800000x8x16_S800000x128) := by
  simp only [hostOps1_10]; after_results_simp; try rfl
theorem s1_10_v31 : after hostOps1_10 G (Proc.devRef .tc main_v31) = KT.tr (F := F) (G (Proc.devRef .tc main_arg6)) := by
  simp only [hostOps1_10]; after_results_simp; try rfl
theorem s1_10_v32 : after hostOps1_10 G (Proc.devRef .tc main_v32) = KT.tr (F := F) (G (Proc.devRef .tc main_arg8)) := by
  simp only [hostOps1_10]; after_results_simp; try rfl
theorem s1_10_v33 : after hostOps1_10 G (Proc.devRef .tc main_v33) = KT.row1 (F := F) (G (Proc.devRef .tc main_arg7)) := by
  simp only [hostOps1_10]; after_results_simp; try rfl
theorem s1_10_v34 : after hostOps1_10 G (Proc.devRef .tc main_v34) = KT.row1 (F := F) (G (Proc.devRef .tc main_arg9)) := by
  simp only [hostOps1_10]; after_results_simp; try rfl

end Stretch

/-! ## The walk: every array the launches read, from the launch memory and the first launch's outputs -/

section Walk
variable (m : (ℓ : Loc nD τ sig) → Buf (Elt F) ℓ) (ρ : Dev nD → PrngReg) (c : Dev nD)

/-! ### Before and at the first launch -/

theorem W1_arg (r : Ref sig .tc) (hr : r ∉ [main_cst, main_v0, main_v1, main_v2]) :
    W1 m ρ c (Proc.devRef .tc r) = m ((c : Thread nD τ).loc r) :=
  (keep0 (W0 m ρ c) r hr).trans rfl

/-- An array the first launch does not touch holds at its exit what the launch memory held, if no operation before wrote it. -/
theorem W2_arg (r : Ref sig .tc) (hs : ∀ w, Pipeline.arrRef spec0 w ≠ r) (hr : r ∉ [main_cst, main_v0, main_v1, main_v2]) :
    W2 m ρ c (Proc.devRef .tc r) = m ((c : Thread nD τ).loc r) :=
  (W2_of_ne m ρ c r hs).trans (W1_arg m ρ c r hr)

theorem W2_cst : W2 m ρ c (Proc.devRef .tc main_cst) = KT.eTab (F := F) :=
  (W2_of_ne m ρ c main_cst (by decide)).trans (s0_cst (W0 m ρ c))

/-! ### Arrays that stay as the first launch left them -/

theorem W3_keep (r : Ref sig .tc) (h1 : r ∉ [main_v4, main_v5, main_v6]) : W3 m ρ c (Proc.devRef .tc r) = W2 m ρ c (Proc.devRef .tc r) :=
  keep1 (W2 m ρ c) r h1
theorem W4_keep (r : Ref sig .tc) (h1 : r ∉ [main_v4, main_v5, main_v6]) (h2 : r ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]) :
    W4 m ρ c (Proc.devRef .tc r) = W2 m ρ c (Proc.devRef .tc r) :=
  (keep1_1 (W3 m ρ c) r h2).trans (W3_keep m ρ c r h1)
theorem W5_keep (r : Ref sig .tc) (h1 : r ∉ [main_v4, main_v5, main_v6]) (h2 : r ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]) (h3 : r ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]) :
    W5 m ρ c (Proc.devRef .tc r) = W2 m ρ c (Proc.devRef .tc r) :=
  (keep1_2 (W4 m ρ c) r h3).trans (W4_keep m ρ c r h1 h2)
theorem W6_keep (r : Ref sig .tc) (h1 : r ∉ [main_v4, main_v5, main_v6]) (h2 : r ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]) (h3 : r ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]) (h4 : r ∉ [main_v9, main_cst_0, main_v10, main_v11, main_cst_1]) :
    W6 m ρ c (Proc.devRef .tc r) = W2 m ρ c (Proc.devRef .tc r) :=
  (keep1_3 (W5 m ρ c) r h4).trans (W5_keep m ρ c r h1 h2 h3)
theorem W7_keep (r : Ref sig .tc) (h1 : r ∉ [main_v4, main_v5, main_v6]) (h2 : r ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]) (h3 : r ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]) (h4 : r ∉ [main_v9, main_cst_0, main_v10, main_v11, main_cst_1])
    (h5 : r ∉ [main_call2_cst, main_call2_v0, main_call2_v1, main_call2_v2, main_call2_v3, main_call2_v4, main_v12]) : W7 m ρ c (Proc.devRef .tc r) = W2 m ρ c (Proc.devRef .tc r) :=
  (keep1_4 (W6 m ρ c) r h5).trans (W6_keep m ρ c r h1 h2 h3 h4)
theorem W11_keep (r : Ref sig .tc) (h1 : r ∉ [main_v4, main_v5, main_v6]) (h2 : r ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]) (h3 : r ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]) (h4 : r ∉ [main_v9, main_cst_0, main_v10, main_v11, main_cst_1])
    (h5 : r ∉ [main_call2_cst, main_call2_v0, main_call2_v1, main_call2_v2, main_call2_v3, main_call2_v4, main_v12]) (h6 : r ∉ [main_v13, main_cst_2, main_v14, main_v15, main_v16, main_v17, main_cst_3, main_v18, main_v19, main_cst_4]) (h7 : r ∉ [main_call3_v0, main_call3_v1, main_v20]) (h8 : r ∉ [main_cst_5, main_v21, main_v22, main_cst_6]) (h9 : r ∉ [main_call4_v0, main_call4_v1, main_v23]) :
    W11 m ρ c (Proc.devRef .tc r) = W2 m ρ c (Proc.devRef .tc r) :=
  (keep1_8 (W10 m ρ c) r h9).trans <| (keep1_7 (W9 m ρ c) r h8).trans <| (keep1_6 (W8 m ρ c) r h7).trans <|
    (keep1_5 (W7 m ρ c) r h6).trans (W7_keep m ρ c r h1 h2 h3 h4 h5)
theorem W12_keep (r : Ref sig .tc) (h1 : r ∉ [main_v4, main_v5, main_v6]) (h2 : r ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]) (h3 : r ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]) (h4 : r ∉ [main_v9, main_cst_0, main_v10, main_v11, main_cst_1])
    (h5 : r ∉ [main_call2_cst, main_call2_v0, main_call2_v1, main_call2_v2, main_call2_v3, main_call2_v4, main_v12]) (h6 : r ∉ [main_v13, main_cst_2, main_v14, main_v15, main_v16, main_v17, main_cst_3, main_v18, main_v19, main_cst_4]) (h7 : r ∉ [main_call3_v0, main_call3_v1, main_v20]) (h8 : r ∉ [main_cst_5, main_v21, main_v22, main_cst_6]) (h9 : r ∉ [main_call4_v0, main_call4_v1, main_v23])
    (h10 : r ∉ [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v24]) : W12 m ρ c (Proc.devRef .tc r) = W2 m ρ c (Proc.devRef .tc r) :=
  (keep1_9 (W11 m ρ c) r h10).trans (W11_keep m ρ c r h1 h2 h3 h4 h5 h6 h7 h8 h9)
theorem W13_keep (r : Ref sig .tc) (h1 : r ∉ [main_v4, main_v5, main_v6]) (h2 : r ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]) (h3 : r ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]) (h4 : r ∉ [main_v9, main_cst_0, main_v10, main_v11, main_cst_1])
    (h5 : r ∉ [main_call2_cst, main_call2_v0, main_call2_v1, main_call2_v2, main_call2_v3, main_call2_v4, main_v12]) (h6 : r ∉ [main_v13, main_cst_2, main_v14, main_v15, main_v16, main_v17, main_cst_3, main_v18, main_v19, main_cst_4]) (h7 : r ∉ [main_call3_v0, main_call3_v1, main_v20]) (h8 : r ∉ [main_cst_5, main_v21, main_v22, main_cst_6]) (h9 : r ∉ [main_call4_v0, main_call4_v1, main_v23])
    (h10 : r ∉ [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v24]) (h11 : r ∉ [main_v25, main_v26, main_v27, main_cst_7, main_v28, main_v29, main_v30, main_v31, main_v32, main_v33, main_v34]) : W13 m ρ c (Proc.devRef .tc r) = W2 m ρ c (Proc.devRef .tc r) :=
  (keep1_10 (W12 m ρ c) r h11).trans (W12_keep m ρ c r h1 h2 h3 h4 h5 h6 h7 h8 h9 h10)

/-! ### The edge words, wherever they are read -/

theorem W3_arg1 : W3 m ρ c (Proc.devRef .tc main_arg1) = m ((c : Thread nD τ).loc main_arg1) :=
  (W3_keep m ρ c main_arg1 (by decide)).trans (W2_arg m ρ c main_arg1 (by decide) (by decide))
theorem W4_arg2 : W4 m ρ c (Proc.devRef .tc main_arg2) = m ((c : Thread nD τ).loc main_arg2) :=
  (W4_keep m ρ c main_arg2 (by decide) (by decide)).trans (W2_arg m ρ c main_arg2 (by decide) (by decide))
theorem W7_arg2 : W7 m ρ c (Proc.devRef .tc main_arg2) = m ((c : Thread nD τ).loc main_arg2) :=
  (W7_keep m ρ c main_arg2 (by decide) (by decide) (by decide) (by decide) (by decide)).trans
    (W2_arg m ρ c main_arg2 (by decide) (by decide))
theorem W11_arg1 : W11 m ρ c (Proc.devRef .tc main_arg1) = m ((c : Thread nD τ).loc main_arg1) :=
  (W11_keep m ρ c main_arg1 (by decide) (by decide) (by decide) (by decide) (by decide) (by decide) (by decide) (by decide)
    (by decide)).trans (W2_arg m ρ c main_arg1 (by decide) (by decide))
theorem W12_arg (r : Ref sig .tc) (hs : ∀ w, Pipeline.arrRef spec0 w ≠ r) (h0 : r ∉ [main_cst, main_v0, main_v1, main_v2])
    (h1 : r ∉ [main_v4, main_v5, main_v6]) (h2 : r ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]) (h3 : r ∉ [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]) (h4 : r ∉ [main_v9, main_cst_0, main_v10, main_v11, main_cst_1])
    (h5 : r ∉ [main_call2_cst, main_call2_v0, main_call2_v1, main_call2_v2, main_call2_v3, main_call2_v4, main_v12]) (h6 : r ∉ [main_v13, main_cst_2, main_v14, main_v15, main_v16, main_v17, main_cst_3, main_v18, main_v19, main_cst_4]) (h7 : r ∉ [main_call3_v0, main_call3_v1, main_v20]) (h8 : r ∉ [main_cst_5, main_v21, main_v22, main_cst_6]) (h9 : r ∉ [main_call4_v0, main_call4_v1, main_v23])
    (h10 : r ∉ [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v24]) : W12 m ρ c (Proc.devRef .tc r) = m ((c : Thread nD τ).loc r) :=
  (W12_keep m ρ c r h1 h2 h3 h4 h5 h6 h7 h8 h9 h10).trans (W2_arg m ρ c r hs h0)

/-! ### The edge weights -/

theorem W3_v4 : W3 m ρ c (Proc.devRef .tc main_v4) = KT.heads (F := F) (W2 m ρ c (Proc.devRef .tc main_v3_2)) := s1_v4 (W2 m ρ c)
theorem W3_v5 : W3 m ρ c (Proc.devRef .tc main_v5) = KT.heads (F := F) (W2 m ρ c (Proc.devRef .tc main_v3_1)) := s1_v5 (W2 m ρ c)
theorem W3_v6 : W3 m ρ c (Proc.devRef .tc main_v6) = KT.heads (F := F) (W2 m ρ c (Proc.devRef .tc main_v3_0)) := s1_v6 (W2 m ρ c)

theorem W4_v7 : W4 m ρ c (Proc.devRef .tc main_v7)
    = KT.takeFill (F := F) (KT.heads (W2 m ρ c (Proc.devRef .tc main_v3_2))) (m ((c : Thread nD τ).loc main_arg1)) :=
  (KTake.take_v7 (W3 m ρ c)).trans (congrArg₂ (KT.takeFill (F := F)) (W3_v4 m ρ c) (W3_arg1 m ρ c))
theorem W4_v5 : W4 m ρ c (Proc.devRef .tc main_v5) = KT.heads (F := F) (W2 m ρ c (Proc.devRef .tc main_v3_1)) :=
  (keep1_1 (W3 m ρ c) main_v5 (by decide)).trans (W3_v5 m ρ c)
theorem W5_v8 : W5 m ρ c (Proc.devRef .tc main_v8)
    = KT.takeFill (F := F) (KT.heads (W2 m ρ c (Proc.devRef .tc main_v3_1))) (m ((c : Thread nD τ).loc main_arg2)) :=
  (KTake.take_v8 (W4 m ρ c)).trans (congrArg₂ (KT.takeFill (F := F)) (W4_v5 m ρ c) (W4_arg2 m ρ c))
theorem W5_v7 : W5 m ρ c (Proc.devRef .tc main_v7)
    = KT.takeFill (F := F) (KT.heads (W2 m ρ c (Proc.devRef .tc main_v3_2))) (m ((c : Thread nD τ).loc main_arg1)) :=
  (keep1_2 (W4 m ρ c) main_v7 (by decide)).trans (W4_v7 m ρ c)

theorem W7_v12 : W7 m ρ c (Proc.devRef .tc main_v12)
    = KT.leaky (F := F) (broadcastInDim S800000x8x1 ![0, 1] bcast_S800000x8_S800000x8x1_0_1
        (Host.reduceAdd (mulf (KT.takeFill (KT.heads (W2 m ρ c (Proc.devRef .tc main_v3_2))) (m ((c : Thread nD τ).loc main_arg1))) (KT.takeFill (KT.heads (W2 m ρ c (Proc.devRef .tc main_v3_1))) (m ((c : Thread nD τ).loc main_arg2))))
          (constant S_ .f32 0x00000000#32) reducesTo_S800000x8x16_S800000x8_d2 h_S_)) := by
  rw [show W7 m ρ c (Proc.devRef .tc main_v12) = _ from s1_4_v12 (W6 m ρ c)]
  rw [show W6 m ρ c (Proc.devRef .tc main_v11) = _ from s1_3_v11 (W5 m ρ c),
    show W6 m ρ c (Proc.devRef .tc main_cst_1) = _ from s1_3_cst1 (W5 m ρ c), W5_v7 m ρ c, W5_v8 m ρ c]
  rfl

theorem exp_v12 : Host.exp (W7 m ρ c (Proc.devRef .tc main_v12) : FVec F S800000x8x1 .f32)
    = KT.attT (F := F) (W2 m ρ c (Proc.devRef .tc main_v3_2)) (W2 m ρ c (Proc.devRef .tc main_v3_1)) (m ((c : Thread nD τ).loc main_arg1)) (m ((c : Thread nD τ).loc main_arg2)) := by
  rw [W7_v12 m ρ c]; rfl

theorem W8_v13 : W8 m ρ c (Proc.devRef .tc main_v13) = KT.attT (F := F) (W2 m ρ c (Proc.devRef .tc main_v3_2)) (W2 m ρ c (Proc.devRef .tc main_v3_1)) (m ((c : Thread nD τ).loc main_arg1)) (m ((c : Thread nD τ).loc main_arg2)) :=
  (s1_5_v13 (W7 m ρ c)).trans (exp_v12 m ρ c)

/-! ### The denominators and their guarded reciprocals -/

theorem W8_v17 : W8 m ρ c (Proc.devRef .tc main_v17) = KT.denomT (F := F) (W2 m ρ c (Proc.devRef .tc main_v3_2)) (W2 m ρ c (Proc.devRef .tc main_v3_1)) (m ((c : Thread nD τ).loc main_arg1)) (m ((c : Thread nD τ).loc main_arg2)) := by
  refine (s1_5_v17 (W7 m ρ c)).trans ?_
  rw [exp_v12 m ρ c, W7_arg2 m ρ c]; rfl
theorem W8_v19 : W8 m ρ c (Proc.devRef .tc main_v19) = KT.posT (F := F) (W2 m ρ c (Proc.devRef .tc main_v3_2)) (W2 m ρ c (Proc.devRef .tc main_v3_1)) (m ((c : Thread nD τ).loc main_arg1)) (m ((c : Thread nD τ).loc main_arg2)) := by
  refine (s1_5_v19 (W7 m ρ c)).trans ?_
  rw [exp_v12 m ρ c, W7_arg2 m ρ c]; rfl
theorem W8_cst4 : W8 m ρ c (Proc.devRef .tc main_cst_4) = constant (F := F) S_ .f32 0x3F800000#32 := s1_5_cst4 (W7 m ρ c)

theorem W9_v20 : W9 m ρ c (Proc.devRef .tc main_v20)
    = KT.whereS (F := F) (KT.posT (W2 m ρ c (Proc.devRef .tc main_v3_2)) (W2 m ρ c (Proc.devRef .tc main_v3_1)) (m ((c : Thread nD τ).loc main_arg1)) (m ((c : Thread nD τ).loc main_arg2))) (KT.denomT (W2 m ρ c (Proc.devRef .tc main_v3_2)) (W2 m ρ c (Proc.devRef .tc main_v3_1)) (m ((c : Thread nD τ).loc main_arg1)) (m ((c : Thread nD τ).loc main_arg2))) (constant S_ .f32 0x3F800000#32) := by
  refine (s1_6_v20 (W8 m ρ c)).trans ?_
  rw [W8_v19 m ρ c, W8_v17 m ρ c, W8_cst4 m ρ c]
theorem W10_v19 : W10 m ρ c (Proc.devRef .tc main_v19) = KT.posT (F := F) (W2 m ρ c (Proc.devRef .tc main_v3_2)) (W2 m ρ c (Proc.devRef .tc main_v3_1)) (m ((c : Thread nD τ).loc main_arg1)) (m ((c : Thread nD τ).loc main_arg2)) :=
  (keep1_7 (W9 m ρ c) main_v19 (by decide)).trans <| (keep1_6 (W8 m ρ c) main_v19 (by decide)).trans (W8_v19 m ρ c)
theorem W10_v22 : W10 m ρ c (Proc.devRef .tc main_v22)
    = Host.divf (broadcastInDim S100000x8 ![] bcast_S_S100000x8 (constant S_ .f32 0x3F800000#32))
        (KT.whereS (F := F) (KT.posT (W2 m ρ c (Proc.devRef .tc main_v3_2)) (W2 m ρ c (Proc.devRef .tc main_v3_1)) (m ((c : Thread nD τ).loc main_arg1)) (m ((c : Thread nD τ).loc main_arg2))) (KT.denomT (W2 m ρ c (Proc.devRef .tc main_v3_2)) (W2 m ρ c (Proc.devRef .tc main_v3_1)) (m ((c : Thread nD τ).loc main_arg1)) (m ((c : Thread nD τ).loc main_arg2))) (constant S_ .f32 0x3F800000#32)) := by
  refine (s1_7_v22 (W9 m ρ c)).trans ?_
  rw [W9_v20 m ρ c]
theorem W10_cst6 : W10 m ρ c (Proc.devRef .tc main_cst_6) = constant (F := F) S_ .f32 0x00000000#32 := s1_7_cst6 (W9 m ρ c)

theorem W11_v23 : W11 m ρ c (Proc.devRef .tc main_v23) = KT.invT (F := F) (W2 m ρ c (Proc.devRef .tc main_v3_2)) (W2 m ρ c (Proc.devRef .tc main_v3_1)) (m ((c : Thread nD τ).loc main_arg1)) (m ((c : Thread nD τ).loc main_arg2)) := by
  refine (s1_8_v23 (W10 m ρ c)).trans ?_
  rw [W10_v19 m ρ c, W10_v22 m ρ c, W10_cst6 m ρ c]; rfl
theorem W13_v23 : W13 m ρ c (Proc.devRef .tc main_v23) = KT.invT (F := F) (W2 m ρ c (Proc.devRef .tc main_v3_2)) (W2 m ρ c (Proc.devRef .tc main_v3_1)) (m ((c : Thread nD τ).loc main_arg1)) (m ((c : Thread nD τ).loc main_arg2)) :=
  (keep1_10 (W12 m ρ c) main_v23 (by decide)).trans <| (keep1_9 (W11 m ρ c) main_v23 (by decide)).trans (W11_v23 m ρ c)

/-! ### The aggregate -/

theorem W11_v6 : W11 m ρ c (Proc.devRef .tc main_v6) = KT.heads (F := F) (W2 m ρ c (Proc.devRef .tc main_v3_0)) :=
  (keep1_8 (W10 m ρ c) main_v6 (by decide)).trans <| (keep1_7 (W9 m ρ c) main_v6 (by decide)).trans <|
  (keep1_6 (W8 m ρ c) main_v6 (by decide)).trans <| (keep1_5 (W7 m ρ c) main_v6 (by decide)).trans <|
  (keep1_4 (W6 m ρ c) main_v6 (by decide)).trans <| (keep1_3 (W5 m ρ c) main_v6 (by decide)).trans <|
  (keep1_2 (W4 m ρ c) main_v6 (by decide)).trans <| (keep1_1 (W3 m ρ c) main_v6 (by decide)).trans (W3_v6 m ρ c)
theorem W12_v24 : W12 m ρ c (Proc.devRef .tc main_v24) = KT.takeFill (F := F) (KT.heads (W2 m ρ c (Proc.devRef .tc main_v3_0))) (m ((c : Thread nD τ).loc main_arg1)) :=
  (KTake.take_v24 (W11 m ρ c)).trans (congrArg₂ (KT.takeFill (F := F)) (W11_v6 m ρ c) (W11_arg1 m ρ c))
theorem W12_v13 : W12 m ρ c (Proc.devRef .tc main_v13) = KT.attT (F := F) (W2 m ρ c (Proc.devRef .tc main_v3_2)) (W2 m ρ c (Proc.devRef .tc main_v3_1)) (m ((c : Thread nD τ).loc main_arg1)) (m ((c : Thread nD τ).loc main_arg2)) :=
  (keep1_9 (W11 m ρ c) main_v13 (by decide)).trans <| (keep1_8 (W10 m ρ c) main_v13 (by decide)).trans <|
  (keep1_7 (W9 m ρ c) main_v13 (by decide)).trans <| (keep1_6 (W8 m ρ c) main_v13 (by decide)).trans (W8_v13 m ρ c)
theorem W13_v30 : W13 m ρ c (Proc.devRef .tc main_v30) = KT.aggT (F := F) (W2 m ρ c (Proc.devRef .tc main_v3_0)) (W2 m ρ c (Proc.devRef .tc main_v3_2)) (W2 m ρ c (Proc.devRef .tc main_v3_1)) (m ((c : Thread nD τ).loc main_arg1)) (m ((c : Thread nD τ).loc main_arg2)) := by
  refine (s1_10_v30 (W12 m ρ c)).trans ?_
  rw [W12_v24 m ρ c, W12_v13 m ρ c, W12_arg m ρ c main_arg2 (by decide) (by decide) (by decide) (by decide) (by decide) (by decide) (by decide) (by decide) (by decide) (by decide) (by decide) (by decide)]; rfl

end Walk

/-! ## What the two launches find -/

variable (m : (ℓ : Loc nD τ sig) → Buf (Elt F) ℓ) (ρ : Dev nD → PrngReg)

/-- The first launch reads the features as launched. -/
theorem V1_arg0 (c : Dev nD) : V1 m ρ c main_arg0 = m ((c : Thread nD τ).loc main_arg0) :=
  W1_arg m ρ c main_arg0 (by decide)
/-- The first launch reads the three projection matrices transposed. -/
theorem V1_v0 (c : Dev nD) : V1 m ρ c main_v0 = KT.tr (F := F) (m ((c : Thread nD τ).loc main_arg3)) := s0_v0 (W0 m ρ c)
theorem V1_v1 (c : Dev nD) : V1 m ρ c main_v1 = KT.tr (F := F) (m ((c : Thread nD τ).loc main_arg5)) := s0_v1 (W0 m ρ c)
theorem V1_v2 (c : Dev nD) : V1 m ρ c main_v2 = KT.tr (F := F) (m ((c : Thread nD τ).loc main_arg4)) := s0_v2 (W0 m ρ c)

/-- The second launch reads the unnormalised aggregate of the first launch's outputs along the edges as launched. -/
theorem V13_v30 (c : Dev nD) : V13 m ρ c main_v30
    = KT.aggT (F := F) (V2 m ρ c main_v3_0) (V2 m ρ c main_v3_2) (V2 m ρ c main_v3_1)
        (m ((c : Thread nD τ).loc main_arg1)) (m ((c : Thread nD τ).loc main_arg2)) := W13_v30 m ρ c
/-- The first launch's V output reaches the second launch untouched. -/
theorem V13_v3_0 (c : Dev nD) : V13 m ρ c main_v3_0 = V2 m ρ c main_v3_0 :=
  W13_keep m ρ c main_v3_0 (by decide) (by decide) (by decide) (by decide) (by decide) (by decide) (by decide) (by decide) (by decide) (by decide) (by decide)
/-- The second launch reads the guarded reciprocal denominators. -/
theorem V13_v23 (c : Dev nD) : V13 m ρ c main_v23
    = KT.invT (F := F) (V2 m ρ c main_v3_2) (V2 m ρ c main_v3_1)
        (m ((c : Thread nD τ).loc main_arg1)) (m ((c : Thread nD τ).loc main_arg2)) := W13_v23 m ρ c
/-- The expansion table is the printed one. -/
theorem V13_cst (c : Dev nD) : V13 m ρ c main_cst = KT.eTab (F := F) :=
  (W13_keep m ρ c main_cst (by decide) (by decide) (by decide) (by decide) (by decide) (by decide) (by decide) (by decide) (by decide) (by decide) (by decide)).trans (W2_cst m ρ c)
/-- The layer matrices transposed and the bias vectors as rows. -/
theorem V13_v31 (c : Dev nD) : V13 m ρ c main_v31 = KT.tr (F := F) (m ((c : Thread nD τ).loc main_arg6)) :=
  (s1_10_v31 (W12 m ρ c)).trans (congrArg (KT.tr (F := F)) (W12_arg m ρ c main_arg6 (by decide) (by decide) (by decide) (by decide) (by decide) (by decide) (by decide) (by decide) (by decide) (by decide) (by decide) (by decide)))
theorem V13_v33 (c : Dev nD) : V13 m ρ c main_v33 = KT.row1 (F := F) (m ((c : Thread nD τ).loc main_arg7)) :=
  (s1_10_v33 (W12 m ρ c)).trans (congrArg (KT.row1 (F := F)) (W12_arg m ρ c main_arg7 (by decide) (by decide) (by decide) (by decide) (by decide) (by decide) (by decide) (by decide) (by decide) (by decide) (by decide) (by decide)))
theorem V13_v32 (c : Dev nD) : V13 m ρ c main_v32 = KT.tr (F := F) (m ((c : Thread nD τ).loc main_arg8)) :=
  (s1_10_v32 (W12 m ρ c)).trans (congrArg (KT.tr (F := F)) (W12_arg m ρ c main_arg8 (by decide) (by decide) (by decide) (by decide) (by decide) (by decide) (by decide) (by decide) (by decide) (by decide) (by decide) (by decide)))
theorem V13_v34 (c : Dev nD) : V13 m ρ c main_v34 = KT.row1 (F := F) (m ((c : Thread nD τ).loc main_arg9)) :=
  (s1_10_v34 (W12 m ρ c)).trans (congrArg (KT.row1 (F := F)) (W12_arg m ρ c main_arg9 (by decide) (by decide) (by decide) (by decide) (by decide) (by decide) (by decide) (by decide) (by decide) (by decide) (by decide) (by decide)))

end Cert.KernelIdeal.KChain

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.Region0.lean ====
/-
  The projection launch's three output arrays, read at an index.

  The launch walks 25 points. Point t stages rows 4000 t … 4000 t + 3999 of the 100000 x 128 left array X and the whole
  of each 128 x 128 right array W, and for each of its three outputs writes back the block
      out (p, q) = ∑ k, x (p, k) · w (k, q)
  of that block x of rows: the narrowing of both operands before the product is the identity on the extended reals, and
  the accumulator starts at zero. Row n of an output array lies in the block n / 4000, at the block's row n % 4000, and
  every point writes its block back, so after the launch, for each of the three right arrays W,
      array (n, j) = ∑ k, X (n, k) · W (k, j).
-/
import proofs.«428754_j5119601016898_3_alg».proof.Proof.Gen.KernelIdeal.Frame
import proofs.«428754_j5119601016898_3_alg».proof.Proof.LibMatmulAt
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## One block's product at an index -/

/-- A block of rows times a right array, at row p and column q. -/
theorem pay2_apply (x : Vec Ideal S4000x128 .f32) (w : Vec Ideal S128x128 .f32) (p : Fin 4000) (q : Fin 128) :
    k0_pay2 (F := Ideal) x w (ix2 p q) = ∑ k : Fin 128, x (ix2 p k) * w (ix2 k q) := by
  unfold k0_pay2 k0_pay1
  refine (MatmulAt.matmul_plain_apply (M := 4000) (K := 128) (N := 128) none
    (truncf .bf16 x bitsLt_bf16_f32) (truncf .bf16 (shapeCast S128x128 w shapeCasts_S128x128_S128x128) bitsLt_bf16_f32) p q).trans ?_
  refine Finset.sum_congr rfl fun k _ => ?_
  show x (ix2 p k) * (shapeCast S128x128 w shapeCasts_S128x128_S128x128) (ix2 k q) = _
  rw [shapeCast_self]

/-- The left array and the three right arrays as the launch finds them. -/
abbrev xArr (c : Dev nD) : Vec Ideal S100000x128 .f32 := V c (Pipeline.arrRef spec0 0)
abbrev wArr1 (c : Dev nD) : Vec Ideal S128x128 .f32 := V c (Pipeline.arrRef spec0 1)
abbrev wArr2 (c : Dev nD) : Vec Ideal S128x128 .f32 := V c (Pipeline.arrRef spec0 2)
abbrev wArr3 (c : Dev nD) : Vec Ideal S128x128 .f32 := V c (Pipeline.arrRef spec0 3)

/-- A whole-array product. -/
abbrev prodArr (X : Vec Ideal S100000x128 .f32) (W : Vec Ideal S128x128 .f32) : Vec Ideal S100000x128 .f32 :=
  fun i => ∑ k : Fin 128, X (ix2 (i 0) k) * W (ix2 k (i 1))

/-- The three output arrays after the launch. -/
abbrev outArr4 (c : Dev nD) : Vec Ideal S100000x128 .f32 := (dat0 (F := Ideal) V c).arrAt 4 cfg0.N
abbrev outArr5 (c : Dev nD) : Vec Ideal S100000x128 .f32 := (dat0 (F := Ideal) V c).arrAt 5 cfg0.N
abbrev outArr6 (c : Dev nD) : Vec Ideal S100000x128 .f32 := (dat0 (F := Ideal) V c).arrAt 6 cfg0.N

/-- The printed index maps, decided over the grid: the row windows sit at block t, the right arrays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Block t of the product array is the product of block t of the rows. -/
theorem block_eq (X : Vec Ideal S100000x128 .f32) (W : Vec Ideal S128x128 .f32)
    (x : Vec Ideal S4000x128 .f32) (w : Vec Ideal S128x128 .f32) (t : Nat)
    (hx : ∀ (y : S4000x128.Idx) (i : S100000x128.Idx), (i 0).val = 4000 * t + (y 0).val → (i 1).val = (y 1).val → x y = X i)
    (hw : w = W) (y : S4000x128.Idx) (i : S100000x128.Idx)
    (hi0 : (i 0).val = 4000 * t + (y 0).val) (hi1 : (i 1).val = (y 1).val) :
    ∑ k : Fin 128, x (ix2 (y 0) k) * w (ix2 k (y 1)) = prodArr X W i := by
  subst hw
  refine Finset.sum_congr rfl fun k _ => ?_
  rw [hx (ix2 (y 0) k) (ix2 (i 0) k) hi0 rfl]
  have e : y 1 = i 1 := Fin.ext hi1.symm
  rw [e]

/-- The block's product at any index of the block. -/
theorem pay2_at (x : Vec Ideal S4000x128 .f32) (w : Vec Ideal S128x128 .f32) (y : S4000x128.Idx) :
    k0_pay2 (F := Ideal) x w y = ∑ k : Fin 128, x (ix2 (y 0) k) * w (ix2 k (y 1)) := by
  obtain ⟨p, q, rfl⟩ : ∃ (p : Fin 4000) (q : Fin 128), y = ix2 p q := ⟨y 0, y 1, eq_ix2 y⟩
  exact pay2_apply x w p q

/-- The row window's block at point t is rows 4000 t … 4000 t + 3999 of the left array. -/
theorem xblk_apply (c : Dev nD) (t : Fin cfg0.N) (y : S4000x128.Idx) (i : S100000x128.Idx)
    (h0 : (i 0).val = 4000 * t.val + (y 0).val) (h1 : (i 1).val = (y 1).val) :
    (iblk0 V c 0 t : Vec Ideal S4000x128 .f32) y = xArr V c i := by
  obtain ⟨e0, e1, -⟩ := idx_facts t
  unfold iblk0
  rw [View.read_apply]
  show V c main_arg0 (((cfg0.win 0).blk t).view.emb y) = V c main_arg0 i
  refine congrArg _ (funext fun a => Fin.ext ?_)
  match a with
  | ⟨0, _⟩ => show win0_0.index t (0 : Fin 2) * 4000 + 1 * (y 0).val = (i 0).val; omega
  | ⟨1, _⟩ => show win0_0.index t (1 : Fin 2) * 128 + 1 * (y 1).val = (i 1).val; omega

/-- The first right window's block at every point is the whole right array. -/
theorem wblk1_eq (c : Dev nD) (t : Fin cfg0.N) : (iblk0 V c 1 t : Vec Ideal S128x128 .f32) = wArr1 V c := by
  obtain ⟨-, -, e0, e1, -⟩ := idx_facts t
  funext z
  unfold iblk0
  rw [View.read_apply]
  show V c main_v0 (((cfg0.win 1).blk t).view.emb z) = V c main_v0 z
  refine congrArg _ (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- An index of the array is in point t's block iff each coordinate is in the block's range on its axis. -/
theorem mem_blk4 (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v3_0).slice (win0_4.rect t)).set ↔ _
  rw [View.set_slice_whole, Rect.mem_set_unit]
  exact Iff.rfl

/-- Every index of the array is in the block of the point its row names. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, e0, e1, -⟩ := idx_facts t
  refine ⟨t, flush0_4 t, ?_⟩
  rw [mem_blk4]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

theorem arr4_eq (c : Dev nD) : outArr4 V c = prodArr (xArr V c) (wArr1 V c) := by
  refine (dat0 (F := Ideal) V c).arrAt_eq_of_cover 4 (prodArr (xArr V c) (wArr1 V c)) (fun t _ => ?_) cover4
  show (cfg0.win 4).cut (grid0.coords t) ((dat0 (F := Ideal) V c).after 4 t) = _
  rw [after0_4]
  unfold out0_4
  rw [View.canon_unit_zero hz]
  simp only [View.ld_unit_zero (S := S4000x128) hz, View.ld_unit_zero (S := S128x128) hz]
  obtain ⟨-, -, -, -, -, -, -, -, e0, e1, -⟩ := idx_facts t
  funext y
  show k0_pay2 (F := Ideal) (iblk0 V c 0 t) (iblk0 V c 1 t) y = prodArr (xArr V c) (wArr1 V c) (((cfg0.win 4).blk t).view.emb y)
  refine (pay2_at (iblk0 V c 0 t) (iblk0 V c 1 t) y).trans ?_
  refine block_eq (xArr V c) (wArr1 V c) (iblk0 V c 0 t) (iblk0 V c 1 t) t.val (fun y' i h0 h1 => xblk_apply V c t y' i h0 h1)
    (wblk1_eq V c t) y (((cfg0.win 4).blk t).view.emb y) ?_ ?_
  · show win0_4.index t (0 : Fin 2) * 4000 + 1 * (y 0).val = 4000 * t.val + (y 0).val; omega
  · show win0_4.index t (1 : Fin 2) * 128 + 1 * (y 1).val = (y 1).val; omega

/-- The other two outputs' blocks are the same product, of the other two right arrays. -/
theorem pay3_eq (x : Vec Ideal S4000x128 .f32) (w : Vec Ideal S128x128 .f32) : k0_pay3 (F := Ideal) x w = k0_pay2 x w := rfl
theorem pay4_eq (x : Vec Ideal S4000x128 .f32) (w : Vec Ideal S128x128 .f32) : k0_pay4 (F := Ideal) x w = k0_pay2 x w := rfl

/-- The second and third right windows' blocks at every point are the whole right arrays. -/
theorem wblk2_eq (c : Dev nD) (t : Fin cfg0.N) : (iblk0 V c 2 t : Vec Ideal S128x128 .f32) = wArr2 V c := by
  obtain ⟨-, -, -, -, e0, e1, -⟩ := idx_facts t
  funext z
  unfold iblk0
  rw [View.read_apply]
  show V c main_v1 (((cfg0.win 2).blk t).view.emb z) = V c main_v1 z
  refine congrArg _ (funext fun a => Fin.ext ?_)
  match a with
  | ⟨0, _⟩ => show win0_2.index t (0 : Fin 2) * 128 + 1 * (z 0).val = (z 0).val; omega
  | ⟨1, _⟩ => show win0_2.index t (1 : Fin 2) * 128 + 1 * (z 1).val = (z 1).val; omega

theorem wblk3_eq (c : Dev nD) (t : Fin cfg0.N) : (iblk0 V c 3 t : Vec Ideal S128x128 .f32) = wArr3 V c := by
  obtain ⟨-, -, -, -, -, -, e0, e1, -⟩ := idx_facts t
  funext z
  unfold iblk0
  rw [View.read_apply]
  show V c main_v2 (((cfg0.win 3).blk t).view.emb z) = V c main_v2 z
  refine congrArg _ (funext fun a => Fin.ext ?_)
  match a with
  | ⟨0, _⟩ => show win0_3.index t (0 : Fin 2) * 128 + 1 * (z 0).val = (z 0).val; omega
  | ⟨1, _⟩ => show win0_3.index t (1 : Fin 2) * 128 + 1 * (z 1).val = (z 1).val; omega

theorem mem_blk5 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v3_1).slice (win0_5.rect t)).set ↔ _
  rw [View.set_slice_whole, Rect.mem_set_unit]
  exact Iff.rfl

theorem mem_blk6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v3_2).slice (win0_6.rect t)).set ↔ _
  rw [View.set_slice_whole, Rect.mem_set_unit]
  exact Iff.rfl

theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, -, e0, e1, -⟩ := idx_facts t
  refine ⟨t, flush0_5 t, ?_⟩
  rw [mem_blk5]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, -, -, -, e0, e1⟩ := idx_facts t
  refine ⟨t, flush0_6 t, ?_⟩
  rw [mem_blk6]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

theorem arr5_eq (c : Dev nD) : outArr5 V c = prodArr (xArr V c) (wArr2 V c) := by
  refine (dat0 (F := Ideal) V c).arrAt_eq_of_cover 5 (prodArr (xArr V c) (wArr2 V c)) (fun t _ => ?_) cover5
  show (cfg0.win 5).cut (grid0.coords t) ((dat0 (F := Ideal) V c).after 5 t) = _
  rw [after0_5]
  unfold out0_5
  rw [View.canon_unit_zero hz]
  simp only [View.ld_unit_zero (S := S4000x128) hz, View.ld_unit_zero (S := S128x128) hz]
  obtain ⟨-, -, -, -, -, -, -, -, -, -, e0, e1, -⟩ := idx_facts t
  funext y
  show k0_pay3 (F := Ideal) (iblk0 V c 0 t) (iblk0 V c 2 t) y = prodArr (xArr V c) (wArr2 V c) (((cfg0.win 5).blk t).view.emb y)
  refine (congrFun (pay3_eq (iblk0 V c 0 t) (iblk0 V c 2 t)) y).trans ?_
  refine (pay2_at (iblk0 V c 0 t) (iblk0 V c 2 t) y).trans ?_
  refine block_eq (xArr V c) (wArr2 V c) (iblk0 V c 0 t) (iblk0 V c 2 t) t.val (fun y' i h0 h1 => xblk_apply V c t y' i h0 h1)
    (wblk2_eq V c t) y (((cfg0.win 5).blk t).view.emb y) ?_ ?_
  · show win0_5.index t (0 : Fin 2) * 4000 + 1 * (y 0).val = 4000 * t.val + (y 0).val; omega
  · show win0_5.index t (1 : Fin 2) * 128 + 1 * (y 1).val = (y 1).val; omega

theorem arr6_eq (c : Dev nD) : outArr6 V c = prodArr (xArr V c) (wArr3 V c) := by
  refine (dat0 (F := Ideal) V c).arrAt_eq_of_cover 6 (prodArr (xArr V c) (wArr3 V c)) (fun t _ => ?_) cover6
  show (cfg0.win 6).cut (grid0.coords t) ((dat0 (F := Ideal) V c).after 6 t) = _
  rw [after0_6]
  unfold out0_6
  rw [View.canon_unit_zero hz]
  simp only [View.ld_unit_zero (S := S4000x128) hz, View.ld_unit_zero (S := S128x128) hz]
  obtain ⟨-, -, -, -, -, -, -, -, -, -, -, -, e0, e1⟩ := idx_facts t
  funext y
  show k0_pay4 (F := Ideal) (iblk0 V c 0 t) (iblk0 V c 3 t) y = prodArr (xArr V c) (wArr3 V c) (((cfg0.win 6).blk t).view.emb y)
  refine (congrFun (pay4_eq (iblk0 V c 0 t) (iblk0 V c 3 t)) y).trans ?_
  refine (pay2_at (iblk0 V c 0 t) (iblk0 V c 3 t) y).trans ?_
  refine block_eq (xArr V c) (wArr3 V c) (iblk0 V c 0 t) (iblk0 V c 3 t) t.val (fun y' i h0 h1 => xblk_apply V c t y' i h0 h1)
    (wblk3_eq V c t) y (((cfg0.win 6).blk t).view.emb y) ?_ ?_
  · show win0_6.index t (0 : Fin 2) * 4000 + 1 * (y 0).val = 4000 * t.val + (y 0).val; omega
  · show win0_6.index t (1 : Fin 2) * 128 + 1 * (y 1).val = (y 1).val; omega

/-! ## The three arrays at an index -/

/-- The first output array at row n, column j. -/
theorem arr4 (c : Dev nD) (Z X : FVec Ideal S100000x128 .f32) (W : FVec Ideal S128x128 .f32)
    (hZ : Z = (dat0 (F := Ideal) V c).arrAt 4 cfg0.N) (hX : X = V c main_arg0) (hW : W = V c main_v0)
    (n : Fin 100000) (j : Fin 128) : Z (ix2 n j) = ∑ k : Fin 128, X (ix2 n k) * W (ix2 k j) := by
  subst hZ hX hW
  exact congrFun (arr4_eq V c) (ix2 n j)

/-- The second output array at row n, column j. -/
theorem arr5 (c : Dev nD) (Z X : FVec Ideal S100000x128 .f32) (W : FVec Ideal S128x128 .f32)
    (hZ : Z = (dat0 (F := Ideal) V c).arrAt 5 cfg0.N) (hX : X = V c main_arg0) (hW : W = V c main_v1)
    (n : Fin 100000) (j : Fin 128) : Z (ix2 n j) = ∑ k : Fin 128, X (ix2 n k) * W (ix2 k j) := by
  subst hZ hX hW
  exact congrFun (arr5_eq V c) (ix2 n j)

/-- The third output array at row n, column j. -/
theorem arr6 (c : Dev nD) (Z X : FVec Ideal S100000x128 .f32) (W : FVec Ideal S128x128 .f32)
    (hZ : Z = (dat0 (F := Ideal) V c).arrAt 6 cfg0.N) (hX : X = V c main_arg0) (hW : W = V c main_v2)
    (n : Fin 100000) (j : Fin 128) : Z (ix2 n j) = ∑ k : Fin 128, X (ix2 n k) * W (ix2 k j) := by
  subst hZ hX hW
  exact congrFun (arr6_eq V c) (ix2 n j)

end Cert.KernelIdeal.Region0

end
-- ==== Proof.Region1.lean ====
/-
  The second launch's output array, read at an index.

  The launch walks 25 grid points; point t stages rows 4000 t … 4000 t + 3999 of the aggregate (100000 x 128), of the
  projected values V (100000 x 128) and of the reciprocal denominators (100000 x 8), together with the whole 8 x 128
  expansion table, the two transposed 128 x 128 weight matrices and the two 1 x 128 bias rows, and writes back rows
  4000 t … 4000 t + 3999 of the result. On a block of rows the body computes, row p and column j,

      v p j + max (∑ k, max (∑ l, (a p l · ∑ h, w p h · E h l) · W1ᵀ l k + b1 k) 0 · W2ᵀ k j + b2 j) 0 :

  the reciprocal row w p is spread over the 128 columns by the table E (a product with an 8 x 128 matrix), multiplied
  into the aggregate row a p, and passed through two affine layers with relu; the row of V is added at the end. At the
  ideal instance a change of format is the identity and a product into a zero accumulator is the plain sum of products.

  Every row n of the result lies in exactly the block of point n / 4000, and within a block the body's value at a row
  depends only on that row of the three row-blocked arrays and on the whole small arrays. So what each point writes back
  is its block of ONE function of the eight arrays as the launch finds them, the blocks cover the result array, and the
  array after the launch is that function: the displayed expression with p the row n itself.
-/
import proofs.«428754_j5119601016898_3_alg».proof.Proof.Gen.KernelIdeal.Frame
import proofs.«428754_j5119601016898_3_alg».proof.Proof.LibMatmulAt
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-! ## The body on a block of rows, read at an index -/

/-- A product of a 4000 x 128 block with a 128 x 128 matrix into a zero accumulator, read at an index. -/
theorem mm128_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) :=
  MatmulAt.matmul_plain_apply none l r p q

/-- A product of a 4000 x 8 block with the 8 x 128 table into a zero accumulator, read at an index. -/
theorem mm8_apply {φ₁ φ₂ : FTy} (l : FVec Ideal S4000x8 φ₁) (r : FVec Ideal S8x128 φ₂) (p : Fin 4000) (q : Fin 128) :
    matmul dot_S4000x8_S8x128_S4000x128_1_0_0_1_n_n (some .fp32) l r (constant (F := Ideal) S4000x128 .f32 0x00000000#32) (ix2 p q)
      = ∑ k : Fin 8, l (ix2 p k) * r (ix2 k q) :=
  MatmulAt.matmul_plain_apply (some .fp32) l r p q

/-- A 1 x 128 row spread over 4000 rows, read at an index. -/
theorem bcastRow_apply (b : FVec Ideal S1x128 .f32) (p : Fin 4000) (q : Fin 128) :
    broadcastTo S4000x128 b broadcasts_S1x128_S4000x128 (ix2 p q) = b (ix2 0 q) := by
  refine broadcastTo_apply b broadcasts_S1x128_S4000x128 (ix2 p q) (ix2 0 q) fun a => ?_
  match a with
  | ⟨0, _⟩ => rfl
  | ⟨1, _⟩ => rfl

/-- The body's value on a block of rows at row p, column q. -/
theorem pay_apply (a v : Vec Ideal S4000x128 .f32) (w : Vec Ideal S4000x8 .f32) (E : Vec Ideal S8x128 .f32)
    (W1 W2 : Vec Ideal S128x128 .f32) (b1 b2 : Vec Ideal S1x128 .f32) (p : Fin 4000) (q : Fin 128) :
    k1_pay1 (F := Ideal) w E a W1 b1 W2 b2 v (ix2 p q)
      = v (ix2 p q) + max ((∑ k : Fin 128, max ((∑ l : Fin 128, (a (ix2 p l) * ∑ h : Fin 8, w (ix2 p h) * E (ix2 h l)) * W1 (ix2 l k)) + b1 (ix2 0 k)) 0 * W2 (ix2 k q)) + b2 (ix2 0 q)) 0 := by
  unfold k1_pay1
  simp only [shapeCast_self, addf_apply, maximumf_apply, mulf_apply, truncf_apply, broadcast_apply, mm128_apply, mm8_apply,
    bcastRow_apply, Scalar.ofBits, Ideal.ofBits_def, Ideal.ofBits_zero_f32]

/-! ## The result as one function of the eight arrays -/

/-- Row n, column j of the result, from the whole arrays. -/
def g (x0 x1 : FVec Ideal S100000x128 .f32) (x2 : FVec Ideal S100000x8 .f32) (x3 : FVec Ideal S8x128 .f32)
    (x4 : FVec Ideal S128x128 .f32) (x5 : FVec Ideal S1x128 .f32) (x6 : FVec Ideal S128x128 .f32) (x7 : FVec Ideal S1x128 .f32)
    (n : Fin 100000) (j : Fin 128) : Ideal .f32 :=
  x1 (ix2 n j) + max ((∑ k : Fin 128, max ((∑ l : Fin 128, (x0 (ix2 n l) * ∑ h : Fin 8, x2 (ix2 n h) * x3 (ix2 h l)) * x4 (ix2 l k)) + x5 (ix2 0 k)) 0 * x6 (ix2 k j)) + x7 (ix2 0 j)) 0

/-- The same as an array. -/
def G (x0 x1 : FVec Ideal S100000x128 .f32) (x2 : FVec Ideal S100000x8 .f32) (x3 : FVec Ideal S8x128 .f32)
    (x4 : FVec Ideal S128x128 .f32) (x5 : FVec Ideal S1x128 .f32) (x6 : FVec Ideal S128x128 .f32) (x7 : FVec Ideal S1x128 .f32) :
    FVec Ideal S100000x128 .f32 :=
  fun i => g x0 x1 x2 x3 x4 x5 x6 x7 ⟨(i 0).val, idx2_lt0 i⟩ ⟨(i 1).val, idx2_lt1 i⟩

/-- The body on a block whose rows are rows r … r + 3999 of the row-blocked arrays is that block of the function. -/
theorem block_apply (a v : Vec Ideal S4000x128 .f32) (w : Vec Ideal S4000x8 .f32) (x3 : Vec Ideal S8x128 .f32)
    (x4 : Vec Ideal S128x128 .f32) (x5 : Vec Ideal S1x128 .f32) (x6 : Vec Ideal S128x128 .f32) (x7 : Vec Ideal S1x128 .f32)
    (X0 X1 : FVec Ideal S100000x128 .f32) (X2 : FVec Ideal S100000x8 .f32) (r : Nat) (hr : r + 4000 ≤ 100000)
    (ha : ∀ (p : Fin 4000) (q : Fin 128), a (ix2 p q) = X0 (ix2 ⟨r + p.val, by omega⟩ q))
    (hv : ∀ (p : Fin 4000) (q : Fin 128), v (ix2 p q) = X1 (ix2 ⟨r + p.val, by omega⟩ q))
    (hw : ∀ (p : Fin 4000) (h : Fin 8), w (ix2 p h) = X2 (ix2 ⟨r + p.val, by omega⟩ h))
    (y : S4000x128.Idx) (i : S100000x128.Idx) (hi0 : (i 0).val = r + (y 0).val) (hi1 : (i 1).val = (y 1).val) :
    k1_pay1 (F := Ideal) w x3 a x4 x5 x6 x7 v y = G X0 X1 X2 x3 x4 x5 x6 x7 i := by
  obtain ⟨p, q, rfl⟩ : ∃ (p : Fin 4000) (q : Fin 128), y = ix2 p q := ⟨y 0, y 1, eq_ix2 y⟩
  obtain ⟨n, j, rfl⟩ : ∃ (n : Fin 100000) (j : Fin 128), i = ix2 n j := ⟨i 0, i 1, eq_ix2 i⟩
  have hb : r + p.val < 100000 := by have := p.isLt; omega
  have hn : n = ⟨r + p.val, hb⟩ := Fin.ext hi0
  have hj : j = q := Fin.ext hi1
  subst hn hj
  rw [pay_apply]
  simp only [ha, hv, hw]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the three row-blocked inputs and the output sit at block (t, 0); the five small
    arrays are one block, (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem t_lt (t : Fin cfg1.N) : t.val < 25 := by
  have h := t.isLt
  have hN : cfg1.N = 25 := N_1
  omega

/-- The aggregate's block at point t is its rows 4000 t … 4000 t + 3999. -/
theorem iblk_agg (c : Dev nD) (t : Fin cfg1.N) (p : Fin 4000) (q : Fin 128) :
    (iblk1 V c 0 t : Vec Ideal S4000x128 .f32) (ix2 p q)
      = (V c main_v30 : FVec Ideal S100000x128 .f32) (ix2 ⟨4000 * t.val + p.val, by have := t_lt t; omega⟩ q) := by
  obtain ⟨e0, e1, -⟩ := idx_facts t
  unfold iblk1
  rw [View.read_apply]
  show V c main_v30 _ = V c main_v30 _
  congr 1
  funext a
  apply Fin.ext
  match a with
  | ⟨0, _⟩ => show win1_0.index t (0 : Fin 2) * 4000 + 1 * p.val = 4000 * t.val + p.val; omega
  | ⟨1, _⟩ => show win1_0.index t (1 : Fin 2) * 128 + 1 * q.val = q.val; omega

/-- The projected values' block at point t is their rows 4000 t … 4000 t + 3999. -/
theorem iblk_v (c : Dev nD) (t : Fin cfg1.N) (p : Fin 4000) (q : Fin 128) :
    (iblk1 V c 1 t : Vec Ideal S4000x128 .f32) (ix2 p q)
      = (V c main_v3_0 : FVec Ideal S100000x128 .f32) (ix2 ⟨4000 * t.val + p.val, by have := t_lt t; omega⟩ q) := by
  obtain ⟨-, -, e0, e1, -⟩ := idx_facts t
  unfold iblk1
  rw [View.read_apply]
  show V c main_v3_0 _ = V c main_v3_0 _
  congr 1
  funext a
  apply Fin.ext
  match a with
  | ⟨0, _⟩ => show win1_1.index t (0 : Fin 2) * 4000 + 1 * p.val = 4000 * t.val + p.val; omega
  | ⟨1, _⟩ => show win1_1.index t (1 : Fin 2) * 128 + 1 * q.val = q.val; omega

/-- The reciprocal denominators' block at point t is their rows 4000 t … 4000 t + 3999. -/
theorem iblk_inv (c : Dev nD) (t : Fin cfg1.N) (p : Fin 4000) (h : Fin 8) :
    (iblk1 V c 2 t : Vec Ideal S4000x8 .f32) (ix2 p h)
      = (V c main_v23 : FVec Ideal S100000x8 .f32) (ix2 ⟨4000 * t.val + p.val, by have := t_lt t; omega⟩ h) := by
  obtain ⟨-, -, -, -, e0, e1, -⟩ := idx_facts t
  unfold iblk1
  rw [View.read_apply]
  show V c main_v23 _ = V c main_v23 _
  congr 1
  funext a
  apply Fin.ext
  match a with
  | ⟨0, _⟩ => show win1_2.index t (0 : Fin 2) * 4000 + 1 * p.val = 4000 * t.val + p.val; omega
  | ⟨1, _⟩ => show win1_2.index t (1 : Fin 2) * 8 + 1 * h.val = h.val; omega

/-- The table's block at every point is the table. -/
theorem iblk_tab (c : Dev nD) (t : Fin cfg1.N) : (iblk1 V c 3 t : Vec Ideal S8x128 .f32) = V c main_cst := by
  obtain ⟨-, -, -, -, -, -, e0, e1, -⟩ := idx_facts t
  funext y
  unfold iblk1
  rw [View.read_apply]
  show V c main_cst _ = V c main_cst y
  congr 1
  funext a
  apply Fin.ext
  match a with
  | ⟨0, _⟩ => show win1_3.index t (0 : Fin 2) * 8 + 1 * (y 0).val = (y 0).val; omega
  | ⟨1, _⟩ => show win1_3.index t (1 : Fin 2) * 128 + 1 * (y 1).val = (y 1).val; omega

/-- The first weight matrix's block at every point is the matrix. -/
theorem iblk_W1 (c : Dev nD) (t : Fin cfg1.N) : (iblk1 V c 4 t : Vec Ideal S128x128 .f32) = V c main_v31 := by
  obtain ⟨-, -, -, -, -, -, -, -, e0, e1, -⟩ := idx_facts t
  funext y
  unfold iblk1
  rw [View.read_apply]
  show V c main_v31 _ = V c main_v31 y
  congr 1
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The first bias row's block at every point is the row. -/
theorem iblk_b1 (c : Dev nD) (t : Fin cfg1.N) : (iblk1 V c 5 t : Vec Ideal S1x128 .f32) = V c main_v33 := by
  obtain ⟨-, -, -, -, -, -, -, -, -, -, e0, e1, -⟩ := idx_facts t
  funext y
  unfold iblk1
  rw [View.read_apply]
  show V c main_v33 _ = V c main_v33 y
  congr 1
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The second weight matrix's block at every point is the matrix. -/
theorem iblk_W2 (c : Dev nD) (t : Fin cfg1.N) : (iblk1 V c 6 t : Vec Ideal S128x128 .f32) = V c main_v32 := by
  obtain ⟨-, -, -, -, -, -, -, -, -, -, -, -, e0, e1, -⟩ := idx_facts t
  funext y
  unfold iblk1
  rw [View.read_apply]
  show V c main_v32 _ = V c main_v32 y
  congr 1
  funext a
  apply Fin.ext
  match a with
  | ⟨0, _⟩ => show win1_6.index t (0 : Fin 2) * 128 + 1 * (y 0).val = (y 0).val; omega
  | ⟨1, _⟩ => show win1_6.index t (1 : Fin 2) * 128 + 1 * (y 1).val = (y 1).val; omega

/-- The second bias row's block at every point is the row. -/
theorem iblk_b2 (c : Dev nD) (t : Fin cfg1.N) : (iblk1 V c 7 t : Vec Ideal S1x128 .f32) = V c main_v34 := by
  obtain ⟨-, -, -, -, -, -, -, -, -, -, -, -, -, -, e0, e1, -⟩ := idx_facts t
  funext y
  unfold iblk1
  rw [View.read_apply]
  show V c main_v34 _ = V c main_v34 y
  congr 1
  funext a
  apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- The result of the eight arrays as the launch finds them. -/
abbrev GV (c : Dev nD) : FVec Ideal S100000x128 .f32 :=
  G (V c main_v30) (V c main_v3_0) (V c main_v23) (V c main_cst) (V c main_v31) (V c main_v33) (V c main_v32) (V c main_v34)

/-- What point t writes back is block t of that function. -/
theorem flushed_eq (c : Dev nD) (t : Fin cfg1.N) :
    (dat1 (F := Ideal) V c).flushed 8 t = ((cfg1.win 8).blk t).view.read (Elt Ideal) (GV V c) := by
  show (cfg1.win 8).cut (grid1.coords t) ((dat1 V c).after 8 t) = _
  rw [after1_8]
  unfold out1_8
  rw [View.canon_unit_zero hz]
  simp only [View.ld_unit_zero (S := S4000x128) hz, View.ld_unit_zero (S := S4000x8) hz, View.ld_unit_zero (S := S8x128) hz,
    View.ld_unit_zero (S := S128x128) hz, View.ld_unit_zero (S := S1x128) hz]
  obtain ⟨-, -, -, -, -, -, -, -, -, -, -, -, -, -, -, -, e0, e1⟩ := idx_facts t
  have ht := t_lt t
  funext y
  show k1_pay1 (F := Ideal) (iblk1 V c 2 t) (iblk1 V c 3 t) (iblk1 V c 0 t) (iblk1 V c 4 t) (iblk1 V c 5 t) (iblk1 V c 6 t) (iblk1 V c 7 t) (iblk1 V c 1 t) y
    = GV V c (((cfg1.win 8).blk t).view.emb y)
  rw [iblk_tab V c t, iblk_W1 V c t, iblk_b1 V c t, iblk_W2 V c t, iblk_b2 V c t]
  refine block_apply (iblk1 V c 0 t) (iblk1 V c 1 t) (iblk1 V c 2 t) (V c main_cst) (V c main_v31) (V c main_v33) (V c main_v32) (V c main_v34)
    (V c main_v30) (V c main_v3_0) (V c main_v23) (4000 * t.val) (by omega) (iblk_agg V c t) (iblk_v V c t) (iblk_inv V c t) y
    (((cfg1.win 8).blk t).view.emb y) ?_ ?_
  · show win1_8.index t (0 : Fin 2) * 4000 + 1 * (y 0).val = 4000 * t.val + (y 0).val; omega
  · show win1_8.index t (1 : Fin 2) * 128 + 1 * (y 1).val = (y 1).val; omega

/-- An index of the result array is in point t's block iff each coordinate is in the block's range on its axis. -/
theorem mem_blk (t : Fin cfg1.N) (i : S100000x128.Idx) :
    i ∈ ((cfg1.win 8).blk t).view.set ↔ ∀ a : Fin 2, win1_8.index t a * S4000x128.size a ≤ (i a).val ∧ (i a).val < win1_8.index t a * S4000x128.size a + S4000x128.size a := by
  show i ∈ ((View.whole main_v35).slice (win1_8.rect t)).set ↔ _
  rw [View.set_slice_whole, Rect.mem_set_unit]
  exact Iff.rfl

/-- Row n lies in the block of point n / 4000: the blocks cover the array. -/
theorem cover (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by omega⟩, rfl⟩
  obtain ⟨-, -, -, -, -, -, -, -, -, -, -, -, -, -, -, -, e0, e1⟩ := idx_facts t
  refine ⟨t, flush1_8 t, ?_⟩
  rw [mem_blk]
  intro a
  match a with
  | ⟨0, _⟩ => show win1_8.index t (0 : Fin 2) * 4000 ≤ (i 0).val ∧ (i 0).val < win1_8.index t (0 : Fin 2) * 4000 + 4000; omega
  | ⟨1, _⟩ => show win1_8.index t (1 : Fin 2) * 128 ≤ (i 1).val ∧ (i 1).val < win1_8.index t (1 : Fin 2) * 128 + 128; omega

/-- The result array after the launch is that function of the eight arrays as the launch finds them. -/
theorem final (c : Dev nD) : (dat1 (F := Ideal) V c).arrAt 8 cfg1.N = GV V c :=
  (dat1 (F := Ideal) V c).arrAt_eq_of_cover 8 (GV V c) (fun t _ => flushed_eq V c t) cover

/-- The result array read at row n, column j. -/
theorem arr8 (c : Dev nD) (Z x0 x1 : FVec Ideal S100000x128 .f32) (x2 : FVec Ideal S100000x8 .f32) (x3 : FVec Ideal S8x128 .f32)
    (x4 x6 : FVec Ideal S128x128 .f32) (x5 x7 : FVec Ideal S1x128 .f32)
    (hZ : Z = (dat1 (F := Ideal) V c).arrAt 8 cfg1.N) (h0 : x0 = V c main_v30) (h1 : x1 = V c main_v3_0) (h2 : x2 = V c main_v23)
    (h3 : x3 = V c main_cst) (h4 : x4 = V c main_v31) (h5 : x5 = V c main_v33) (h6 : x6 = V c main_v32) (h7 : x7 = V c main_v34)
    (n : Fin 100000) (j : Fin 128) :
    Z (ix2 n j) = x1 (ix2 n j) + max ((∑ k : Fin 128, max ((∑ l : Fin 128, (x0 (ix2 n l) * ∑ h : Fin 8, x2 (ix2 n h) * x3 (ix2 h l)) * x4 (ix2 l k)) + x5 (ix2 0 k)) 0 * x6 (ix2 k j)) + x7 (ix2 0 j)) 0 := by
  subst hZ h0 h1 h2 h3 h4 h5 h6 h7
  exact congrFun (final V c) (ix2 n j)

end Cert.KernelIdeal.Region1

end
-- ==== Proof.LibScatterAddAt.lean ====
/-
  The host's accumulating float scatter (`stablehlo.scatter` with an `add` body over several scatter indices) READ AT ONE
  ELEMENT of its result, at the ideal instance: the operand's element plus the sum, over ALL updates, of those whose
  index lands on the element — an if-sum over the updates' coordinate ranges, the index words read signed. An index
  word that is negative or past the operand's extent equals no element's coordinate, so its update is in no element's
  sum: the operation drops it. General in the sizes; the dimension numbers enter as equations on the record's fields,
  which a printed record meets by `rfl`.

  Three shapes of dimension numbers: updates added into a vector, one index word each (a count or a sum by segment);
  update rows added into the rows of a matrix, one index word per row (a sum of rows by segment); updates added into a
  matrix at (row, column) pairs of index words (an adjacency matrix from an edge list).
-/
import Idealize.ShloMosaic.Lib.ValueIdxRank1
import Mathlib.Algebra.BigOperators.Group.Finset.Basic
import Mathlib.Algebra.BigOperators.Group.Finset.Piecewise

noncomputable section

open scoped BigOperators

namespace Cert.LibScatterAddAt

open Idealize.ShloMosaic Idealize.ShloMosaic.ValueIdx

/-! ## Where an update lands -/

/-- An update index `j` lands on the operand element `i` iff on every operand axis the window's start (the index word
    read signed, or 0) plus the window coordinate IS `i`'s coordinate — in particular it is then inside the operand,
    and an update one of whose sums is negative or past the extent lands nowhere. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro he a
      have hf := congrFun (Option.some.inj he) a
      have hv : (d.start j idx a + (d.window j a : ℤ)).toNat = (i a).val := congrArg Fin.val hf
      have h0 := (h a).1
      omega
    · intro hall
      refine congrArg some (funext fun a => Fin.ext ?_)
      show (d.start j idx a + (d.window j a : ℤ)).toNat = (i a).val
      rw [hall a]; exact Int.toNat_natCast _
  · rename_i h
    constructor
    · intro he; exact absurd he (by simp)
    · intro hall
      exact absurd (fun a => by rw [hall a]; exact ⟨Int.natCast_nonneg _, by exact_mod_cast (i a).isLt⟩) h

/-! ## Updates added into a vector, one index word each -/

section Vec

variable {N n w : Nat}

/-- With the operand's one axis inserted and mapped from the index word (index_vector_dim = 1 over indices [n, 1], no
    window axis), update `e`'s window starts at the word `idx[e, 0]` and has no extent. -/
theorem vec_start (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (e : Fin n) :
    d.start (ix1 e) idx 0 = (idx (ix2 e 0)).toInt ∧ d.window (ix1 e) 0 = 0 := by
  obtain ⟨uw, iw, sd, iv, wf⟩ := d
  dsimp only at huw hiw hsd hiv
  subst huw hiw hsd hiv
  refine ⟨?_, ?_⟩
  · unfold ScatterDims.start
    rw [dif_pos (show (0 : Fin 1) ∈ [(0 : Fin 1)] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]

/-- THE VECTOR SCATTER READ AT i: the operand's element plus every update whose index word is `i` (read signed; a
    negative or too large word matches no coordinate). With updates all 1 this counts the words equal to `i`. -/
theorem ideal_scatterAdd_vec_apply (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal) (i : Fin N) :
    Ideal.hostScatterAdd d x idx upd (ix1 i)
      = x (ix1 i) + ∑ e : Fin n, if (idx (ix2 e 0)).toInt = (i.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix1 i) then upd (ix1 e) else 0) = _
  obtain ⟨h0, w0⟩ := vec_start d huw hiw hsd hiv idx e
  have key : d.resultIdx? (ix1 e) idx = some (ix1 i) ↔ (idx (ix2 e 0)).toInt = (i.val : ℤ) := by
    rw [resultIdx?_eq_some_iff]
    constructor
    · intro h
      have a0 := h 0
      rw [h0, w0] at a0
      simp only [Nat.cast_zero, add_zero] at a0
      exact a0
    · intro e0 a
      match a with
      | ⟨0, _⟩ => show d.start (ix1 e) idx 0 + (d.window (ix1 e) 0 : ℤ) = _; rw [h0, w0, e0]; simp
  simp only [key]

/-- The same of the program's operation `Host.scatterAdd` at the ideal instance. -/
theorem host_scatterAdd_vec_apply {φ : FTy} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![n, 1]⟩ w) (upd : FVec Ideal ⟨1, ![n]⟩ φ) (i : Fin N) :
    Host.scatterAdd (F := Ideal) d x idx upd (ix1 i)
      = x (ix1 i) + ∑ e : Fin n, if (idx (ix2 e 0)).toInt = (i.val : ℤ) then upd (ix1 e) else 0 :=
  ideal_scatterAdd_vec_apply d huw hiw hsd hiv x idx upd i

end Vec

/-! ## Update rows added into the rows of a matrix, one index word per row -/

section Rows

variable {N D n w : Nat}

/-- With the operand's row axis inserted and mapped from the index word and its column axis the updates' window axis
    (index_vector_dim = 1 over indices [n, 1]), update `(e, j')`'s window starts at row word `idx[e, 0]`, column 0, and
    `j'` is its coordinate along the row. -/
theorem rows_start (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1) (idx : IVec ⟨2, ![n, 1]⟩ w) (e : Fin n) (j' : Fin D) :
    d.start (ix2 e j') idx 0 = (idx (ix2 e 0)).toInt ∧ d.start (ix2 e j') idx 1 = 0
      ∧ d.window (ix2 e j') 0 = 0 ∧ d.window (ix2 e j') 1 = j'.val := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2)] by decide)]
    refine congrArg (fun k => (idx k).toInt) (funext fun b => Fin.ext ?_)
    match b with
    | ⟨0, _⟩ => rfl
    | ⟨1, _⟩ => rfl
  · unfold ScatterDims.start; rw [dif_neg (by simp)]
  · unfold ScatterDims.window; rw [dif_neg (by simp [ScatterDims.sKept, Shape.kept])]
  · unfold ScatterDims.window; rw [dif_pos (by simp [ScatterDims.sKept, Shape.kept])]; rfl

/-- THE ROW SCATTER READ AT (i, j): the operand's element plus, of every update row whose index word is `i` (read
    signed; a negative or too large word matches no row), the element in column `j`. -/
theorem ideal_scatterAdd_rows_apply (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![n, 1]⟩ w) (upd : (⟨2, ![n, D]⟩ : Shape).Idx → EReal)
    (i : Fin N) (j : Fin D) :
    Ideal.hostScatterAdd d x idx upd (ix2 i j)
      = x (ix2 i j) + ∑ e : Fin n, if (idx (ix2 e 0)).toInt = (i.val : ℤ) then upd (ix2 e j) else 0 := by
  unfold Ideal.hostScatterAdd
  congr 1
  rw [Finset.sum_filter, sum_idx2]
  refine Finset.sum_congr rfl fun e _ => ?_
  have key : ∀ j' : Fin D, d.resultIdx? (ix2 e j') idx = some (ix2 i j)
      ↔ ((idx (ix2 e 0)).toInt = (i.val : ℤ) ∧ j' = j) := by
    intro j'
    obtain ⟨h0, h1, w0, w1⟩ := rows_start d huw hiw hsd hiv idx e j'
    rw [resultIdx?_eq_some_iff]
    constructor
    · intro h
      have a0 := h 0; have a1 := h 1
      rw [h0, w0] at a0; rw [h1, w1] at a1
      simp only [Nat.cast_zero, add_zero, zero_add] at a0 a1
      exact ⟨a0, Fin.ext (by exact_mod_cast a1)⟩
    · rintro ⟨e0, rfl⟩ a
      match a with
      | ⟨0, _⟩ => show d.start (ix2 e j') idx 0 + (d.window (ix2 e j') 0 : ℤ) = _; rw [h0, w0, e0]; simp
      | ⟨1, _⟩ => show d.start (ix2 e j') idx 1 + (d.window (ix2 e j') 1 : ℤ) = _; rw [h1, w1]; simp
  simp only [key]
  by_cases hA : (idx (ix2 e 0)).toInt = (i.val : ℤ)
  · simp only [hA, true_and]
    rw [Finset.sum_ite_eq']; simp
  · simp only [hA, false_and, if_false]
    exact Finset.sum_const_zero

/-- The same of the program's operation `Host.scatterAdd` at the ideal instance. -/
theorem host_scatterAdd_rows_apply {φ : FTy} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : FVec Ideal ⟨2, ![N, D]⟩ φ) (idx : IVec ⟨2, ![n, 1]⟩ w) (upd : FVec Ideal ⟨2, ![n, D]⟩ φ) (i : Fin N) (j : Fin D) :
    Host.scatterAdd (F := Ideal) d x idx upd (ix2 i j)
      = x (ix2 i j) + ∑ e : Fin n, if (idx (ix2 e 0)).toInt = (i.val : ℤ) then upd (ix2 e j) else 0 :=
  ideal_scatterAdd_rows_apply d huw hiw hsd hiv x idx upd i j

end Rows

/-! ## Updates added into a matrix at (row, column) pairs of index words -/

section Points

variable {N M n w : Nat}

/-- With both operand axes inserted and mapped from the index pair (index_vector_dim = 1 over indices [n, 2], no window
    axis), update `e`'s window starts at row word `idx[e, 0]` and column word `idx[e, 1]`, and has no extent. -/
theorem points_start (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1) (idx : IVec ⟨2, ![n, 2]⟩ w) (e : Fin n) :
    d.start (ix1 e) idx 0 = (idx (ix2 e 0)).toInt ∧ d.start (ix1 e) idx 1 = (idx (ix2 e 1)).toInt
      ∧ d.window (ix1 e) 0 = 0 ∧ d.window (ix1 e) 1 = 0 := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2), 1] by decide)]
    refine congrArg (fun k => (idx k).toInt) (funext fun b => Fin.ext ?_)
    match b with
    | ⟨0, _⟩ => rfl
    | ⟨1, _⟩ => rfl
  · unfold ScatterDims.start
    rw [dif_pos (show (1 : Fin 2) ∈ [(0 : Fin 2), 1] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]
  · unfold ScatterDims.window; rw [dif_neg (by simp [ScatterDims.sKept, Shape.kept])]

/-- THE POINT SCATTER READ AT (i, c): the operand's element plus every update whose row word is `i` and whose column
    word is `c` (read signed; a negative or too large word matches no coordinate). -/
theorem ideal_scatterAdd_points_apply (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : (⟨2, ![N, M]⟩ : Shape).Idx → EReal) (idx : IVec ⟨2, ![n, 2]⟩ w) (upd : (⟨1, ![n]⟩ : Shape).Idx → EReal)
    (i : Fin N) (c : Fin M) :
    Ideal.hostScatterAdd d x idx upd (ix2 i c)
      = x (ix2 i c) + ∑ e : Fin n,
          if (idx (ix2 e 0)).toInt = (i.val : ℤ) ∧ (idx (ix2 e 1)).toInt = (c.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix2 i c) then upd (ix1 e) else 0) = _
  obtain ⟨h0, h1, w0, w1⟩ := points_start d huw hiw hsd hiv idx e
  have key : d.resultIdx? (ix1 e) idx = some (ix2 i c)
      ↔ (idx (ix2 e 0)).toInt = (i.val : ℤ) ∧ (idx (ix2 e 1)).toInt = (c.val : ℤ) := by
    rw [resultIdx?_eq_some_iff]
    constructor
    · intro h
      have a0 := h 0; have a1 := h 1
      rw [h0, w0] at a0; rw [h1, w1] at a1
      simp only [Nat.cast_zero, add_zero] at a0 a1
      exact ⟨a0, a1⟩
    · rintro ⟨e0, e1⟩ a
      match a with
      | ⟨0, _⟩ => show d.start (ix1 e) idx 0 + (d.window (ix1 e) 0 : ℤ) = _; rw [h0, w0, e0]; simp
      | ⟨1, _⟩ => show d.start (ix1 e) idx 1 + (d.window (ix1 e) 1 : ℤ) = _; rw [h1, w1, e1]; simp
  simp only [key]

/-- The same of the program's operation `Host.scatterAdd` at the ideal instance. -/
theorem host_scatterAdd_points_apply {φ : FTy} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : FVec Ideal ⟨2, ![N, M]⟩ φ) (idx : IVec ⟨2, ![n, 2]⟩ w) (upd : FVec Ideal ⟨1, ![n]⟩ φ) (i : Fin N) (c : Fin M) :
    Host.scatterAdd (F := Ideal) d x idx upd (ix2 i c)
      = x (ix2 i c) + ∑ e : Fin n,
          if (idx (ix2 e 0)).toInt = (i.val : ℤ) ∧ (idx (ix2 e 1)).toInt = (c.val : ℤ) then upd (ix1 e) else 0 :=
  ideal_scatterAdd_points_apply d huw hiw hsd hiv x idx upd i c

end Points

end Cert.LibScatterAddAt

end
-- ==== Proof.LibLead3.lean ====
/-
  A rank-3 table indexed on its LEADING axis, read at one element: the two operations that `t[idx]` and
  `t.at[idx].add(u)` lower to for a table [N, A, B] and n index words (the start / scatter indices an [n, 1] array, the
  index vector on axis 1, a slice one whole [A, B] slab).

  * `gather_lead3_apply` — `stablehlo.gather`: result (e, a, b) is the table at (row, a, b), the row the word `idx[e, 0]`
    read SIGNED and CLAMPED into [0, N − 1];
  * `host_scatterAdd_lead3_apply` — the accumulating float `stablehlo.scatter` at the ideal instance: result (i, a, b) is
    the operand's element plus the sum, over all n update slabs e, of `upd[e, a, b]` for those e whose word (read signed,
    NOT clamped) is i; a word that is negative or past the extent equals no coordinate, so its slab is dropped.

  General in the sizes; the dimension numbers enter as equations on the record's fields, which a printed record meets by rfl.

  The gather: the operand index of result (e, a, b) is, axis by axis, clamped start + batching coordinate + offset
  coordinate. Axis 0 is start-indexed and collapsed (slice size 1), so it is min (word read signed, as a natural) (N − 1);
  axes 1 and 2 are neither start-indexed nor batching and are the operand's kept axes in order, read by the result's
  offset axes 1 and 2: the coordinates a and b.
  The scatter: update (e, a', b') lands on (i, a, b) iff on every axis start + window coordinate is the coordinate, i.e.
  word(e) = i (as integers) and a' = a and b' = b; the sum over all updates that land there, written as a triple sum over
  (e, a', b'), collapses in a' and b' to the one term upd (e, a, b) for each e whose word is i.
-/
import Idealize.ShloMosaic.Lib.ValueIdx
import proofs.«428754_j5119601016898_3_alg».proof.Proof.LibScatterAddAt

noncomputable section

open scoped BigOperators

namespace Cert.LibLead3

open Idealize.ShloMosaic Idealize.ShloMosaic.ValueIdx

variable {N A B n w : Nat}

/-! ## The gather -/

/-- The dimension numbers of a leading-axis take: table [N, A, B], start indices [n, 1], result [n, A, B]. -/
abbrev leadDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- The leading axis of the table is start-indexed and collapsed: its coordinate is the clamped start index alone. -/
theorem lead_coord0
    (wf : GatherDims.WF ⟨3, ![N, A, B]⟩ ⟨2, ![n, 1]⟩ ⟨3, ![n, A, B]⟩ [1, 2] [0] [] [0] [] 1 ![1, A, B])
    (idx : IVec ⟨2, ![n, 1]⟩ w) (e : Fin n) (a : Fin A) (b : Fin B) :
    ((leadDims N A B n wf).operandIdx (ix3 e a b) idx 0).val = min (idx (ix2 e (0 : Fin 1))).toInt.toNat (N - 1) := by
  show (leadDims N A B n wf).start (ix3 e a b) idx 0 + (leadDims N A B n wf).batchCoord (ix3 e a b) 0
      + (leadDims N A B n wf).offCoord (ix3 e a b) 0 = _
  have hk : (0 : Fin 3) ∉ (leadDims N A B n wf).sKept := fun hm =>
    ((GatherDims.mem_sKept _ _).1 hm).1 (List.mem_singleton.2 rfl)
  rw [GatherDims.batchCoord_eq_zero _ _ _ List.not_mem_nil, GatherDims.offCoord_eq_zero _ _ _ hk]
  simp only [Nat.add_zero]
  have hm : (0 : Fin 3) ∈ (leadDims N A B n wf).startIndexMap := List.mem_singleton.2 rfl
  unfold GatherDims.start
  rw [dif_pos hm]
  have hsi : (leadDims N A B n wf).siIdx (ix3 e a b) ⟨List.idxOf (0 : Fin 3) (leadDims N A B n wf).startIndexMap,
      List.idxOf_lt_length_iff.2 hm⟩ = ix2 e (0 : Fin 1) := by
    funext c
    refine Fin.ext ?_
    match c with
    | ⟨0, _⟩ => rfl
    | ⟨1, _⟩ => rfl
  rw [hsi]
  rfl

/-- Axis 1 of the table is the slab's first kept axis, not start-indexed: its coordinate is the result's coordinate on
    offset axis 1. -/
theorem lead_coord1
    (wf : GatherDims.WF ⟨3, ![N, A, B]⟩ ⟨2, ![n, 1]⟩ ⟨3, ![n, A, B]⟩ [1, 2] [0] [] [0] [] 1 ![1, A, B])
    (idx : IVec ⟨2, ![n, 1]⟩ w) (e : Fin n) (a : Fin A) (b : Fin B) :
    ((leadDims N A B n wf).operandIdx (ix3 e a b) idx 1).val = a.val := by
  show (leadDims N A B n wf).start (ix3 e a b) idx 1 + (leadDims N A B n wf).batchCoord (ix3 e a b) 1
      + (leadDims N A B n wf).offCoord (ix3 e a b) 1 = _
  have h10 : ¬ (1 : Fin 3) = 0 := by decide
  have hm : (1 : Fin 3) ∉ (leadDims N A B n wf).startIndexMap := fun hm => h10 (List.mem_singleton.1 hm)
  have hs : (leadDims N A B n wf).start (ix3 e a b) idx 1 = 0 := by
    unfold GatherDims.start
    rw [dif_neg hm]
  rw [hs, GatherDims.batchCoord_eq_zero _ _ _ List.not_mem_nil]
  simp only [Nat.zero_add, Nat.add_zero]
  have hk : (1 : Fin 3) ∈ (leadDims N A B n wf).sKept :=
    (GatherDims.mem_sKept _ _).2 ⟨fun h => h10 (List.mem_singleton.1 h), List.not_mem_nil⟩
  unfold GatherDims.offCoord
  rw [dif_pos hk]
  rfl

/-- Axis 2 of the table is the slab's second kept axis: its coordinate is the result's coordinate on offset axis 2. -/
theorem lead_coord2
    (wf : GatherDims.WF ⟨3, ![N, A, B]⟩ ⟨2, ![n, 1]⟩ ⟨3, ![n, A, B]⟩ [1, 2] [0] [] [0] [] 1 ![1, A, B])
    (idx : IVec ⟨2, ![n, 1]⟩ w) (e : Fin n) (a : Fin A) (b : Fin B) :
    ((leadDims N A B n wf).operandIdx (ix3 e a b) idx 2).val = b.val := by
  show (leadDims N A B n wf).start (ix3 e a b) idx 2 + (leadDims N A B n wf).batchCoord (ix3 e a b) 2
      + (leadDims N A B n wf).offCoord (ix3 e a b) 2 = _
  have h20 : ¬ (2 : Fin 3) = 0 := by decide
  have hm : (2 : Fin 3) ∉ (leadDims N A B n wf).startIndexMap := fun hm => h20 (List.mem_singleton.1 hm)
  have hs : (leadDims N A B n wf).start (ix3 e a b) idx 2 = 0 := by
    unfold GatherDims.start
    rw [dif_neg hm]
  rw [hs, GatherDims.batchCoord_eq_zero _ _ _ List.not_mem_nil]
  simp only [Nat.zero_add, Nat.add_zero]
  have hk : (2 : Fin 3) ∈ (leadDims N A B n wf).sKept :=
    (GatherDims.mem_sKept _ _).2 ⟨fun h => h20 (List.mem_singleton.1 h), List.not_mem_nil⟩
  unfold GatherDims.offCoord
  rw [dif_pos hk]
  rfl

/-- THE LEADING-AXIS GATHER READ AT (e, a, b). -/
theorem gather_lead3_apply {α : Type} (hN : 0 < N)
    (d : GatherDims ⟨3, ![N, A, B]⟩ ⟨2, ![n, 1]⟩ ⟨3, ![n, A, B]⟩)
    (hod : d.offsetDims = [1, 2]) (hcs : d.collapsedSliceDims = [0]) (hob : d.operandBatchingDims = [])
    (hsb : d.startIndicesBatchingDims = []) (hsm : d.startIndexMap = [0]) (hiv : d.indexVectorDim = 1)
    (hss : d.sliceSizes = ![1, A, B])
    (x : (⟨3, ![N, A, B]⟩ : Shape).Idx → α) (idx : IVec ⟨2, ![n, 1]⟩ w) (e : Fin n) (a : Fin A) (b : Fin B) :
    Host.gather d x idx (ix3 e a b) = x (ix3 ⟨min (idx (ix2 e 0)).toInt.toNat (N - 1), by omega⟩ a b) := by
  obtain ⟨od, cs, ob, sb, sm, iv, ss, wf⟩ := d
  dsimp only at hod hcs hob hsb hsm hiv hss
  subst hod hcs hob hsb hsm hiv hss
  show x ((leadDims N A B n wf).operandIdx (ix3 e a b) idx) = _
  congr 1
  funext c
  refine Fin.ext ?_
  match c with
  | ⟨0, _⟩ => exact lead_coord0 wf idx e a b
  | ⟨1, _⟩ => exact lead_coord1 wf idx e a b
  | ⟨2, _⟩ => exact lead_coord2 wf idx e a b

/-! ## A sum over a rank-3 index set -/

/-- A rank-3 index set is the product of its three coordinate ranges … -/
private def idx3Equiv {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_over_idx3 {M : Type*} [AddCommMonoid M] {n0 n1 n2 : Nat}
    (f : (⟨3, ![n0, n1, n2]⟩ : Shape).Idx → M) :
    ∑ i, f i = ∑ a : Fin n0, ∑ b : Fin n1, ∑ c : Fin n2, f (ix3 a b c) := by
  rw [← Equiv.sum_comp (idx3Equiv (n0 := n0) (n1 := n1) (n2 := n2)).symm f, Fintype.sum_prod_type]
  refine Finset.sum_congr rfl fun a _ => ?_
  rw [Fintype.sum_prod_type]
  rfl

/-! ## Update slabs added into a rank-3 array along its leading axis, one index word per slab -/

/-- With the operand's leading axis inserted and mapped from the index word and its axes 1 and 2 the updates' window axes
    (index_vector_dim = 1 over indices [n, 1]), update `(e, a', b')`'s window starts at (the word `idx[e, 0]`, 0, 0), and
    `a'`, `b'` are its coordinates on axes 1 and 2. -/
theorem lead3_start (d : ScatterDims ⟨3, ![N, A, B]⟩ ⟨2, ![n, 1]⟩ ⟨3, ![n, A, B]⟩)
    (huw : d.updateWindowDims = [1, 2]) (hiw : d.insertedWindowDims = [0]) (hsd : d.scatterDimsToOperandDims = [0])
    (hiv : d.indexVectorDim = 1) (idx : IVec ⟨2, ![n, 1]⟩ w) (e : Fin n) (a' : Fin A) (b' : Fin B) :
    (d.start (ix3 e a' b') idx 0 = (idx (ix2 e 0)).toInt ∧ d.start (ix3 e a' b') idx 1 = 0
        ∧ d.start (ix3 e a' b') idx 2 = 0)
      ∧ d.window (ix3 e a' b') 0 = 0 ∧ d.window (ix3 e a' b') 1 = a'.val ∧ d.window (ix3 e a' b') 2 = b'.val := by
  obtain ⟨uw, iw, sd, iv, wf⟩ := d
  dsimp only at huw hiw hsd hiv
  subst huw hiw hsd hiv
  refine ⟨⟨?_, ?_, ?_⟩, ?_, ?_, ?_⟩
  · unfold ScatterDims.start
    rw [dif_pos (show (0 : Fin 3) ∈ [(0 : Fin 3)] by decide)]
    refine congrArg (fun k => (idx k).toInt) (funext fun c => Fin.ext ?_)
    match c with
    | ⟨0, _⟩ => rfl
    | ⟨1, _⟩ => rfl
  · unfold ScatterDims.start; rw [dif_neg (by simp)]
  · unfold ScatterDims.start; rw [dif_neg (by simp)]
  · unfold ScatterDims.window; rw [dif_neg (by simp [ScatterDims.sKept, Shape.kept])]
  · unfold ScatterDims.window; rw [dif_pos (by simp [ScatterDims.sKept, Shape.kept])]; rfl
  · unfold ScatterDims.window; rw [dif_pos (by simp [ScatterDims.sKept, Shape.kept])]; rfl

/-- THE LEADING-AXIS SCATTER READ AT (i, a, b), on extended reals: the operand's element plus, of every update slab whose
    index word is `i` (read signed; a negative or too large word matches no row), the element at (a, b). -/
theorem ideal_scatterAdd_lead3_apply (d : ScatterDims ⟨3, ![N, A, B]⟩ ⟨2, ![n, 1]⟩ ⟨3, ![n, A, B]⟩)
    (huw : d.updateWindowDims = [1, 2]) (hiw : d.insertedWindowDims = [0]) (hsd : d.scatterDimsToOperandDims = [0])
    (hiv : d.indexVectorDim = 1)
    (x : (⟨3, ![N, A, B]⟩ : Shape).Idx → EReal) (idx : IVec ⟨2, ![n, 1]⟩ w)
    (upd : (⟨3, ![n, A, B]⟩ : Shape).Idx → EReal) (i : Fin N) (a : Fin A) (b : Fin B) :
    Ideal.hostScatterAdd d x idx upd (ix3 i a b)
      = x (ix3 i a b) + ∑ e : Fin n, if (idx (ix2 e 0)).toInt = (i.val : ℤ) then upd (ix3 e a b) else 0 := by
  unfold Ideal.hostScatterAdd
  congr 1
  rw [Finset.sum_filter, sum_over_idx3]
  refine Finset.sum_congr rfl fun e _ => ?_
  have key : ∀ (a' : Fin A) (b' : Fin B), d.resultIdx? (ix3 e a' b') idx = some (ix3 i a b)
      ↔ ((idx (ix2 e 0)).toInt = (i.val : ℤ) ∧ a' = a ∧ b' = b) := by
    intro a' b'
    obtain ⟨⟨h0, h1, h2⟩, w0, w1, w2⟩ := lead3_start d huw hiw hsd hiv idx e a' b'
    rw [Cert.LibScatterAddAt.resultIdx?_eq_some_iff]
    constructor
    · intro h
      have a0 := h 0; have a1 := h 1; have a2 := h 2
      rw [h0, w0] at a0; rw [h1, w1] at a1; rw [h2, w2] at a2
      simp only [Nat.cast_zero, add_zero, zero_add] at a0 a1 a2
      exact ⟨a0, Fin.ext (by exact_mod_cast a1), Fin.ext (by exact_mod_cast a2)⟩
    · rintro ⟨e0, rfl, rfl⟩ c
      match c with
      | ⟨0, _⟩ => show d.start (ix3 e a' b') idx 0 + (d.window (ix3 e a' b') 0 : ℤ) = _; rw [h0, w0, e0]; simp
      | ⟨1, _⟩ => show d.start (ix3 e a' b') idx 1 + (d.window (ix3 e a' b') 1 : ℤ) = _; rw [h1, w1]; simp
      | ⟨2, _⟩ => show d.start (ix3 e a' b') idx 2 + (d.window (ix3 e a' b') 2 : ℤ) = _; rw [h2, w2]; simp
  simp only [key]
  by_cases hA : (idx (ix2 e 0)).toInt = (i.val : ℤ)
  · simp only [hA, true_and, if_true]
    rw [Finset.sum_eq_single a, Finset.sum_eq_single b]
    · simp
    · intro b' _ hb; simp [hb]
    · intro h; exact absurd (Finset.mem_univ _) h
    · intro a' _ ha
      refine Finset.sum_eq_zero fun b' _ => ?_
      simp [ha]
    · intro h; exact absurd (Finset.mem_univ _) h
  · simp only [hA, false_and, if_false]
    exact Finset.sum_eq_zero fun a' _ => Finset.sum_const_zero

/-- THE LEADING-AXIS SLAB SCATTER READ AT (i, a, b), at the ideal instance. -/
theorem host_scatterAdd_lead3_apply {φ : FTy}
    (d : ScatterDims ⟨3, ![N, A, B]⟩ ⟨2, ![n, 1]⟩ ⟨3, ![n, A, B]⟩)
    (huw : d.updateWindowDims = [1, 2]) (hiw : d.insertedWindowDims = [0]) (hsd : d.scatterDimsToOperandDims = [0])
    (hiv : d.indexVectorDim = 1)
    (x : FVec Ideal ⟨3, ![N, A, B]⟩ φ) (idx : IVec ⟨2, ![n, 1]⟩ w) (upd : FVec Ideal ⟨3, ![n, A, B]⟩ φ)
    (i : Fin N) (a : Fin A) (b : Fin B) :
    Host.scatterAdd (F := Ideal) d x idx upd (ix3 i a b)
      = x (ix3 i a b) + ∑ e : Fin n, if (idx (ix2 e 0)).toInt = (i.val : ℤ) then upd (ix3 e a b) else 0 :=
  ideal_scatterAdd_lead3_apply d huw hiw hsd hiv x idx upd i a b

end Cert.LibLead3

end
-- ==== Proof.KReadAtt.lean ====
/-
  The kernel's host stretch read at one element, first part: a take that fills out-of-range rows answers the indexed read
  wherever the row word is in range; the view of 128 columns as 8 heads of 16 lanes; and an edge's weight at a head.

  The filling take. A row word i is first shifted up by the height 100000 when it is negative (read signed), and the
  shifted word w is written as a one-entry column. The take gathers row min (max w 0) 99999 of the table, and a mask
  decides whether to keep it: the mask at row e is the conjunction, over the one entry of the column, of (w ≥ 0) and
  (w ≤ 99999), started from the bit 1; where the mask is 0 the row is replaced by a fill value. When 0 ≤ i < 100000 the
  word is not shifted, both comparisons hold, the conjunction over the single entry is the bit 1, and the select keeps the
  gathered row, which is row i itself: the row the indexed read names, since clamping changes nothing in range.

  The heads view. Reading 128 columns as 8 heads of 16 lanes keeps the row-major position: (n, h, d) sits at
  (n * 8 + h) * 16 + d = n * 128 + (16 h + d), the position of (n, 16 h + d).

  An edge's weight. With both words of edge e in range the two takes read rows kj e of Q and ji e of K; the product of
  the two rows summed over the 16 lanes of head h (from the initial value 0) is the score; leaky-relu keeps a score that
  is at least 0 and multiplies a smaller one by the slope constant; exp of that is the weight phi (score).
-/
import proofs.«428754_j5119601016898_3_alg».proof.Proof.KTerms
import proofs.«428754_j5119601016898_3_alg».proof.Proof.Spec
import proofs.«428754_j5119601016898_3_alg».proof.Proof.LibLead3
import Idealize.ShloMosaic.PureOps.Reduce
import Idealize.ShloMosaic.PureOps.Ideal.Laws
import Idealize.ShloMosaic.Lib.Pipeline.Value
import Idealize.ShloMosaic.Lib.Affine

noncomputable section

open scoped BigOperators

namespace Cert.KernelIdeal.KRead

open Idealize.ShloMosaic Idealize.ShloMosaic.ValueIdx Cert.KernelIdeal Cert.Spec

/-- The column of shifted words at row e is the word, shifted when negative. -/
theorem wrapRows_apply (i : IVec S800000 32) (e : Fin 800000) : KT.wrapRows i (ix2 e 0) = wrapW (i (ix1 e)) := by
  have h0 : (0#32 : BitVec 32).toInt = 0 := by decide
  unfold KT.wrapRows
  rw [broadcastInDim_apply ![0] _ _ (ix2 e 0) (ix1 e) (fun a => by match a with | ⟨0, _⟩ => rfl)]
  show Scalar.select (IntOp.cmpi .slt (i (ix1 e)) 0#32) (IntOp.addi (i (ix1 e)) 100000#32) (i (ix1 e)) = _
  unfold wrapW
  by_cases hneg : (i (ix1 e)).toInt < 0
  · -- a negative word: the test answers the bit 1 and the select takes the shifted word
    have hc : IntOp.cmpi .slt (i (ix1 e)) 0#32 = 1#1 := by rw [IntOp.cmpi_slt, h0]; exact hneg
    rw [hc, if_pos hneg]
    exact select_one _ _
  · -- otherwise the test answers the bit 0 and the select keeps the word
    have hc : IntOp.cmpi .slt (i (ix1 e)) 0#32 = 0#1 :=
      eq_zero_of_ne_one (fun hc => by rw [IntOp.cmpi_slt, h0] at hc; exact hneg hc)
    rw [hc, if_neg hneg]
    exact select_zero _ _

/-- A word in [0, 100000) is not shifted. -/
theorem wrapW_of_inRange (w : BitVec 32) (hw : 0 ≤ w.toInt ∧ w.toInt < 100000) : wrapW w = w := by
  unfold wrapW
  exact if_neg (by omega)

/-- A fold over a one-element range takes its one value. -/
theorem fold_fin_one {β : Type} (op : β → β → β) [Std.Commutative op] [Std.Associative op] (b : β) (f : Fin 1 → β) :
    (Finset.univ : Finset (Fin 1)).fold op b f = op (f 0) b := by
  rw [show (Finset.univ : Finset (Fin 1)) = {0} from rfl, Finset.fold_singleton]

/-- The mask at row e is the bit 1 when the shifted word of row e lies in [0, 99999]. -/
theorem rowOk_apply (w : IVec S800000x1 32) (e : Fin 800000)
    (hw : 0 ≤ (w (ix2 e 0)).toInt ∧ (w (ix2 e 0)).toInt ≤ 99999) : KT.rowOk w (ix1 e) = 1#1 := by
  have h0 : (0#32 : BitVec 32).toInt = 0 := by decide
  have h1 : (99999#32 : BitVec 32).toInt = 99999 := by decide
  have hred : S800000x1.Reduces [1] S800000 := by decide
  unfold KT.rowOk
  rw [Host.reduce_eq_fold_single IntOp.andi _ _ _ hred]
  -- the column has one entry: the fold runs over it alone
  have hl : ∀ k : Fin (S800000x1.size 1), hred.lift (ix1 e) k = ix2 e 0 := by
    intro k
    have hk : k.val < 1 := k.isLt
    funext a
    match a with
    | ⟨0, _⟩ => exact Fin.ext rfl
    | ⟨1, _⟩ => exact Fin.ext (show k.val = 0 by omega)
  have key : ∀ (X : S800000x1.Idx → BitVec 1) (b : BitVec 1),
      (Finset.univ : Finset (Fin (S800000x1.size 1))).fold IntOp.andi b (X ∘ hred.lift (ix1 e)) = IntOp.andi (X (ix2 e 0)) b := by
    intro X b
    have hfun : (X ∘ hred.lift (ix1 e)) = fun _ => X (ix2 e 0) := funext fun k => congrArg X (hl k)
    rw [hfun]
    exact fold_fin_one IntOp.andi b (fun _ => X (ix2 e 0))
  rw [key]
  show IntOp.andi (IntOp.andi (IntOp.cmpi .sge (w (ix2 e 0)) 0#32) (IntOp.cmpi .sle (w (ix2 e 0)) 99999#32)) 1#1 = 1#1
  rw [IntOp.andi_eq_one, IntOp.andi_eq_one, IntOp.cmpi_sge, IntOp.cmpi_sle, h0, h1]
  exact ⟨hw, rfl⟩

/-- Where row e's word lies in [0, 100000) the filling take reads the row the word names. -/
theorem takeFill_apply (x : FVec Ideal S100000x8x16 .f32) (i : IVec S800000 32) (e : Fin 800000) (h : Fin 8) (d : Fin 16)
    (hi : 0 ≤ (i (ix1 e)).toInt ∧ (i (ix1 e)).toInt < 100000) :
    KT.takeFill x i (ix3 e h d) = x (ix3 (rowOf (i (ix1 e))) h d) := by
  have hw : KT.wrapRows i (ix2 e 0) = i (ix1 e) := by rw [wrapRows_apply, wrapW_of_inRange _ hi]
  -- the mask's bit at (e, h, d) is the bit of row e, which is 1
  have hm : broadcastInDim S800000x8x16 ![0] Facts₀.bcast_S800000_S800000x8x16_0 (KT.rowOk (KT.wrapRows i)) (ix3 e h d) = 1#1 := by
    rw [broadcastInDim_apply ![0] _ _ (ix3 e h d) (ix1 e) (fun a => by match a with | ⟨0, _⟩ => rfl)]
    exact rowOk_apply _ e (by rw [hw]; omega)
  unfold KT.takeFill
  rw [select_apply]
  rw [hm]
  rw [select_one]
  have hg := Cert.LibLead3.gather_lead3_apply (N := 100000) (A := 8) (B := 16) (n := 800000) (w := 32) (by omega)
    gather_S100000x8x16_S800000x1_S800000x8x16_12_0_n_n_0_1_1816 rfl rfl rfl rfl rfl rfl rfl x (KT.wrapRows i) e h d
  -- the gathered row is the word's row: clamping the shifted word is the indexed read's choice of row
  have hr : (⟨min (KT.wrapRows i (ix2 e 0)).toInt.toNat (100000 - 1), by omega⟩ : Fin 100000) = rowOf (i (ix1 e)) := by
    apply Fin.ext
    show min (KT.wrapRows i (ix2 e 0)).toInt.toNat (100000 - 1) = min (wrapW (i (ix1 e))).toInt.toNat 99999
    rw [wrapRows_apply]
  exact hg.trans (congrArg (fun r => x (ix3 r h d)) hr)

/-- Head h, lane d of row n is column 16 h + d. -/
theorem heads_apply (x : FVec Ideal S100000x128 .f32) (n : Fin 100000) (h : Fin 8) (d : Fin 16) :
    KT.heads x (ix3 n h d) = x (ix2 n (col h d)) := by
  unfold KT.heads
  refine shapeCast_apply x _ (ix3 n h d) (ix2 n (col h d)) ?_
  rw [Shape.rowMajor_val_two, Shape.rowMajor_val_three]
  show n.val * 128 + (16 * h.val + d.val) = (n.val * 8 + h.val) * 16 + d.val
  omega

/-- Leaky-relu at an element: a value at least 0 is kept, a smaller one is multiplied by the slope. -/
theorem leaky_apply (y : FVec Ideal S800000x8x1 .f32) (j : S800000x8x1.Idx) :
    KT.leaky y j = if 0 ≤ y j then y j else slope * y j := by
  show Scalar.select (Ideal.cmp .oge (y j) (Ideal.ofBits .f32 0x00000000#32)) (y j) (Ideal.ofBits .f32 0x3E4CCCCD#32 * y j) = _
  rw [Ideal.ofBits_zero_f32]
  by_cases hy : 0 ≤ y j
  · have hc : Ideal.cmp .oge (y j) 0 = 1#1 := by
      show BitVec.ofBool (decide (0 ≤ y j)) = 1#1
      rw [decide_eq_true hy]; rfl
    rw [hc, if_pos hy]
    exact select_one _ _
  · have hc : Ideal.cmp .oge (y j) 0 = 0#1 := by
      show BitVec.ofBool (decide (0 ≤ y j)) = 0#1
      rw [decide_eq_false hy]; rfl
    rw [hc, if_neg hy]
    exact select_zero _ _

/-- An edge's weight, where both its words are in range. -/
theorem attT_apply (q k : FVec Ideal S100000x128 .f32) (kj ji : IVec S800000 32) (e : Fin 800000) (h : Fin 8)
    (hkj : 0 ≤ (kj (ix1 e)).toInt ∧ (kj (ix1 e)).toInt < 100000)
    (hji : 0 ≤ (ji (ix1 e)).toInt ∧ (ji (ix1 e)).toInt < 100000) :
    KT.attT q k kj ji (ix3 e h 0) = att (c2 q) (c2 k) (c1 kj) (c1 ji) e h := by
  have hred : S800000x8x16.Reduces [2] S800000x8 := by decide
  -- the lanes of head h of edge e, summed
  have hl : ∀ d : Fin (S800000x8x16.size 2), hred.lift (ix2 e h) d = ix3 e h d := by
    intro d
    funext a
    match a with
    | ⟨0, _⟩ => exact Fin.ext rfl
    | ⟨1, _⟩ => exact Fin.ext rfl
    | ⟨2, _⟩ => exact Fin.ext rfl
  have hsum : ∀ X : S800000x8x16.Idx → EReal,
      ∑ d : Fin (S800000x8x16.size 2), X (hred.lift (ix2 e h) d) = ∑ d : Fin 16, X (ix3 e h d) := by
    intro X
    exact Finset.sum_congr rfl (fun d _ => congrArg X (hl d))
  -- the score: the lanes' products from the initial value 0
  have hs : Host.reduceAdd (mulf (KT.takeFill (KT.heads q) kj) (KT.takeFill (KT.heads k) ji)) (constant S_ .f32 0x00000000#32)
      Facts₀.reducesTo_S800000x8x16_S800000x8_d2 Facts₀.h_S_ (ix2 e h)
        = score (c2 q) (c2 k) (rowOf (kj (ix1 e))) (rowOf (ji (ix1 e))) h := by
    show Ideal.hostReduceAdd _ _ (Ideal.ofBits .f32 0x00000000#32) (ix2 e h) = _
    rw [Ideal.hostReduceAdd_single _ hred, Ideal.ofBits_zero_f32, zero_add, hsum]
    unfold score
    refine Finset.sum_congr rfl fun d _ => ?_
    rw [mulf_apply, takeFill_apply _ _ e h d hkj, takeFill_apply _ _ e h d hji, heads_apply, heads_apply]
  -- the host's exp at an element is the exponential of the element
  have hE : ∀ (Y : FVec Ideal S800000x8x1 .f32) (j : S800000x8x1.Idx), Host.exp Y j = Ideal.exp (Y j) := fun _ _ => rfl
  unfold KT.attT
  rw [hE, leaky_apply,
    broadcastInDim_apply ![0, 1] _ _ (ix3 e h 0) (ix2 e h) (fun a => by match a with | ⟨0, _⟩ => rfl | ⟨1, _⟩ => rfl), hs]
  rfl

end Cert.KernelIdeal.KRead

end
-- ==== Proof.LibRowOps.lean ====
/-
  Rank-2 ROW OPERATIONS read at an index, for any extents.

  A LayerNorm over the last axis of an [a, b] array is built from: the sum of each row, that sum kept as an [a, 1]
  column, the column spread back over the b columns, and a [1, b] row of per-column scales spread over the a rows.
  A kernel writes these with `vector.multi_reduction`, `vector.shape_cast` and `vector.broadcast`; jnp on the host with
  `stablehlo.reduce` and `stablehlo.broadcast_in_dim`. Each lemma says which element of the operand an element of the
  result is; the two sums are read as `∑ k : Fin b` over the row.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

variable {α : Type} {a b : Nat}

/-! ## The kernel's forms -/

/-- A vector [a] kept as a column [a, 1]: element (p, 0) is element p. -/
theorem shapeCast_col_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [a, 1] spread over b columns: element (p, c) is the column's element (p, 0). -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row p with column k inserted is (p, k). -/
theorem lift_row (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- A kernel's sum over the last axis, at row p: the sum of the row. -/
theorem multiReduction_row_apply {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ x acc h hφ hacc (ix1 p) = ∑ k : Fin b, x (ix2 p k) := by
  rw [Ideal.multiReduction_add_single]
  exact Finset.sum_congr rfl fun k _ => congrArg x (lift_row h p k)

/-! ## The host's forms -/

/-- A vector [b] as a row [1, b] (`broadcast_in_dim`, dims = [1]): element (0, q) is element q. -/
theorem bcastInDim_row_apply (h : (⟨1, ![b]⟩ : Shape).BroadcastsInDim ⟨2, ![1, b]⟩ ![1]) (x : (⟨1, ![b]⟩ : Shape).Idx → α)
    (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows (dims = [0, 1]): element (r, q) is the row's element (0, q). -/
theorem bcastInDim_rows_apply (h : (⟨2, ![1, b]⟩ : Shape).BroadcastsInDim ⟨2, ![a, b]⟩ ![0, 1]) (x : (⟨2, ![1, b]⟩ : Shape).Idx → α)
    (r : Fin a) (q : Fin b) : broadcastInDim ⟨2, ![a, b]⟩ ![0, 1] h x (ix2 r q) = x (ix2 (0 : Fin 1) q) := by
  refine broadcastInDim_apply _ h x (ix2 r q) (ix2 (0 : Fin 1) q) fun ax => ?_
  match ax with
  | ⟨0, _⟩ => rfl
  | ⟨1, _⟩ =>
    show q.val = if b = 1 then 0 else q.val
    split
    · have := q.isLt; omega
    · rfl

/-- A vector [a] kept as a column [a, 1] (dims = [0]): element (r, 0) is element r. -/
theorem bcastInDim_col_apply (h : (⟨1, ![a]⟩ : Shape).BroadcastsInDim ⟨2, ![a, 1]⟩ ![0]) (x : (⟨1, ![a]⟩ : Shape).Idx → α)
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b columns (dims = [0, 1]): element (r, q) is the column's element (r, 0). -/
theorem bcastInDim_cols_apply (h : (⟨2, ![a, 1]⟩ : Shape).BroadcastsInDim ⟨2, ![a, b]⟩ ![0, 1]) (x : (⟨2, ![a, 1]⟩ : Shape).Idx → α)
    (r : Fin a) (q : Fin b) : broadcastInDim ⟨2, ![a, b]⟩ ![0, 1] h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ => rfl

/-- A scalar spread over any shape (dims = []): every element is the scalar. -/
theorem bcastInDim_scalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 fun ax => ax.elim0

/-- The host's sum over the last axis, at row r: the initial value plus the sum of the row. -/
theorem hostReduceAdd_row_apply {φ : FTy} (x : FVec Ideal ⟨2, ![a, b]⟩ φ) (init : FVec Ideal ⟨0, ![]⟩ φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (r : Fin a) :
    Host.reduceAdd x init h' hu (ix1 r) = init ix0 + ∑ k : Fin b, x (ix2 r k) := by
  unfold Host.reduceAdd
  rw [Ideal.hostReduceAdd_def, Ideal.hostReduceAdd_single h' h, eq_ix0 (Shape.Idx.first hu)]
  exact congrArg (init ix0 + ·) (Finset.sum_congr rfl fun k _ => congrArg x (lift_row h r k))

end Idealize.ShloMosaic.RowOps

end
-- ==== Proof.KRead.lean ====
/-
  The arrays the residual launch reads, each read at one index as the function it is.

  The host stretch between the two launches leaves five kinds of array. The aggregate: for node n and column l, the sum
  over the edges whose destination word (read signed) is n of the source row's entry in column l times the edge's weight at
  the head of column l. An edge whose destination word is n has that word in range, and every source word is in range by
  hypothesis, so for these edges the filling take reads the row the word names and the edge's weight is exp (leaky_relu
  (score)); an edge whose destination word is not n contributes nothing on either side. The reciprocal: the weights added by
  destination give the denominator of node n at head h; where it is positive the array holds one over it, elsewhere
  zero. The expansion table: entry (h, l) is one when column l lies in head h (16 h ≤ l < 16 h + 16) and zero otherwise,
  all 1024 printed words checked. A transposed matrix read at (a, b) is the matrix at (b, a); a vector kept as one row
  read at (0, k) is the vector at k.
-/
import proofs.«428754_j5119601016898_3_alg».proof.Proof.KReadAtt
import proofs.«428754_j5119601016898_3_alg».proof.Proof.LibScatterAddAt
import proofs.«428754_j5119601016898_3_alg».proof.Proof.LibLead3
import proofs.«428754_j5119601016898_3_alg».proof.Proof.LibRowOps
import proofs.«428754_j5119601016898_3_alg».proof.Proof.Spec
import proofs.«428754_j5119601016898_3_alg».proof.Proof.KTerms
import Idealize.ShloMosaic.Lib.Pipeline.Value

noncomputable section

open scoped BigOperators

namespace Cert.KernelIdeal.KRead

open Idealize.ShloMosaic Idealize.ShloMosaic.ValueIdx Cert.KernelIdeal Cert.Spec

/-! ## The layout arrays -/

/-- A transposed matrix at (a, b) is the matrix at (b, a). -/
theorem tr_apply (w : FVec Ideal S128x128 .f32) (a b : Fin 128) : KT.tr (F := Ideal) w (ix2 a b) = w (ix2 b a) := by
  unfold KT.tr
  refine transpose_apply _ w _ (ix2 a b) (ix2 b a) fun c => ?_
  match c with
  | ⟨0, _⟩ => rfl
  | ⟨1, _⟩ => rfl

/-- A vector kept as one row, at (0, k), is the vector at k. -/
theorem row1_apply (b : FVec Ideal S128 .f32) (k : Fin 128) : KT.row1 (F := Ideal) b (ix2 0 k) = b (ix1 k) := by
  unfold KT.row1
  refine shapeCast_apply b _ _ _ ?_
  rw [Shape.rowMajor_val_two, Shape.rowMajor_val_one]
  show k.val = 0 * 128 + k.val
  omega

/-! ## The expansion table -/

/-- The printed word at (h, l): the pattern of one when column l lies in head h, the zero pattern otherwise. -/
theorem rd_eTab_word : ∀ (h : Fin 8) (l : Fin 128),
    lit0 (S8x128.rowMajor (ix2 h l)) = if l.val / 16 = h.val then 0x3F800000#32 else 0x00000000#32 := by
  decide +kernel

/-- The binary32 pattern of one. -/
theorem rd_ofBits_one : Ideal.ofBits .f32 0x3F800000#32 = 1 := by
  simp [Ideal.ofBits, Ideal.ieee, -EReal.coe_mul]; norm_num

/-- Entry (h, l) of the expansion table is one when column l lies in head h and zero otherwise. -/
theorem eTab_apply (h : Fin 8) (l : Fin 128) : KT.eTab (F := Ideal) (ix2 h l) = if headOf l = h then 1 else 0 := by
  show Ideal.ofBits .f32 (lit0 (S8x128.rowMajor (ix2 h l))) = _
  rw [rd_eTab_word]
  by_cases hh : headOf l = h
  · have : l.val / 16 = h.val := congrArg Fin.val hh
    rw [if_pos this, if_pos hh, rd_ofBits_one]
  · have : ¬ l.val / 16 = h.val := fun e => hh (Fin.ext e)
    rw [if_neg this, if_neg hh, Ideal.ofBits_zero_f32]

/-! ## Small reads -/

/-- The destination words kept as a column, at (e, 0), is edge e's word. -/
theorem rd_segIdx (ji : IVec S800000 32) (e : Fin 800000) : KT.segIdx ji (ix2 e 0) = ji (ix1 e) := by
  unfold KT.segIdx
  exact RowOps.bcastInDim_col_apply _ ji e 0

/-- The zero scalar spread over any shape is zero everywhere. -/
theorem rd_zeros {t : Shape} (h : S_.BroadcastsInDim t ![]) (j : t.Idx) :
    broadcastInDim t ![] h (constant (F := Ideal) S_ .f32 0x00000000#32) j = 0 := by
  rw [RowOps.bcastInDim_scalar_apply, constant_apply, Ideal.ofBits_zero_f32]

/-- The one scalar spread over any shape is one everywhere. -/
theorem rd_ones {t : Shape} (h : S_.BroadcastsInDim t ![]) (j : t.Idx) :
    broadcastInDim t ![] h (constant (F := Ideal) S_ .f32 0x3F800000#32) j = 1 := by
  rw [RowOps.bcastInDim_scalar_apply, constant_apply, rd_ofBits_one]

/-! ## The denominator and its guarded reciprocal -/

/-- The weights added by destination, at (n, h): the total weight entering node n at head h. -/
theorem denomT_apply (q k : FVec Ideal S100000x128 .f32) (kj ji : IVec S800000 32)
    (hkj : ∀ e : Fin 800000, 0 ≤ (kj (ix1 e)).toInt ∧ (kj (ix1 e)).toInt < 100000) (n : Fin 100000) (h : Fin 8) :
    KT.denomT q k kj ji (ix2 n h) = denom (c2 q) (c2 k) (c1 kj) (c1 ji) n h := by
  unfold KT.denomT
  rw [shapeCast_apply _ _ (ix2 n h) (ix3 n h (0 : Fin 1)) (by
    rw [Shape.rowMajor_val_three, Shape.rowMajor_val_two]
    show (n.val * 8 + h.val) * 1 + 0 = n.val * 8 + h.val
    omega)]
  rw [Cert.LibLead3.host_scatterAdd_lead3_apply _ rfl rfl rfl rfl, rd_zeros, zero_add]
  show _ = ∑ e : Fin 800000, if (ji (ix1 e)).toInt = (n.val : ℤ) then att (c2 q) (c2 k) (c1 kj) (c1 ji) e h else 0
  refine Finset.sum_congr rfl fun e _ => ?_
  rw [rd_segIdx]
  by_cases he : (ji (ix1 e)).toInt = (n.val : ℤ)
  · rw [if_pos he, if_pos he]
    exact attT_apply q k kj ji e h (hkj e) ⟨by omega, by have := n.isLt; omega⟩
  · rw [if_neg he, if_neg he]

/-- A choice against a scalar, at an index. -/
theorem rd_whereS (c : IVec S100000x8 1) (a : FVec Ideal S100000x8 .f32) (b : FVec Ideal S_ .f32) (j : S100000x8.Idx) :
    KT.whereS c a b j = Scalar.select (c j) (a j) (b ix0) := by
  unfold KT.whereS
  rw [select_apply, RowOps.bcastInDim_scalar_apply]
  rfl

/-- Which denominators are positive, at an index. -/
theorem rd_posT (q k : FVec Ideal S100000x128 .f32) (kj ji : IVec S800000 32) (j : S100000x8.Idx) :
    KT.posT q k kj ji j = Ideal.cmp .ogt (KT.denomT q k kj ji j) 0 := by
  unfold KT.posT
  rw [cmpf_apply, rd_zeros]
  rfl

/-- The guarded reciprocal at (n, h): one over the denominator where that is positive, zero elsewhere. -/
theorem invT_apply (q k : FVec Ideal S100000x128 .f32) (kj ji : IVec S800000 32)
    (hkj : ∀ e : Fin 800000, 0 ≤ (kj (ix1 e)).toInt ∧ (kj (ix1 e)).toInt < 100000) (n : Fin 100000) (h : Fin 8) :
    KT.invT q k kj ji (ix2 n h) = Cert.Spec.inv (c2 q) (c2 k) (c1 kj) (c1 ji) n h := by
  have hD := denomT_apply q k kj ji hkj n h
  have hdiv : ∀ (a b : FVec Ideal S100000x8 .f32) (j : S100000x8.Idx), Host.divf a b j = Ideal.div (a j) (b j) :=
    fun _ _ _ => rfl
  unfold KT.invT
  rw [rd_whereS, hdiv, rd_whereS, rd_posT, hD, rd_ones, constant_apply, constant_apply,
    Ideal.ofBits_zero_f32, rd_ofBits_one]
  unfold Cert.Spec.inv
  by_cases hp : 0 < denom (c2 q) (c2 k) (c1 kj) (c1 ji) n h
  · have hc : Ideal.cmp .ogt (denom (c2 q) (c2 k) (c1 kj) (c1 ji) n h) 0 = 1#1 := by
      show BitVec.ofBool (decide (0 < denom (c2 q) (c2 k) (c1 kj) (c1 ji) n h)) = 1#1
      rw [decide_eq_true hp]; rfl
    rw [hc, select_one, select_one, if_pos hp]
  · have hc : Ideal.cmp .ogt (denom (c2 q) (c2 k) (c1 kj) (c1 ji) n h) 0 = 0#1 := by
      show BitVec.ofBool (decide (0 < denom (c2 q) (c2 k) (c1 kj) (c1 ji) n h)) = 0#1
      rw [decide_eq_false hp]; rfl
    rw [hc, select_zero, if_neg hp]

/-! ## The aggregate -/

/-- 8 heads of 16 lanes kept as 128 columns, at (e, l): the entry at the head and the lane of column l. -/
theorem rd_flat (x : FVec Ideal S800000x8x16 .f32) (hc : S800000x8x16.ShapeCasts S800000x128) (e : Fin 800000)
    (l : Fin 128) : shapeCast S800000x128 x hc (ix2 e l) = x (ix3 e (headOf l) (laneOf l)) := by
  refine shapeCast_apply x hc _ _ ?_
  rw [Shape.rowMajor_val_three, Shape.rowMajor_val_two]
  show (e.val * 8 + l.val / 16) * 16 + l.val % 16 = e.val * 128 + l.val
  omega

/-- A weight per edge and head spread over the 16 lanes. -/
theorem rd_spread (w : FVec Ideal S800000x8x1 .f32) (hb : S800000x8x1.BroadcastsInDim S800000x8x16 ![0, 1, 2])
    (e : Fin 800000) (h : Fin 8) (d : Fin 16) :
    broadcastInDim S800000x8x16 ![0, 1, 2] hb w (ix3 e h d) = w (ix3 e h 0) := by
  refine broadcastInDim_apply _ hb w (ix3 e h d) (ix3 e h 0) fun ax => ?_
  match ax with
  | ⟨0, _⟩ => rfl
  | ⟨1, _⟩ => rfl
  | ⟨2, _⟩ => rfl

/-- The weighted source rows added by destination, at (n, l): the kernel's unnormalised aggregate. -/
theorem aggT_apply (v q k : FVec Ideal S100000x128 .f32) (kj ji : IVec S800000 32)
    (hkj : ∀ e : Fin 800000, 0 ≤ (kj (ix1 e)).toInt ∧ (kj (ix1 e)).toInt < 100000) (n : Fin 100000) (l : Fin 128) :
    KT.aggT v q k kj ji (ix2 n l) = aggU (c2 v) (c2 q) (c2 k) (c1 kj) (c1 ji) n l := by
  unfold KT.aggT
  rw [Cert.LibScatterAddAt.host_scatterAdd_rows_apply _ rfl rfl rfl rfl, rd_zeros, zero_add]
  show _ = ∑ e : Fin 800000, if (ji (ix1 e)).toInt = (n.val : ℤ)
      then v (ix2 (rowOf (kj (ix1 e))) l) * att (c2 q) (c2 k) (c1 kj) (c1 ji) e (headOf l) else 0
  refine Finset.sum_congr rfl fun e _ => ?_
  rw [rd_segIdx]
  by_cases he : (ji (ix1 e)).toInt = (n.val : ℤ)
  · rw [if_pos he, if_pos he, rd_flat, mulf_apply, takeFill_apply _ _ _ _ _ (hkj e), heads_apply, rd_spread,
      attT_apply q k kj ji e (headOf l) (hkj e) ⟨by omega, by have := n.isLt; omega⟩, col_headOf_laneOf]
  · rw [if_neg he, if_neg he]

end Cert.KernelIdeal.KRead

end
-- ==== Proof.LibSeq.lean ====
/- Lines of host operations cut in pieces.

   A line of operations run from contents V leaves the contents `after ops V`: the fold of the operations' results.
   Running a line that is two lines one after the other is running the first and then the second from what the
   first left; a property every operation of both lines has is a property of every operation of the whole. -/
import Idealize.ShloMosaic.Lib.StableHlo.Run

namespace Cert.LibSeq

open Idealize.ShloMosaic Idealize.ShloMosaic.StableHlo

variable {τ : Topo} {sig : RefSig} {Val : EltTy → Type}

/-- The contents after two lines in a row: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} {l₁ l₂ : List (HloOp τ sig Val)}
    (h₁ : l₁.Forall p) (h₂ : l₂.Forall p) : (l₁ ++ l₂).Forall p :=
  List.forall_append.mpr ⟨h₁, h₂⟩

/-- If no operation of either line leaves a buffer undetermined, none of the concatenation does. -/
theorem fresh_append {l₁ l₂ : List (HloOp τ sig Val)}
    (h₁ : ∀ op ∈ l₁, op.fresh = ∅) (h₂ : ∀ op ∈ l₂, op.fresh = ∅) : ∀ op ∈ l₁ ++ l₂, op.fresh = ∅ :=
  fun op h => (List.mem_append.mp h).elim (h₁ op) (h₂ op)

/-- A reference outside two lists is outside their concatenation. -/
theorem not_mem_append {α : Type} {r : α} {A B : List α} (hA : r ∉ A) (hB : r ∉ B) : r ∉ A ++ B :=
  fun h => (List.mem_append.mp h).elim hA hB

/-! ## An operation of three operands

The result of a three-operand operation with each operand's contents at its own reference (the library has the
four-operand form), so that the operands' own contents go on being rewritten under it. -/

theorem nary3_result {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same with the result's reference out of the index, for one rewriting pass over a whole line. -/
theorem nary3_result' {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- The results of a line in one pass, a line cut in pieces included, with the three-operand form above. -/
macro "after_results_nary3" : tactic =>
  `(tactic| (simp (disch := decide) only [Cert.LibSeq.after_append, Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.reshape_result', Cert.LibSeq.nary3_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.reshape_result_ne', Idealize.ShloMosaic.StableHlo.nary_result_ne']))

end Cert.LibSeq
-- ==== Proof.RefRun.lean ====
/-
  The reference program run by hand.

  The reference is a straight line of array operations: three projections X Wᵀ, each viewed as 8 heads of 16 lanes; rows read
  by the edges' source and destination words (a negative word shifted up by the height, the read clamped); per edge and head
  the sum over the lanes of the products, passed through leaky-relu (x where x ≥ 0, 0.2 x elsewhere, which the program
  computes by calling a function that itself calls a select) and exp; the weights added by destination; each weight divided
  by its destination's total; the weighted source rows of V added by destination; two affine layers, each followed by
  max (·, 0) (a called function), and the residual V added.

  Written as one list of 88 operations, the three called functions' operations listed in place at their calls over the
  buffers the calls name, the program is that list run in order. A list of operations run from contents V leaves each
  buffer at the fold of the operations' results; at the result buffer that fold is the composed term RT.out of the ten
  arguments' contents, and no operation writes an argument, so each argument's buffer ends as it began. Hence: every
  execution terminates, the result buffer holds RT.out of the arguments, and the arguments are unchanged.
-/
import proofs.«428754_j5119601016898_3_alg».proof.Proof.RTerms
import proofs.«428754_j5119601016898_3_alg».proof.Proof.LibSeq
import Idealize.ShloMosaic.Lib.StableHlo.Run
import Idealize.ShloMosaic.PureOps.Ideal

noncomputable section

namespace Cert.Proof.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The program's operations in order: statements 1 … 60 give the first 66 (the leaky-relu call is six operations and its
    inner select a seventh, into the call's own buffers), statements 61 … 78 the last 22 (each max (·, 0) call three). -/
abbrev ops : List (HloOp τ sig (Elt F)) :=
  [ unary main_arg3 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    reshape main_v1 main_v2 rfl shapeCasts_S100000x128_S100000x8x16,
    unary main_arg5 main_v3 ((transpose S128x128 [1, 0] · transposes_S128x128_S128x128_1_0) : (⟨S128x128, .f32⟩ : BufTy).Contents (Elt F) → (⟨S128x128, .f32⟩ : BufTy).Contents (Elt F)),
    binary main_arg0 main_v3 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    reshape main_v4 main_v5 rfl shapeCasts_S100000x128_S100000x8x16,
    unary main_arg4 main_v6 ((transpose S128x128 [1, 0] · transposes_S128x128_S128x128_1_0) : (⟨S128x128, .f32⟩ : BufTy).Contents (Elt F) → (⟨S128x128, .f32⟩ : BufTy).Contents (Elt F)),
    binary main_arg0 main_v6 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    reshape main_v7 main_v8 rfl shapeCasts_S100000x128_S100000x8x16,
    nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_arg1 main_v9 main_v10 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v11 (broadcastInDim S800000 ![] bcast_S_S800000 : (⟨S_, .i32⟩ : BufTy).Contents (Elt F) → (⟨S800000, .i32⟩ : BufTy).Contents (Elt F)),
    binary main_arg1 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_arg1 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_v8 main_v14 main_v15 ((fun x i => Host.gather gather_S100000x8x16_S800000x1_S800000x8x16_12_0_n_n_0_1_1816 x i) : (⟨S100000x8x16, .f32⟩ : BufTy).Contents (Elt F) → (⟨S800000x1, .i32⟩ : BufTy).Contents (Elt F) → (⟨S800000x8x16, .f32⟩ : BufTy).Contents (Elt F)),
    nullary main_c_1 (constantI S_ 32 0#32),
    unary main_c_1 main_v16 (broadcastInDim S800000 ![] bcast_S_S800000 : (⟨S_, .i32⟩ : BufTy).Contents (Elt F) → (⟨S800000, .i32⟩ : BufTy).Contents (Elt F)),
    binary main_arg2 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v18 (broadcastInDim S800000 ![] bcast_S_S800000 : (⟨S_, .i32⟩ : BufTy).Contents (Elt F) → (⟨S800000, .i32⟩ : BufTy).Contents (Elt F)),
    binary main_arg2 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_arg2 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v5 main_v21 main_v22 ((fun x i => Host.gather gather_S100000x8x16_S800000x1_S800000x8x16_12_0_n_n_0_1_1816 x i) : (⟨S100000x8x16, .f32⟩ : BufTy).Contents (Elt F) → (⟨S800000x1, .i32⟩ : BufTy).Contents (Elt F) → (⟨S800000x8x16, .f32⟩ : BufTy).Contents (Elt F)),
    binary main_v15 main_v22 main_v23 (mulf : (⟨S800000x8x16, .f32⟩ : BufTy).Contents (Elt F) → (⟨S800000x8x16, .f32⟩ : BufTy).Contents (Elt F) → (⟨S800000x8x16, .f32⟩ : BufTy).Contents (Elt F)),
    nullary main_cst (constant S_ .f32 0x00000000#32),
    binary main_v23 main_cst main_v24 ((fun x v => Host.reduceAdd x v reducesTo_S800000x8x16_S800000x8_d2 h_S_) : (⟨S800000x8x16, .f32⟩ : BufTy).Contents (Elt F) → (⟨S_, .f32⟩ : BufTy).Contents (Elt F) → (⟨S800000x8, .f32⟩ : BufTy).Contents (Elt F)),
    unary main_v24 main_v25 (broadcastInDim S800000x8x1 ![0, 1] bcast_S800000x8_S800000x8x1_0_1 : (⟨S800000x8, .f32⟩ : BufTy).Contents (Elt F) → (⟨S800000x8x1, .f32⟩ : BufTy).Contents (Elt F)),
    nullary main_cst_3 (constant S_ .f32 0x3E4CCCCD#32),
    nullary main_call0_cst (constant S_ .f32 0x00000000#32),
    unary main_call0_cst main_call0_v0 (broadcastInDim S800000x8x1 ![] bcast_S_S800000x8x1 : (⟨S_, .f32⟩ : BufTy).Contents (Elt F) → (⟨S800000x8x1, .f32⟩ : BufTy).Contents (Elt F)),
    binary main_v25 main_call0_v0 main_call0_v1 (cmpf .oge : (⟨S800000x8x1, .f32⟩ : BufTy).Contents (Elt F) → (⟨S800000x8x1, .f32⟩ : BufTy).Contents (Elt F) → (⟨S800000x8x1, .i1⟩ : BufTy).Contents (Elt F)),
    unary main_cst_3 main_call0_v2 (id : (⟨S_, .f32⟩ : BufTy).Contents (Elt F) → (⟨S_, .f32⟩ : BufTy).Contents (Elt F)),
    unary main_call0_v2 main_call0_v3 (broadcastInDim S800000x8x1 ![] bcast_S_S800000x8x1 : (⟨S_, .f32⟩ : BufTy).Contents (Elt F) → (⟨S800000x8x1, .f32⟩ : BufTy).Contents (Elt F)),
    binary main_call0_v3 main_v25 main_call0_v4 (mulf : (⟨S800000x8x1, .f32⟩ : BufTy).Contents (Elt F) → (⟨S800000x8x1, .f32⟩ : BufTy).Contents (Elt F) → (⟨S800000x8x1, .f32⟩ : BufTy).Contents (Elt F)),
    ternary main_call0_v1 main_v25 main_call0_v4 main_v26 (select : (⟨S800000x8x1, .i1⟩ : BufTy).Contents (Elt F) → (⟨S800000x8x1, .f32⟩ : BufTy).Contents (Elt F) → (⟨S800000x8x1, .f32⟩ : BufTy).Contents (Elt F) → (⟨S800000x8x1, .f32⟩ : BufTy).Contents (Elt F)),
    unary main_v26 main_v27 (Host.exp : (⟨S800000x8x1, .f32⟩ : BufTy).Contents (Elt F) → (⟨S800000x8x1, .f32⟩ : BufTy).Contents (Elt F)),
    nullary main_cst_4 (constant S_ .f32 0x00000000#32),
    unary main_cst_4 main_v28 (broadcastInDim S100000x8x1 ![] bcast_S_S100000x8x1 : (⟨S_, .f32⟩ : BufTy).Contents (Elt F) → (⟨S100000x8x1, .f32⟩ : BufTy).Contents (Elt F)),
    unary main_arg2 main_v29 (broadcastInDim S800000x1 ![0] bcast_S800000_S800000x1_0 : (⟨S800000, .i32⟩ : BufTy).Contents (Elt F) → (⟨S800000x1, .i32⟩ : BufTy).Contents (Elt F)),
    ternary main_v28 main_v29 main_v27 main_v30 ((fun x i u => Host.scatterAdd scatter_S100000x8x1_S800000x1_S800000x8x1_12_0_0_1 x i u) : (⟨S100000x8x1, .f32⟩ : BufTy).Contents (Elt F) → (⟨S800000x1, .i32⟩ : BufTy).Contents (Elt F) → (⟨S800000x8x1, .f32⟩ : BufTy).Contents (Elt F) → (⟨S100000x8x1, .f32⟩ : BufTy).Contents (Elt F)),
    nullary main_c_5 (constantI S_ 32 0#32),
    unary main_c_5 main_v31 (broadcastInDim S800000 ![] bcast_S_S800000 : (⟨S_, .i32⟩ : BufTy).Contents (Elt F) → (⟨S800000, .i32⟩ : BufTy).Contents (Elt F)),
    binary main_arg2 main_v31 main_v32 (cmpi .slt : (⟨S800000, .i32⟩ : BufTy).Contents (Elt F) → (⟨S800000, .i32⟩ : BufTy).Contents (Elt F) → (⟨S800000, .i1⟩ : BufTy).Contents (Elt F)),
    nullary main_c_6 (constantI S_ 32 100000#32),
    unary main_c_6 main_v33 (broadcastInDim S800000 ![] bcast_S_S800000 : (⟨S_, .i32⟩ : BufTy).Contents (Elt F) → (⟨S800000, .i32⟩ : BufTy).Contents (Elt F)),
    binary main_arg2 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_arg2 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_v30 main_v36 main_v37 ((fun x i => Host.gather gather_S100000x8x1_S800000x1_S800000x8x1_12_0_n_n_0_1_181 x i) : (⟨S100000x8x1, .f32⟩ : BufTy).Contents (Elt F) → (⟨S800000x1, .i32⟩ : BufTy).Contents (Elt F) → (⟨S800000x8x1, .f32⟩ : BufTy).Contents (Elt F)),
    binary main_v27 main_v37 main_v38 (Host.divf : (⟨S800000x8x1, .f32⟩ : BufTy).Contents (Elt F) → (⟨S800000x8x1, .f32⟩ : BufTy).Contents (Elt F) → (⟨S800000x8x1, .f32⟩ : BufTy).Contents (Elt F)),
    nullary main_c_7 (constantI S_ 32 0#32),
    unary main_c_7 main_v39 (broadcastInDim S800000 ![] bcast_S_S800000 : (⟨S_, .i32⟩ : BufTy).Contents (Elt F) → (⟨S800000, .i32⟩ : BufTy).Contents (Elt F)),
    binary main_arg1 main_v39 main_v40 (cmpi .slt : (⟨S800000, .i32⟩ : BufTy).Contents (Elt F) → (⟨S800000, .i32⟩ : BufTy).Contents (Elt F) → (⟨S800000, .i1⟩ : BufTy).Contents (Elt F)),
    nullary main_c_8 (constantI S_ 32 100000#32),
    unary main_c_8 main_v41 (broadcastInDim S800000 ![] bcast_S_S800000 : (⟨S_, .i32⟩ : BufTy).Contents (Elt F) → (⟨S800000, .i32⟩ : BufTy).Contents (Elt F)),
    binary main_arg1 main_v41 main_v42 (addi : (⟨S800000, .i32⟩ : BufTy).Contents (Elt F) → (⟨S800000, .i32⟩ : BufTy).Contents (Elt F) → (⟨S800000, .i32⟩ : BufTy).Contents (Elt F)),
    ternary main_v40 main_v42 main_arg1 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v43 main_v44 (broadcastInDim S800000x1 ![0] bcast_S800000_S800000x1_0 : (⟨S800000, .i32⟩ : BufTy).Contents (Elt F) → (⟨S800000x1, .i32⟩ : BufTy).Contents (Elt F)),
    binary main_v2 main_v44 main_v45 ((fun x i => Host.gather gather_S100000x8x16_S800000x1_S800000x8x16_12_0_n_n_0_1_1816 x i) : (⟨S100000x8x16, .f32⟩ : BufTy).Contents (Elt F) → (⟨S800000x1, .i32⟩ : BufTy).Contents (Elt F) → (⟨S800000x8x16, .f32⟩ : BufTy).Contents (Elt F)),
    unary main_v38 main_v46 (broadcastInDim S800000x8x16 ![0, 1, 2] bcast_S800000x8x1_S800000x8x16_0_1_2 : (⟨S800000x8x1, .f32⟩ : BufTy).Contents (Elt F) → (⟨S800000x8x16, .f32⟩ : BufTy).Contents (Elt F)),
    binary main_v45 main_v46 main_v47 (mulf : (⟨S800000x8x16, .f32⟩ : BufTy).Contents (Elt F) → (⟨S800000x8x16, .f32⟩ : BufTy).Contents (Elt F) → (⟨S800000x8x16, .f32⟩ : BufTy).Contents (Elt F)),
    reshape main_v47 main_v48 rfl shapeCasts_S800000x8x16_S800000x128,
    nullary main_cst_9 (constant S_ .f32 0x00000000#32),
    unary main_cst_9 main_v49 (broadcastInDim S100000x128 ![] bcast_S_S100000x128 : (⟨S_, .f32⟩ : BufTy).Contents (Elt F) → (⟨S100000x128, .f32⟩ : BufTy).Contents (Elt F)),
    unary main_arg2 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    reshape main_v2 main_v52 rfl shapeCasts_S100000x8x16_S100000x128,
    unary main_arg6 main_v53 ((transpose S128x128 [1, 0] · transposes_S128x128_S128x128_1_0) : (⟨S128x128, .f32⟩ : BufTy).Contents (Elt F) → (⟨S128x128, .f32⟩ : BufTy).Contents (Elt F)),
    binary main_v51 main_v53 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v54 main_v56 main_v57 (addf : (⟨S100000x128, .f32⟩ : BufTy).Contents (Elt F) → (⟨S100000x128, .f32⟩ : BufTy).Contents (Elt F) → (⟨S100000x128, .f32⟩ : BufTy).Contents (Elt F)),
    nullary main_call1_cst (constant S_ .f32 0x00000000#32),
    unary main_call1_cst main_call1_v0 (broadcastInDim S100000x128 ![] bcast_S_S100000x128 : (⟨S_, .f32⟩ : BufTy).Contents (Elt F) → (⟨S100000x128, .f32⟩ : BufTy).Contents (Elt F)),
    binary main_v57 main_call1_v0 main_v58 (maximumf : (⟨S100000x128, .f32⟩ : BufTy).Contents (Elt F) → (⟨S100000x128, .f32⟩ : BufTy).Contents (Elt F) → (⟨S100000x128, .f32⟩ : BufTy).Contents (Elt F)),
    unary main_arg8 main_v59 ((transpose S128x128 [1, 0] · transposes_S128x128_S128x128_1_0) : (⟨S128x128, .f32⟩ : BufTy).Contents (Elt F) → (⟨S128x128, .f32⟩ : BufTy).Contents (Elt F)),
    binary main_v58 main_v59 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v60 main_v62 main_v63 (addf : (⟨S100000x128, .f32⟩ : BufTy).Contents (Elt F) → (⟨S100000x128, .f32⟩ : BufTy).Contents (Elt F) → (⟨S100000x128, .f32⟩ : BufTy).Contents (Elt F)),
    nullary main_call2_cst (constant S_ .f32 0x00000000#32),
    unary main_call2_cst main_call2_v0 (broadcastInDim S100000x128 ![] bcast_S_S100000x128 : (⟨S_, .f32⟩ : BufTy).Contents (Elt F) → (⟨S100000x128, .f32⟩ : BufTy).Contents (Elt F)),
    binary main_v63 main_call2_v0 main_v64 (maximumf : (⟨S100000x128, .f32⟩ : BufTy).Contents (Elt F) → (⟨S100000x128, .f32⟩ : BufTy).Contents (Elt F) → (⟨S100000x128, .f32⟩ : BufTy).Contents (Elt F)),
    binary main_v52 main_v64 main_v65 (addf : (⟨S100000x128, .f32⟩ : BufTy).Contents (Elt F) → (⟨S100000x128, .f32⟩ : BufTy).Contents (Elt F) → (⟨S100000x128, .f32⟩ : BufTy).Contents (Elt F)) ]

-- eighty-eight binds re-associated
set_option maxRecDepth 4096 in
set_option maxHeartbeats 4000000 in
/-- The program is that straight line: the called functions' bodies unfolded at their calls, both sides are one chain of
    steps once sequencing is re-associated; a called function's operation over typed references at literal buffers is the
    plain operation. -/
theorem main_eq (c : Dev nD) : main (F := F) c = seq ops := by
  simp only [main, main_part0, main_part1, fn_leaky_relu.body, fn_where.body, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., reshape_bufs_sub .., unary_bufs_sub .., binary_bufs_sub .., reshape_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., reshape_bufs_sub .., nullary_bufs_sub .., unary_bufs_sub .., unary_bufs_sub .., ternary_bufs_sub .., reshape_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., binary_bufs_sub ..⟩

attribute [local irreducible] Host.gather Host.scatterAdd Host.reduceAdd Host.exp Host.divf in
set_option maxRecDepth 8192 in
set_option maxHeartbeats 4000000 in
/-- The fold at the result buffer is RT.out of the arguments' contents: each operation's result at its own buffer is its
    function of its operands' contents, at any other buffer what was there. -/
theorem out_eq (V : Valuation τ sig (Elt F)) :
    after ops V (Proc.devRef .tc main_v65)
      = RT.out (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  after_results_simp
  rfl

set_option maxHeartbeats 4000000 in
/-- No operation writes argument 0. -/
theorem arg0_eq (V : Valuation τ sig (Elt F)) : after ops V (Proc.devRef .tc main_arg0) = V (Proc.devRef .tc main_arg0) := by
  after_results_simp

set_option maxHeartbeats 4000000 in
/-- No operation writes argument 1. -/
theorem arg1_eq (V : Valuation τ sig (Elt F)) : after ops V (Proc.devRef .tc main_arg1) = V (Proc.devRef .tc main_arg1) := by
  after_results_simp

set_option maxHeartbeats 4000000 in
/-- No operation writes argument 2. -/
theorem arg2_eq (V : Valuation τ sig (Elt F)) : after ops V (Proc.devRef .tc main_arg2) = V (Proc.devRef .tc main_arg2) := by
  after_results_simp

set_option maxHeartbeats 4000000 in
/-- No operation writes argument 3. -/
theorem arg3_eq (V : Valuation τ sig (Elt F)) : after ops V (Proc.devRef .tc main_arg3) = V (Proc.devRef .tc main_arg3) := by
  after_results_simp

set_option maxHeartbeats 4000000 in
/-- No operation writes argument 4. -/
theorem arg4_eq (V : Valuation τ sig (Elt F)) : after ops V (Proc.devRef .tc main_arg4) = V (Proc.devRef .tc main_arg4) := by
  after_results_simp

set_option maxHeartbeats 4000000 in
/-- No operation writes argument 5. -/
theorem arg5_eq (V : Valuation τ sig (Elt F)) : after ops V (Proc.devRef .tc main_arg5) = V (Proc.devRef .tc main_arg5) := by
  after_results_simp

set_option maxHeartbeats 4000000 in
/-- No operation writes argument 6. -/
theorem arg6_eq (V : Valuation τ sig (Elt F)) : after ops V (Proc.devRef .tc main_arg6) = V (Proc.devRef .tc main_arg6) := by
  after_results_simp

set_option maxHeartbeats 4000000 in
/-- No operation writes argument 7. -/
theorem arg7_eq (V : Valuation τ sig (Elt F)) : after ops V (Proc.devRef .tc main_arg7) = V (Proc.devRef .tc main_arg7) := by
  after_results_simp

set_option maxHeartbeats 4000000 in
/-- No operation writes argument 8. -/
theorem arg8_eq (V : Valuation τ sig (Elt F)) : after ops V (Proc.devRef .tc main_arg8) = V (Proc.devRef .tc main_arg8) := by
  after_results_simp

set_option maxHeartbeats 4000000 in
/-- No operation writes argument 9. -/
theorem arg9_eq (V : Valuation τ sig (Elt F)) : after ops V (Proc.devRef .tc main_arg9) = V (Proc.devRef .tc main_arg9) := by
  after_results_simp

set_option maxHeartbeats 4000000 in
/-- From any memory with zero counters: every weakly fair execution of the reference terminates, its result buffer holds
    RT.out of the ten arguments' contents, and the arguments' buffers are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v65) = RT.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v65).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.Proof.RefRun

end
-- ==== Proof.RRead.lean ====
/-
  The reference's middle terms read at one index.

  The 128 columns of a row are 8 heads of 16 lanes: element (n, h, d) of the three-axis view is element (n, 16 h + d).
  A row word names a row by an indexed read: a negative word is shifted up by the height, the result read signed and
  clamped into [0, 99999]. Per edge e and head h the lanes' products of the source row of Q and the destination row of K
  add up to the score; the edge's weight is exp of the leaky-relu of the score. The weights added by destination word
  (read signed, an out-of-range word dropped) give each node's total; each edge's weight is divided by the total of the
  row its destination word reads; the source row of V times that quotient, added by destination word, is the aggregate.
-/
import proofs.«428754_j5119601016898_3_alg».proof.Proof.RTerms
import proofs.«428754_j5119601016898_3_alg».proof.Proof.Spec
import proofs.«428754_j5119601016898_3_alg».proof.Proof.LibLead3
import proofs.«428754_j5119601016898_3_alg».proof.Proof.LibScatterAddAt
import Idealize.ShloMosaic.Lib.Pipeline.Value
import Idealize.ShloMosaic.PureOps.Ideal.Laws

noncomputable section

open scoped BigOperators

namespace Cert.ReferenceIdeal.RRead

open Idealize.ShloMosaic Idealize.ShloMosaic.ValueIdx Cert.ReferenceIdeal Cert.ReferenceIdeal.Facts₀ Cert.Spec

/-! ## Heads -/

/-- Element (n, h, d) of the three-axis view is element (n, 16 h + d). -/
theorem heads_apply (x : FVec Ideal S100000x128 .f32) (n : Fin 100000) (h : Fin 8) (d : Fin 16) :
    RT.heads (F := Ideal) x (ix3 n h d) = x (ix2 n (col h d)) := by
  unfold RT.heads
  refine shapeCast_apply x _ _ _ ?_
  rw [Shape.rowMajor_val_two, Shape.rowMajor_val_three]
  show n.val * 128 + (16 * h.val + d.val) = (n.val * 8 + h.val) * 16 + d.val
  omega

/-! ## Row words -/

/-- The column of row words at (e, 0): the word, shifted up by the height when negative. -/
theorem wrapRows_apply (i : IVec S800000 32) (e : Fin 800000) (u : Fin 1) :
    RT.wrapRows i (ix2 e u) = wrapW (i (ix1 e)) := by
  unfold RT.wrapRows
  rw [broadcastInDim_apply _ _ _ (ix2 e u) (ix1 e) (fun a => by
    match a with
    | ⟨0, _⟩ => exact (if_neg (show ¬ (800000 : ℕ) = 1 by decide)).symm)]
  rw [select_apply]
  show Scalar.select (IntOp.cmpi .slt (i (ix1 e)) 0#32) (i (ix1 e) + 100000#32) (i (ix1 e)) = _
  unfold wrapW Scalar.select
  have : IntOp.cmpi .slt (i (ix1 e)) 0#32 = 1 ↔ (i (ix1 e)).toInt < 0 := by
    show BitVec.ofBool ((i (ix1 e)).slt 0#32) = 1#1 ↔ _
    rw [BitVec.slt_eq_decide]
    cases h : decide ((i (ix1 e)).toInt < (0#32).toInt) <;> simp_all
  simp only [this]

/-- Rows of the three-axis view read by the words. -/
theorem take3_apply (x : FVec Ideal S100000x8x16 .f32) (i : IVec S800000 32) (e : Fin 800000) (h : Fin 8) (d : Fin 16) :
    RT.take3 (F := Ideal) x i (ix3 e h d) = x (ix3 (rowOf (i (ix1 e))) h d) := by
  unfold RT.take3
  rw [Cert.LibLead3.gather_lead3_apply (by decide) _ rfl rfl rfl rfl rfl rfl rfl x (RT.wrapRows i) e h d]
  refine congrArg (fun r => x (ix3 r h d)) (Fin.ext ?_)
  show min (RT.wrapRows i (ix2 e 0)).toInt.toNat (100000 - 1) = min (wrapW (i (ix1 e))).toInt.toNat 99999
  rw [wrapRows_apply]

/-! ## Scores and weights -/

/-- The pattern of all zeros is the number 0. -/
theorem zero_f32 : Ideal.ofBits .f32 0x00000000#32 = 0 := by simp [Ideal.ofBits, Ideal.ieee]

theorem reduces_lanes : S800000x8x16.Reduces [2] S800000x8 := by decide

/-- The index over (e, h) with lane d inserted is (e, h, d). -/
theorem lift_lanes (r : S800000x8x16.Reduces [2] S800000x8) (e : Fin 800000) (h : Fin 8) (d : Fin 16) :
    r.lift (ix2 e h) d = ix3 e h d :=
  funext fun c => Fin.ext (by
    match c with
    | ⟨0, _⟩ => rfl
    | ⟨1, _⟩ => rfl
    | ⟨2, _⟩ => rfl)

/-- The sum over the lanes, from 0. -/
theorem reduce_lanes_apply (y : FVec Ideal S800000x8x16 .f32) (e : Fin 800000) (h : Fin 8) :
    Host.reduceAdd y (constant S_ .f32 0x00000000#32) reducesTo_S800000x8x16_S800000x8_d2 h_S_ (ix2 e h)
      = ∑ d : Fin 16, y (ix3 e h d) := by
  unfold Host.reduceAdd
  rw [Ideal.hostReduceAdd_def, Ideal.hostReduceAdd_single _ reduces_lanes, constant_apply, zero_f32, zero_add]
  exact Finset.sum_congr rfl fun d _ => congrArg y (lift_lanes reduces_lanes e h d)

/-- leaky-relu then nothing else: the value where it is nonnegative, the slope times it elsewhere. -/
theorem leaky_apply (x : FVec Ideal S800000x8x1 .f32) (j : S800000x8x1.Idx) :
    RT.leaky (F := Ideal) x j = if 0 ≤ x j then x j else slope * x j := by
  unfold RT.leaky
  rw [select_apply, cmpf_apply, mulf_apply]
  rw [broadcastInDim_apply _ _ _ j ix0 (fun a => a.elim0), broadcastInDim_apply _ _ _ j ix0 (fun a => a.elim0)]
  show Scalar.select (Ideal.cmp .oge (x j) (Ideal.ofBits .f32 0x00000000#32)) (x j) (Ideal.ofBits .f32 0x3E4CCCCD#32 * x j) = _
  rw [zero_f32]
  unfold Scalar.select Ideal.cmp
  by_cases h0 : (0 : EReal) ≤ x j
  · simp [h0]
  · simp [h0]; rfl

/-- The exponential, element by element. -/
theorem hostExp_apply {s : Shape} (z : FVec Ideal s .f32) (j : s.Idx) : Host.exp z j = Ideal.exp (z j) := rfl

/-- Edge e's weight at head h. -/
theorem attT_apply (q k : FVec Ideal S100000x128 .f32) (kj ji : IVec S800000 32) (e : Fin 800000) (h : Fin 8) :
    RT.attT q k kj ji (ix3 e h 0) = att (c2 q) (c2 k) (c1 kj) (c1 ji) e h := by
  unfold RT.attT
  rw [hostExp_apply, leaky_apply]
  rw [broadcastInDim_apply _ _ _ (ix3 e h (0 : Fin 1)) (ix2 e h) (fun a => by
    match a with
    | ⟨0, _⟩ => exact (if_neg (show ¬ (800000 : ℕ) = 1 by decide)).symm
    | ⟨1, _⟩ => exact (if_neg (show ¬ (8 : ℕ) = 1 by decide)).symm)]
  rw [reduce_lanes_apply]
  unfold att phi score
  have hs : (∑ d : Fin 16, mulf (RT.take3 (RT.heads q) kj) (RT.take3 (RT.heads k) ji) (ix3 e h d))
      = ∑ d : Fin 16, c2 q (rowOf (c1 kj e)) (col h d) * c2 k (rowOf (c1 ji e)) (col h d) :=
    Finset.sum_congr rfl fun d _ => by
      rw [mulf_apply, take3_apply, take3_apply, heads_apply, heads_apply]
  rw [hs]

/-! ## Totals, quotients, aggregate -/

/-- A spread zero. -/
theorem bcast_zero_apply {t : Shape} (hb : S_.BroadcastsInDim t ![]) (j : t.Idx) :
    broadcastInDim t ![] hb (constant (F := Ideal) S_ .f32 0x00000000#32) j = 0 := by
  rw [broadcastInDim_apply _ hb _ j ix0 (fun a => a.elim0), constant_apply, zero_f32]

/-- The destination words as a column, at (e, 0): the word itself. -/
theorem segIdx_apply (ji : IVec S800000 32) (e : Fin 800000) (u : Fin 1) : RT.segIdx ji (ix2 e u) = ji (ix1 e) := by
  unfold RT.segIdx
  exact broadcastInDim_apply _ _ _ (ix2 e u) (ix1 e) (fun a => by
    match a with
    | ⟨0, _⟩ => exact (if_neg (show ¬ (800000 : ℕ) = 1 by decide)).symm)

/-- The quotient, element by element. -/
theorem hostDivf_apply {s : Shape} (a b : FVec Ideal s .f32) (j : s.Idx) : Host.divf a b j = Ideal.div (a j) (b j) := rfl

/-- The total weight entering node n at head h. -/
theorem denomT_apply (q k : FVec Ideal S100000x128 .f32) (kj ji : IVec S800000 32) (n : Fin 100000) (h : Fin 8) :
    RT.denomT q k kj ji (ix3 n h 0) = denom (c2 q) (c2 k) (c1 kj) (c1 ji) n h := by
  unfold RT.denomT
  rw [Cert.LibLead3.host_scatterAdd_lead3_apply _ rfl rfl rfl rfl, bcast_zero_apply, zero_add]
  unfold denom
  refine Finset.sum_congr rfl fun e _ => ?_
  rw [segIdx_apply, attT_apply]

/-- Edge e's weight over the total of the row its destination word reads. -/
theorem attN_apply (q k : FVec Ideal S100000x128 .f32) (kj ji : IVec S800000 32) (e : Fin 800000) (h : Fin 8) :
    RT.attN q k kj ji (ix3 e h 0)
      = Ideal.div (att (c2 q) (c2 k) (c1 kj) (c1 ji) e h) (denom (c2 q) (c2 k) (c1 kj) (c1 ji) (rowOf (ji (ix1 e))) h) := by
  unfold RT.attN
  rw [hostDivf_apply, attT_apply,
    Cert.LibLead3.gather_lead3_apply (by decide) _ rfl rfl rfl rfl rfl rfl rfl (RT.denomT q k kj ji) (RT.wrapRows ji) e h 0]
  have hr : ∀ hlt, (⟨min (RT.wrapRows ji (ix2 e 0)).toInt.toNat (100000 - 1), hlt⟩ : Fin 100000) = rowOf (ji (ix1 e)) := fun _ =>
    Fin.ext (by
      show min (RT.wrapRows ji (ix2 e 0)).toInt.toNat (100000 - 1) = min (wrapW (ji (ix1 e))).toInt.toNat 99999
      rw [wrapRows_apply])
  rw [hr, denomT_apply]

/-- The reference's aggregate at (n, l). -/
theorem aggT_apply (v q k : FVec Ideal S100000x128 .f32) (kj ji : IVec S800000 32) (n : Fin 100000) (l : Fin 128) :
    RT.aggT v q k kj ji (ix2 n l) = aggR (c2 v) (c2 q) (c2 k) (c1 kj) (c1 ji) n l := by
  unfold RT.aggT
  rw [Cert.LibScatterAddAt.host_scatterAdd_rows_apply _ rfl rfl rfl rfl, bcast_zero_apply, zero_add]
  unfold aggR
  refine Finset.sum_congr rfl fun e _ => ?_
  rw [segIdx_apply]
  rw [shapeCast_apply _ shapeCasts_S800000x8x16_S800000x128 (ix2 e l) (ix3 e (headOf l) (laneOf l)) (by
    rw [Shape.rowMajor_val_two, Shape.rowMajor_val_three]
    show (e.val * 8 + l.val / 16) * 16 + l.val % 16 = e.val * 128 + l.val
    omega)]
  rw [mulf_apply, take3_apply, heads_apply, col_headOf_laneOf]
  rw [broadcastInDim_apply _ _ _ (ix3 e (headOf l) (laneOf l)) (ix3 e (headOf l) (0 : Fin 1)) (fun a => by
    match a with
    | ⟨0, _⟩ => exact (if_neg (show ¬ (800000 : ℕ) = 1 by decide)).symm
    | ⟨1, _⟩ => exact (if_neg (show ¬ (8 : ℕ) = 1 by decide)).symm
    | ⟨2, _⟩ => exact (if_pos rfl).symm), attN_apply]

end Cert.ReferenceIdeal.RRead

end
-- ==== Proof.LibDotAt.lean ====
/-
  The host's `dot_general` of an [M, K] array with a [K, N] array, read at an output index at the ideal instance: the
  plain sum of products over the contracted axis,
      out (p, q) = ∑ k, l (p, k) · r (k, q),
  and, when the right operand is the transpose of an [N, K] array W (jnp's `x @ W.T`),
      out (p, q) = ∑ k, l (p, k) · W (q, k):
  the same sum a kernel's matmul contracting the last axes of both operands computes.
-/
import proofs.«428754_j5119601016898_3_alg».proof.Proof.LibMatmulAt
import Idealize.ShloMosaic.Lib.ValueLayout

noncomputable section

open scoped BigOperators

namespace Idealize.ShloMosaic.DotAt

open Idealize.ShloMosaic Idealize.ShloMosaic.ValueIdx Idealize.ShloMosaic.MatmulAt

variable {M K N : Nat}

/-- `out (p, q) = ∑ k, l (p, k) · r (k, q)`, whatever the precision and the schedule key. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

/-- Against a transposed [N, K] array: `out (p, q) = ∑ k, l (p, k) · W (q, k)`. -/
theorem dotGeneral_transpose_apply {φ₁ φ₂ : FTy} (prec : Option ContractPrecision) (sched : HostSchedule)
    (l : FVec Ideal ⟨2, ![M, K]⟩ φ₁) (W : FVec Ideal ⟨2, ![N, K]⟩ φ₂)
    (h : (⟨2, ![N, K]⟩ : Shape).Transposes [1, 0] ⟨2, ![K, N]⟩) (p : Fin M) (q : Fin N) :
    FloatOps.dotGeneral (DotDims.plain M K N) prec sched l (transpose ⟨2, ![K, N]⟩ [1, 0] W h) (ix2 p q)
      = ∑ k : Fin K, l (ix2 p k) * W (ix2 q k) := by
  rw [dotGeneral_plain_apply]
  exact Finset.sum_congr rfl fun k _ => by rw [transpose_ix2_apply]

end Idealize.ShloMosaic.DotAt

end
-- ==== Proof.RTail.lean ====
/-
  The reference's dense layers, read at an index.

  A projection is x Wᵀ: at row n and column j it is the sum over k of x (n, k) · W (j, k), because the right operand of
  the product is W transposed and a transposed matrix read at (k, j) is W at (j, k).

  One affine layer with relu is max (a Wᵀ + b, 0) with the bias b spread over every row: at (n, j) it reads
  max ((∑ k, a (n, k) · W (j, k)) + b j, 0); the bit pattern zero is the extended real zero.

  The result adds the value projection (its 128 columns viewed as 8 heads of 16 lanes and back again, which is the
  identity) to two such layers applied to the aggregate: at (n, j) this is the residual two-layer map of the
  specification applied to row n of the aggregate and row n of the value projection.
-/
import proofs.«428754_j5119601016898_3_alg».proof.Proof.RTerms
import proofs.«428754_j5119601016898_3_alg».proof.Proof.Spec
import proofs.«428754_j5119601016898_3_alg».proof.Proof.LibDotAt
import Idealize.ShloMosaic.Lib.IdealHost

noncomputable section

open scoped BigOperators

namespace Cert.ReferenceIdeal.RTail

open Idealize.ShloMosaic Idealize.ShloMosaic.ValueIdx Idealize.ShloMosaic.DotAt Cert.ReferenceIdeal Cert.Spec

/-- The product against a transposed weight matrix, read at an index. -/
theorem dot_tr_apply (a : FVec Ideal S100000x128 .f32) (w : FVec Ideal S128x128 .f32) (n : Fin 100000) (j : Fin 128) :
    Host.dotGeneral dot_S100000x128_S128x128_S100000x128_1_0_0_1_n_n none a (RT.tr w) (ix2 n j)
      = ∑ k : Fin 128, a (ix2 n k) * w (ix2 j k) :=
  dotGeneral_transpose_apply (M := 100000) (K := 128) (N := 128) none .single a w
    Facts₀.transposes_S128x128_S128x128_1_0 n j

/-- x Wᵀ at (n, j) is ∑ k, x (n, k) · W (j, k). -/
theorem proj_apply (x : FVec Ideal S100000x128 .f32) (w : FVec Ideal S128x128 .f32) (n : Fin 100000) (j : Fin 128) :
    RT.proj (F := Ideal) x w (ix2 n j) = proj (c2 x) (c2 w) n j :=
  dot_tr_apply x w n j

/-- A bias vector spread over the rows reads the bias at the column. -/
theorem biasRows_apply (b : FVec Ideal S128 .f32) (n : Fin 100000) (j : Fin 128) :
    RT.biasRows (F := Ideal) b (ix2 n j) = b (ix1 j) := by
  unfold RT.biasRows
  rw [broadcastInDim_apply _ _ _ (ix2 n j) (ix2 0 j) (fun a => match a with | ⟨0, _⟩ => rfl | ⟨1, _⟩ => rfl)]
  exact broadcastInDim_apply _ _ _ (ix2 0 j) (ix1 j) (fun a => match a with | ⟨0, _⟩ => rfl)

/-- max (x, 0) at an index. -/
theorem relu_apply (x : FVec Ideal S100000x128 .f32) (i : S100000x128.Idx) : RT.relu (F := Ideal) x i = max (x i) 0 := by
  unfold RT.relu
  rw [maximumf_apply, broadcastInDim_scalar_apply, constant_apply, Ideal.ofBits_zero_f32]

/-- One affine layer with relu at (n, j). -/
theorem layer_apply (a : FVec Ideal S100000x128 .f32) (w : FVec Ideal S128x128 .f32) (b : FVec Ideal S128 .f32)
    (n : Fin 100000) (j : Fin 128) :
    RT.layer (F := Ideal) a w b (ix2 n j) = max ((∑ k : Fin 128, a (ix2 n k) * w (ix2 j k)) + b (ix1 j)) 0 := by
  unfold RT.layer
  rw [relu_apply, addf_apply, dot_tr_apply, biasRows_apply]

/-- The columns viewed as heads and lanes and back again are the columns. -/
theorem unheads_heads (x : FVec Ideal S100000x128 .f32) :
    shapeCast S100000x128 (RT.heads x) Facts₀.shapeCasts_S100000x8x16_S100000x128 = x :=
  shapeCast_shapeCast x _ _

/-- The reference's result at (n, j): the residual two-layer map on row n of the aggregate and of the value projection. -/
theorem out_apply (feats : FVec Ideal S100000x128 .f32) (kj ji : IVec S800000 32) (Wv Wq Wk W1 : FVec Ideal S128x128 .f32)
    (b1 : FVec Ideal S128 .f32) (W2 : FVec Ideal S128x128 .f32) (b2 : FVec Ideal S128 .f32) (n : Fin 100000) (j : Fin 128) :
    RT.out feats kj ji Wv Wq Wk W1 b1 W2 b2 (ix2 n j)
      = mlp (fun l => RT.aggT (RT.proj feats Wv) (RT.proj feats Wq) (RT.proj feats Wk) kj ji (ix2 n l)) (c2 W1) (c1 b1) (c2 W2) (c1 b2)
          (fun l => RT.proj feats Wv (ix2 n l)) j := by
  unfold RT.out
  rw [addf_apply, unheads_heads, layer_apply]
  unfold mlp
  refine congrArg (fun s => RT.proj feats Wv (ix2 n j) + max (s + b2 (ix1 j)) 0) ?_
  exact Finset.sum_congr rfl fun k _ => by rw [layer_apply]

end Cert.ReferenceIdeal.RTail

end
-- ==== Proof.PreFacts.lean ====
/-
  The precondition read back.

  The printed precondition is a conjunction of nine one-bit words. Eight of them say, one per float argument, that every
  entry x of the argument satisfies |x| < +∞; the ninth says that every source index word w satisfies 0 ≤ w and
  w < 100000, both compared signed. Each "every" is a reduction by "and" over all axes, started from the constant 1.

  If a conjunction of one-bit words is 1 then each of them is 1, and a reduction by "and" that came out 1 met only 1s.
  On the extended reals |x| = max x (−x), and the pattern 0x7F800000 denotes ⊤; max x (−x) < ⊤ excludes x = ⊤ and
  x = ⊥, so x is a real number. A signed comparison of two words that is 1 is the comparison of their signed values, and
  the constant words 0 and 100000 read signed as 0 and 100000.

  Stated here for the feature array, the three projection matrices and the source index words.
-/
import proofs.«428754_j5119601016898_3_alg».proof.Defs
import proofs.«428754_j5119601016898_3_alg».proof.Proof.Gen.Pre_finite_inputs
import Idealize.ShloMosaic.Lib.ReduceAll
import Idealize.ShloMosaic.Lib.StableHlo.Predicate
import Idealize.ShloMosaic.Lib.ValueIdx

noncomputable section

namespace Cert.Proof.PreFacts

open Idealize.ShloMosaic Idealize.SL.Sem Idealize.ShloMosaic.ValueIdx

/-- The scalar shape has one index. -/
instance subsingleton_scalar_idx : Subsingleton Cert.Pre_finite_inputs.S_.Idx := ⟨fun a b => funext fun d => d.elim0⟩

/-- An extended real whose absolute value is below +∞ is a real number. -/
theorem real_of_abs_lt_top (x : Ideal .f32)
    (h : FloatOps.cmpf (F := Ideal) .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- The printed test "every entry of x is finite", read at one entry. -/
theorem real_of_all_finite {s : Shape} (x : FVec Ideal s .f32)
    (hb : Cert.Pre_finite_inputs.S_.BroadcastsInDim s (![] : Fin 0 → Fin s.rank))
    {axes : List (Fin s.rank)} (hr : s.ReducesTo axes Cert.Pre_finite_inputs.S_)
    (hu : 0 < Cert.Pre_finite_inputs.S_.numel)
    (h : Host.reduce IntOp.andi
        (cmpf .olt (Host.absf x) (broadcastInDim s ![] hb (constant Cert.Pre_finite_inputs.S_ .f32 0x7F800000#32)))
        (constantI Cert.Pre_finite_inputs.S_ 1 1#1) hr hu ix0 = 1#1) (i : s.Idx) :
    ∃ r : ℝ, x i = (r : EReal) :=
  real_of_abs_lt_top (x i) (Host.reduce_andi_all _ _ hr hu ix0 h i)

theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ (n : Fin 100000) (k : Fin 128), ∃ r : ℝ,
        m ((c.tc : Thread Cert.KernelIdeal.nD Cert.KernelIdeal.τ).loc Cert.KernelIdeal.main_arg0) (ix2 n k) = (r : EReal))
    ∧ (∀ a b : Fin 128, ∃ r : ℝ,
        m ((c.tc : Thread Cert.KernelIdeal.nD Cert.KernelIdeal.τ).loc Cert.KernelIdeal.main_arg3) (ix2 a b) = (r : EReal))
    ∧ (∀ a b : Fin 128, ∃ r : ℝ,
        m ((c.tc : Thread Cert.KernelIdeal.nD Cert.KernelIdeal.τ).loc Cert.KernelIdeal.main_arg4) (ix2 a b) = (r : EReal))
    ∧ (∀ a b : Fin 128, ∃ r : ℝ,
        m ((c.tc : Thread Cert.KernelIdeal.nD Cert.KernelIdeal.τ).loc Cert.KernelIdeal.main_arg5) (ix2 a b) = (r : EReal))
    ∧ (∀ e : Fin 800000,
        0 ≤ (m ((c.tc : Thread Cert.KernelIdeal.nD Cert.KernelIdeal.τ).loc Cert.KernelIdeal.main_arg1) (ix1 e)).toInt
        ∧ (m ((c.tc : Thread Cert.KernelIdeal.nD Cert.KernelIdeal.τ).loc Cert.KernelIdeal.main_arg1) (ix1 e)).toInt < 100000) := by
  have h0 := congrFun (h c) ix0
  dsimp only [Cert.Pre_finite_inputs.fn, Cert.Pre_finite_inputs.fn_part1, Cert.Pre_finite_inputs.fn_part2] at h0
  obtain ⟨h38, h44⟩ := IntOp.andi_eq_one.1 h0
  obtain ⟨h33, -⟩ := IntOp.andi_eq_one.1 h38
  obtain ⟨h28, -⟩ := IntOp.andi_eq_one.1 h33
  obtain ⟨h23, -⟩ := IntOp.andi_eq_one.1 h28
  obtain ⟨h18, -⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  refine ⟨fun n k => real_of_all_finite _ _ _ _ h3 (ix2 n k), fun a b => real_of_all_finite _ _ _ _ h7 (ix2 a b),
    fun a b => real_of_all_finite _ _ _ _ h12 (ix2 a b), fun a b => real_of_all_finite _ _ _ _ h17 (ix2 a b), fun e => ?_⟩
  have he := Host.reduce_andi_all _ _ _ _ ix0 h44 (ix1 e)
  obtain ⟨hge, hlt⟩ := IntOp.andi_eq_one.1 he
  have hge' := IntOp.cmpi_sge.1 hge
  have hlt' := IntOp.cmpi_slt.1 hlt
  have z0 : (0#32 : BitVec 32).toInt = 0 := by decide
  have z1 : (100000#32 : BitVec 32).toInt = 100000 := by decide
  exact ⟨z0 ▸ hge', z1 ▸ hlt'⟩

end Cert.Proof.PreFacts

end
-- ==== Proof.Final.lean ====
/-
  The two programs end at one array.

  Both compute, for a graph of 100000 nodes and 800000 edges, a multi-head attention aggregate followed by a residual
  two-layer map (Spec.lean has the mathematics). The kernel program runs two tiled launches around plain array
  operations: the first launch leaves the three projections V = X Wvᵀ, K = X Wkᵀ, Q = X Wqᵀ block of rows by block of
  rows; the array operations between the launches form, per edge and head, the weight exp (leaky_relu (q · k)), add the
  weights by destination into a denominator and its guarded reciprocal, and add the weighted source rows of V by
  destination WITHOUT normalising; the second launch expands the reciprocal over each head's 16 lanes by a product with
  a one-hot table, multiplies it into the aggregate row, applies the two affine layers with relu and adds the row of V.
  The reference divides each edge's weight by its destination's denominator before the sum.

  Read at an index (n, j), the kernel's result is the residual map of the row
      l ↦ (∑ over edges into n of V (source) l · weight) · reciprocal denominator of n at l's head,
  the reference's the residual map of the row
      l ↦ ∑ over edges into n of V (source) l · (weight / denominator of the edge's destination at l's head).
  With finite inputs every weight is a positive real and the two rows agree (`agg_norm`): the edges into n all have
  destination n, a nonempty sum of positive reals is a positive real, and multiplication distributes over the sum in ℝ;
  a node no edge enters has both rows zero. The source words are in range by the precondition, so the kernel's filling
  take reads the row the reference's clamping read does; an edge whose destination word is out of range is in no
  node's sum on either side.
-/
import proofs.«428754_j5119601016898_3_alg».proof.Defs
import proofs.«428754_j5119601016898_3_alg».proof.Proof.Gen.Kernel.Frame
import proofs.«428754_j5119601016898_3_alg».proof.Proof.Gen.KernelIdeal.Frame
import proofs.«428754_j5119601016898_3_alg».proof.Proof.Gen.ReferenceIdeal
import proofs.«428754_j5119601016898_3_alg».proof.Proof.Gen.Pre_finite_inputs
import proofs.«428754_j5119601016898_3_alg».proof.Proof.KTerms
import proofs.«428754_j5119601016898_3_alg».proof.Proof.RTerms
import proofs.«428754_j5119601016898_3_alg».proof.Proof.Spec
import proofs.«428754_j5119601016898_3_alg».proof.Proof.Algebra
import proofs.«428754_j5119601016898_3_alg».proof.Proof.KernelRun
import proofs.«428754_j5119601016898_3_alg».proof.Proof.KChain
import proofs.«428754_j5119601016898_3_alg».proof.Proof.Region0
import proofs.«428754_j5119601016898_3_alg».proof.Proof.Region1
import proofs.«428754_j5119601016898_3_alg».proof.Proof.KRead
import proofs.«428754_j5119601016898_3_alg».proof.Proof.RefRun
import proofs.«428754_j5119601016898_3_alg».proof.Proof.RRead
import proofs.«428754_j5119601016898_3_alg».proof.Proof.RTail
import proofs.«428754_j5119601016898_3_alg».proof.Proof.PreFacts

set_option maxRecDepth 16384

noncomputable section

open scoped BigOperators

namespace Cert.Proof.Final

open Idealize.ShloMosaic Idealize.ShloMosaic.TcCoe Idealize.ShloMosaic.ValueIdx Idealize.SL.Sem Cert.Spec

/-- A sum against a one-hot row picks the entry of the row's head. -/
theorem onehot_sum (w : Fin 8 → EReal) (l : Fin 128) :
    (∑ h : Fin 8, w h * (if headOf l = h then (1 : EReal) else 0)) = w (headOf l) :=
  expand_onehot w (fun h l => if headOf l = h then 1 else 0) (fun _ _ => rfl) l

section Kernel

open Cert.KernelIdeal Cert.KernelIdeal.Gen

variable (m : (ℓ : Loc nD τ sig) → Buf (Elt Ideal) ℓ) (ρ : Dev nD → PrngReg)

/-- The argument arrays on core c, at their literal types. -/
abbrev aX (c : Dev nD) : FVec Ideal S100000x128 .f32 := m ((c.tc : Thread nD τ).loc main_arg0)
abbrev aKj (c : Dev nD) : IVec S800000 32 := m ((c.tc : Thread nD τ).loc main_arg1)
abbrev aJi (c : Dev nD) : IVec S800000 32 := m ((c.tc : Thread nD τ).loc main_arg2)
abbrev aWv (c : Dev nD) : FVec Ideal S128x128 .f32 := m ((c.tc : Thread nD τ).loc main_arg3)
abbrev aWq (c : Dev nD) : FVec Ideal S128x128 .f32 := m ((c.tc : Thread nD τ).loc main_arg4)
abbrev aWk (c : Dev nD) : FVec Ideal S128x128 .f32 := m ((c.tc : Thread nD τ).loc main_arg5)
abbrev aW1 (c : Dev nD) : FVec Ideal S128x128 .f32 := m ((c.tc : Thread nD τ).loc main_arg6)
abbrev aB1 (c : Dev nD) : FVec Ideal S128 .f32 := m ((c.tc : Thread nD τ).loc main_arg7)
abbrev aW2 (c : Dev nD) : FVec Ideal S128x128 .f32 := m ((c.tc : Thread nD τ).loc main_arg8)
abbrev aB2 (c : Dev nD) : FVec Ideal S128 .f32 := m ((c.tc : Thread nD τ).loc main_arg9)

/-- The first launch's three outputs on core c, at their literal type. -/
abbrev vK (c : Dev nD) : FVec Ideal S100000x128 .f32 := V2 m ρ c main_v3_0
abbrev kK (c : Dev nD) : FVec Ideal S100000x128 .f32 := V2 m ρ c main_v3_1
abbrev qK (c : Dev nD) : FVec Ideal S100000x128 .f32 := V2 m ρ c main_v3_2
/-- The result array after the second launch. -/
abbrev outK (c : Dev nD) : FVec Ideal S100000x128 .f32 := W14 m ρ c (Proc.devRef .tc main_v35)

/-- The first launch leaves V = X Wvᵀ, K = X Wkᵀ, Q = X Wqᵀ. -/
theorem vK_eq (c : Dev nD) : c2 (vK m ρ c) = proj (c2 (aX m c)) (c2 (aWv m c)) := by
  funext n j
  show vK m ρ c (ix2 n j) = _
  rw [Cert.KernelIdeal.Region0.arr4 (V1 m ρ) c (vK m ρ c) (aX m c) (KT.tr (F := Ideal) (aWv m c))
    (hF0 m ρ c 4).symm (Cert.KernelIdeal.KChain.V1_arg0 m ρ c).symm (Cert.KernelIdeal.KChain.V1_v0 m ρ c).symm n j]
  simp only [Cert.KernelIdeal.KRead.tr_apply]
  rfl
theorem kK_eq (c : Dev nD) : c2 (kK m ρ c) = proj (c2 (aX m c)) (c2 (aWk m c)) := by
  funext n j
  show kK m ρ c (ix2 n j) = _
  rw [Cert.KernelIdeal.Region0.arr5 (V1 m ρ) c (kK m ρ c) (aX m c) (KT.tr (F := Ideal) (aWk m c))
    (hF0 m ρ c 5).symm (Cert.KernelIdeal.KChain.V1_arg0 m ρ c).symm (Cert.KernelIdeal.KChain.V1_v1 m ρ c).symm n j]
  simp only [Cert.KernelIdeal.KRead.tr_apply]
  rfl
theorem qK_eq (c : Dev nD) : c2 (qK m ρ c) = proj (c2 (aX m c)) (c2 (aWq m c)) := by
  funext n j
  show qK m ρ c (ix2 n j) = _
  rw [Cert.KernelIdeal.Region0.arr6 (V1 m ρ) c (qK m ρ c) (aX m c) (KT.tr (F := Ideal) (aWq m c))
    (hF0 m ρ c 6).symm (Cert.KernelIdeal.KChain.V1_arg0 m ρ c).symm (Cert.KernelIdeal.KChain.V1_v2 m ρ c).symm n j]
  simp only [Cert.KernelIdeal.KRead.tr_apply]
  rfl

/-- The kernel's result at (n, j), under the precondition's facts on core c: the residual map of the reference's
    aggregate row. The second launch's row is the unnormalised aggregate times the expanded reciprocal denominator;
    normalising once per node is normalising per edge (`agg_norm`). -/
theorem kernel_value (c : Dev nD)
    (hX : ∀ n k, ∃ r : ℝ, aX m c (ix2 n k) = (r : EReal)) (hWv : ∀ a b, ∃ r : ℝ, aWv m c (ix2 a b) = (r : EReal))
    (hWq : ∀ a b, ∃ r : ℝ, aWq m c (ix2 a b) = (r : EReal)) (hWk : ∀ a b, ∃ r : ℝ, aWk m c (ix2 a b) = (r : EReal))
    (hkj : ∀ e : Fin 800000, 0 ≤ (aKj m c (ix1 e)).toInt ∧ (aKj m c (ix1 e)).toInt < 100000)
    (n : Fin 100000) (j : Fin 128) :
    outK m ρ c (ix2 n j)
      = mlp (aggR (proj (c2 (aX m c)) (c2 (aWv m c))) (proj (c2 (aX m c)) (c2 (aWq m c))) (proj (c2 (aX m c)) (c2 (aWk m c)))
              (c1 (aKj m c)) (c1 (aJi m c)) n)
          (c2 (aW1 m c)) (c1 (aB1 m c)) (c2 (aW2 m c)) (c1 (aB2 m c)) (proj (c2 (aX m c)) (c2 (aWv m c)) n) j := by
  rw [Cert.KernelIdeal.Region1.arr8 (V13 m ρ) c (outK m ρ c)
    (KT.aggT (F := Ideal) (vK m ρ c) (qK m ρ c) (kK m ρ c) (aKj m c) (aJi m c)) (vK m ρ c)
    (KT.invT (F := Ideal) (qK m ρ c) (kK m ρ c) (aKj m c) (aJi m c)) (KT.eTab (F := Ideal))
    (KT.tr (F := Ideal) (aW1 m c)) (KT.tr (F := Ideal) (aW2 m c)) (KT.row1 (F := Ideal) (aB1 m c)) (KT.row1 (F := Ideal) (aB2 m c))
    (hF1 m ρ c 8).symm (Cert.KernelIdeal.KChain.V13_v30 m ρ c).symm (Cert.KernelIdeal.KChain.V13_v3_0 m ρ c).symm
    (Cert.KernelIdeal.KChain.V13_v23 m ρ c).symm (Cert.KernelIdeal.KChain.V13_cst m ρ c).symm
    (Cert.KernelIdeal.KChain.V13_v31 m ρ c).symm (Cert.KernelIdeal.KChain.V13_v33 m ρ c).symm
    (Cert.KernelIdeal.KChain.V13_v32 m ρ c).symm (Cert.KernelIdeal.KChain.V13_v34 m ρ c).symm n j]
  simp only [Cert.KernelIdeal.KRead.aggT_apply _ _ _ _ _ hkj, Cert.KernelIdeal.KRead.invT_apply _ _ _ _ hkj,
    Cert.KernelIdeal.KRead.eTab_apply, Cert.KernelIdeal.KRead.tr_apply, Cert.KernelIdeal.KRead.row1_apply, onehot_sum]
  rw [vK_eq m ρ c, qK_eq m ρ c, kK_eq m ρ c]
  simp only [agg_norm (c2 (aX m c)) (c2 (aWv m c)) (c2 (aWq m c)) (c2 (aWk m c)) hX hWv hWq hWk]
  have hv : vK m ρ c (ix2 n j) = proj (c2 (aX m c)) (c2 (aWv m c)) n j := congrFun (congrFun (vK_eq m ρ c) n) j
  rw [hv]
  rfl

end Kernel

section Reference

open Cert.ReferenceIdeal

/-- The reference's result at (n, j): the residual map of its aggregate row. -/
theorem ref_value (feats : FVec Ideal S100000x128 .f32) (kj ji : IVec S800000 32) (Wv Wq Wk W1 : FVec Ideal S128x128 .f32)
    (b1 : FVec Ideal S128 .f32) (W2 : FVec Ideal S128x128 .f32) (b2 : FVec Ideal S128 .f32) (n : Fin 100000) (j : Fin 128) :
    RT.out feats kj ji Wv Wq Wk W1 b1 W2 b2 (ix2 n j)
      = mlp (aggR (proj (c2 feats) (c2 Wv)) (proj (c2 feats) (c2 Wq)) (proj (c2 feats) (c2 Wk)) (c1 kj) (c1 ji) n)
          (c2 W1) (c1 b1) (c2 W2) (c1 b2) (proj (c2 feats) (c2 Wv) n) j := by
  have hp : ∀ w : FVec Ideal S128x128 .f32, c2 (RT.proj (F := Ideal) feats w) = proj (c2 feats) (c2 w) := fun w => by
    funext a b; exact Cert.ReferenceIdeal.RTail.proj_apply feats w a b
  rw [Cert.ReferenceIdeal.RTail.out_apply]
  simp only [Cert.ReferenceIdeal.RRead.aggT_apply, hp, Cert.ReferenceIdeal.RTail.proj_apply]

end Reference

/-- The three frames. -/
theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Proof.RefRun.run m ρ)

/-- From memories agreeing on the arguments both programs end at one array. -/
theorem algebraic : Cert.algebraic_KernelIdeal_ReferenceIdeal := by
  intro m ρ m' ρ' hpre hagree
  refine ⟨fun c => Cert.KernelIdeal.Gen.W14 m ρ c (Proc.devRef .tc Cert.KernelIdeal.main_v35),
    Cert.KernelIdeal.KRun.run_out (F := Ideal) m ρ, ?_⟩
  refine (θ_run Cert.ReferenceIdeal.defs _ _).mono (fun _ h c => ⟨(h c).1.trans ?_, (h c).2⟩) (Cert.Proof.RefRun.run m' ρ')
  obtain ⟨h0, h1, h2, h3, h4, h5, h6, h7, h8, h9⟩ := hagree c
  obtain ⟨hX, hWv, hWq, hWk, hkj⟩ := Cert.Proof.PreFacts.of_pre m hpre c
  rw [h0, h1, h2, h3, h4, h5, h6, h7, h8, h9]
  funext i
  obtain ⟨n, j, rfl⟩ : ∃ (n : Fin 100000) (j : Fin 128), i = ix2 n j := ⟨i 0, i 1, eq_ix2 i⟩
  exact (ref_value _ _ _ _ _ _ _ _ _ _ n j).trans (kernel_value m ρ c hX hWv hWq hWk hkj n j).symm

end Cert.Proof.Final

end
-- ==== Proof.lean ====
/-
  The certificate's claim: the three frames, the (empty) list of idealization rewrites, and the equality of the two
  idealized programs' results over the extended reals, under the precondition that every float input is finite and
  every source index word lies in [0, 100000).

  The two kernel programs' frames are the generated ones; the reference is a line of array operations, whose run is
  read off the line (RefRun); the equality is assembled in Final from the first launch's projections (Region0), the
  array operations between the launches read at an index (KChain, KRead), the second launch's residual map on a block
  of rows (Region1), the reference read at an index (RRead, RTail) and the one algebraic law that joins them (Algebra).
-/
import proofs.«428754_j5119601016898_3_alg».proof.Defs
import proofs.«428754_j5119601016898_3_alg».proof.Proof.Gen.Kernel
import proofs.«428754_j5119601016898_3_alg».proof.Proof.Gen.Kernel.Skeleton
import proofs.«428754_j5119601016898_3_alg».proof.Proof.Gen.Kernel.Launch
import proofs.«428754_j5119601016898_3_alg».proof.Proof.Gen.Kernel.Points
import proofs.«428754_j5119601016898_3_alg».proof.Proof.Gen.Kernel.Frame
import proofs.«428754_j5119601016898_3_alg».proof.Proof.Gen.KernelIdeal
import proofs.«428754_j5119601016898_3_alg».proof.Proof.Gen.KernelIdeal.Skeleton
import proofs.«428754_j5119601016898_3_alg».proof.Proof.Gen.KernelIdeal.Launch
import proofs.«428754_j5119601016898_3_alg».proof.Proof.Gen.KernelIdeal.Points
import proofs.«428754_j5119601016898_3_alg».proof.Proof.Gen.KernelIdeal.Frame
import proofs.«428754_j5119601016898_3_alg».proof.Proof.Gen.ReferenceIdeal
import proofs.«428754_j5119601016898_3_alg».proof.Proof.Gen.Pre_finite_inputs
import proofs.«428754_j5119601016898_3_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Final.frame_p, Cert.Proof.Final.frame_pi, Cert.Proof.Final.frame_ri, trivial, Cert.Proof.Final.algebraic⟩

end Cert.Proof

end
